-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v79)) (v1 : (c : Dev Cert.KernelIdeal.nD) → Buf (Elt Ideal) ((c.tc : Thread Cert.KernelIdeal.nD Cert.KernelIdeal.τ).loc Cert.KernelIdeal.main_v82)) (v2 : (c : Dev Cert.KernelIdeal.nD) → Buf (Elt Ideal) ((c.tc : Thread Cert.KernelIdeal.nD Cert.KernelIdeal.τ).loc Cert.KernelIdeal.main_v85)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v79) = v0 c
          ∧ r.2.mem ((c.tc : Thread Cert.KernelIdeal.nD Cert.KernelIdeal.τ).loc Cert.KernelIdeal.main_v82) = v1 c
          ∧ r.2.mem ((c.tc : Thread Cert.KernelIdeal.nD Cert.KernelIdeal.τ).loc Cert.KernelIdeal.main_v85) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_v55) = v1 c
          ∧ r.2.mem ((c.tc : Thread Cert.ReferenceIdeal.nD Cert.ReferenceIdeal.τ).loc Cert.ReferenceIdeal.main_v52) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x64 : Shape := ⟨2, ![10000, 64]⟩
abbrev S2000x64 : Shape := ⟨2, ![2000, 64]⟩
abbrev S10000x1 : Shape := ⟨2, ![10000, 1]⟩
abbrev S2000x1 : Shape := ⟨2, ![2000, 1]⟩
abbrev S4000000 : Shape := ⟨1, ![4000000]⟩
abbrev S64x1 : Shape := ⟨2, ![64, 1]⟩
abbrev S1 : Shape := ⟨1, ![1]⟩
abbrev S_ : Shape := ⟨0, ![]⟩

class Facts : Prop where
  bcast_S_S10000x64 : S_.BroadcastsInDim S10000x64 (![] : Fin 0 → Fin S10000x64.rank)
  reducesTo_S10000x64_S_d0_1 : S10000x64.ReducesTo [0, 1] S_
  h_S_ : 0 < S_.numel
  bcast_S_S2000x64 : S_.BroadcastsInDim S2000x64 (![] : Fin 0 → Fin S2000x64.rank)
  reducesTo_S2000x64_S_d0_1 : S2000x64.ReducesTo [0, 1] S_
  bcast_S_S10000x1 : S_.BroadcastsInDim S10000x1 (![] : Fin 0 → Fin S10000x1.rank)
  reducesTo_S10000x1_S_d0_1 : S10000x1.ReducesTo [0, 1] S_
  bcast_S_S2000x1 : S_.BroadcastsInDim S2000x1 (![] : Fin 0 → Fin S2000x1.rank)
  reducesTo_S2000x1_S_d0_1 : S2000x1.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_
  bcast_S_S4000000 : S_.BroadcastsInDim S4000000 (![] : Fin 0 → Fin S4000000.rank)
  reducesTo_S4000000_S_d0 : S4000000.ReducesTo [0] S_

variable [Facts]

def fn_part3 {F : FTy → Type} [FloatOps F] (main_arg4 : IVec S4000000 32) (main_arg5 : IVec S4000000 32) (main_v48 : IVec S_ 1) (main_v50 : IVec S4000000 1) : IVec S_ 1 :=
  let main_c_19 : IVec S_ 32 := constantI S_ 32 10000#32
  let main_v51 : IVec S4000000 32 := broadcastInDim S4000000 ![] bcast_S_S4000000 main_c_19
  let main_v52 : IVec S4000000 1 := cmpi .slt main_arg4 main_v51
  let main_v53 : IVec S4000000 1 := andi main_v50 main_v52
  let main_c_20 : IVec S_ 1 := constantI S_ 1 1#1
  let main_v54 : IVec S_ 1 := (fun x v => Host.reduce IntOp.andi x v reducesTo_S4000000_S_d0 h_S_) main_v53 main_c_20
  let main_v55 : IVec S_ 1 := andi main_v48 main_v54
  let main_c_21 : IVec S_ 32 := constantI S_ 32 0#32
  let main_v56 : IVec S4000000 32 := broadcastInDim S4000000 ![] bcast_S_S4000000 main_c_21
  let main_v57 : IVec S4000000 1 := cmpi .sge main_arg5 main_v56
  let main_c_22 : IVec S_ 32 := constantI S_ 32 2000#32
  let main_v58 : IVec S4000000 32 := broadcastInDim S4000000 ![] bcast_S_S4000000 main_c_22
  let main_v59 : IVec S4000000 1 := cmpi .slt main_arg5 main_v58
  let main_v60 : IVec S4000000 1 := andi main_v57 main_v59
  let main_c_23 : IVec S_ 1 := constantI S_ 1 1#1
  let main_v61 : IVec S_ 1 := (fun x v => Host.reduce IntOp.andi x v reducesTo_S4000000_S_d0 h_S_) main_v60 main_c_23
  let main_v62 : IVec S_ 1 := andi main_v55 main_v61
  main_v62

def fn_part2 {F : FTy → Type} [FloatOps F] (main_arg4 : IVec S4000000 32) (main_arg5 : IVec S4000000 32) (main_arg9 : FVec F S1 .f32) (main_arg10 : FVec F S64x1 .f32) (main_arg11 : FVec F S1 .f32) (main_v33 : IVec S_ 1) : IVec S_ 1 :=
  let main_v34 : FVec F S1 .f32 := Host.absf main_arg9
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  let main_v39 : FVec F S64x1 .f32 := Host.absf main_arg10
  let main_cst_14 : FVec F S_ .f32 := constant S_ .f32 0x7F800000#32
  let main_v40 : FVec F S64x1 .f32 := broadcastInDim S64x1 ![] bcast_S_S64x1 main_cst_14
  let main_v41 : IVec S64x1 1 := cmpf .olt main_v39 main_v40
  let main_c_15 : IVec S_ 1 := constantI S_ 1 1#1
  let main_v42 : IVec S_ 1 := (fun x v => Host.reduce IntOp.andi x v reducesTo_S64x1_S_d0_1 h_S_) main_v41 main_c_15
  let main_v43 : IVec S_ 1 := andi main_v38 main_v42
  let main_v44 : FVec F S1 .f32 := Host.absf main_arg11
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  let main_c_18 : IVec S_ 32 := constantI S_ 32 0#32
  let main_v49 : IVec S4000000 32 := broadcastInDim S4000000 ![] bcast_S_S4000000 main_c_18
  let main_v50 : IVec S4000000 1 := cmpi .sge main_arg4 main_v49
  fn_part3 (F := F) main_arg4 main_arg5 main_v48 main_v50

def fn_part1 {F : FTy → Type} [FloatOps F] (main_arg4 : IVec S4000000 32) (main_arg5 : IVec S4000000 32) (main_arg6 : FVec F S64x1 .f32) (main_arg7 : FVec F S1 .f32) (main_arg8 : FVec F S64x1 .f32) (main_arg9 : FVec F S1 .f32) (main_arg10 : FVec F S64x1 .f32) (main_arg11 : FVec F S1 .f32) (main_v13 : IVec S_ 1) (main_v16 : IVec S2000x1 1) : IVec S_ 1 :=
  let main_c_5 : IVec S_ 1 := constantI S_ 1 1#1
  let main_v17 : IVec S_ 1 := (fun x v => Host.reduce IntOp.andi x v reducesTo_S2000x1_S_d0_1 h_S_) main_v16 main_c_5
  let main_v18 : IVec S_ 1 := andi main_v13 main_v17
  let main_v19 : FVec F S64x1 .f32 := Host.absf main_arg6
  let main_cst_6 : FVec F S_ .f32 := constant S_ .f32 0x7F800000#32
  let main_v20 : FVec F S64x1 .f32 := broadcastInDim S64x1 ![] bcast_S_S64x1 main_cst_6
  let main_v21 : IVec S64x1 1 := cmpf .olt main_v19 main_v20
  let main_c_7 : IVec S_ 1 := constantI S_ 1 1#1
  let main_v22 : IVec S_ 1 := (fun x v => Host.reduce IntOp.andi x v reducesTo_S64x1_S_d0_1 h_S_) main_v21 main_c_7
  let main_v23 : IVec S_ 1 := andi main_v18 main_v22
  let main_v24 : FVec F S1 .f32 := Host.absf main_arg7
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  let main_v29 : FVec F S64x1 .f32 := Host.absf main_arg8
  let main_cst_10 : FVec F S_ .f32 := constant S_ .f32 0x7F800000#32
  let main_v30 : FVec F S64x1 .f32 := broadcastInDim S64x1 ![] bcast_S_S64x1 main_cst_10
  let main_v31 : IVec S64x1 1 := cmpf .olt main_v29 main_v30
  let main_c_11 : IVec S_ 1 := constantI S_ 1 1#1
  let main_v32 : IVec S_ 1 := (fun x v => Host.reduce IntOp.andi x v reducesTo_S64x1_S_d0_1 h_S_) main_v31 main_c_11
  let main_v33 : IVec S_ 1 := andi main_v28 main_v32
  fn_part2 (F := F) main_arg4 main_arg5 main_arg9 main_arg10 main_arg11 main_v33

def fn {F : FTy → Type} [FloatOps F] (main_arg0 : FVec F S10000x64 .f32) (main_arg1 : FVec F S2000x64 .f32) (main_arg2 : FVec F S10000x1 .f32) (main_arg3 : FVec F S2000x1 .f32) (main_arg4 : IVec S4000000 32) (main_arg5 : IVec S4000000 32) (main_arg6 : FVec F S64x1 .f32) (main_arg7 : FVec F S1 .f32) (main_arg8 : FVec F S64x1 .f32) (main_arg9 : FVec F S1 .f32) (main_arg10 : FVec F S64x1 .f32) (main_arg11 : FVec F S1 .f32) : IVec S_ 1 :=
  let main_v0 : FVec F S10000x64 .f32 := Host.absf main_arg0
  let main_cst : FVec F S_ .f32 := constant S_ .f32 0x7F800000#32
  let main_v1 : FVec F S10000x64 .f32 := broadcastInDim S10000x64 ![] bcast_S_S10000x64 main_cst
  let main_v2 : IVec S10000x64 1 := cmpf .olt main_v0 main_v1
  let main_c : IVec S_ 1 := constantI S_ 1 1#1
  let main_v3 : IVec S_ 1 := (fun x v => Host.reduce IntOp.andi x v reducesTo_S10000x64_S_d0_1 h_S_) main_v2 main_c
  let main_v4 : FVec F S2000x64 .f32 := Host.absf main_arg1
  let main_cst_0 : FVec F S_ .f32 := constant S_ .f32 0x7F800000#32
  let main_v5 : FVec F S2000x64 .f32 := broadcastInDim S2000x64 ![] bcast_S_S2000x64 main_cst_0
  let main_v6 : IVec S2000x64 1 := cmpf .olt main_v4 main_v5
  let main_c_1 : IVec S_ 1 := constantI S_ 1 1#1
  let main_v7 : IVec S_ 1 := (fun x v => Host.reduce IntOp.andi x v reducesTo_S2000x64_S_d0_1 h_S_) main_v6 main_c_1
  let main_v8 : IVec S_ 1 := andi main_v3 main_v7
  let main_v9 : FVec F S10000x1 .f32 := Host.absf main_arg2
  let main_cst_2 : FVec F S_ .f32 := constant S_ .f32 0x7F800000#32
  let main_v10 : FVec F S10000x1 .f32 := broadcastInDim S10000x1 ![] bcast_S_S10000x1 main_cst_2
  let main_v11 : IVec S10000x1 1 := cmpf .olt main_v9 main_v10
  let main_c_3 : IVec S_ 1 := constantI S_ 1 1#1
  let main_v12 : IVec S_ 1 := (fun x v => Host.reduce IntOp.andi x v reducesTo_S10000x1_S_d0_1 h_S_) main_v11 main_c_3
  let main_v13 : IVec S_ 1 := andi main_v8 main_v12
  let main_v14 : FVec F S2000x1 .f32 := Host.absf main_arg3
  let main_cst_4 : FVec F S_ .f32 := constant S_ .f32 0x7F800000#32
  let main_v15 : FVec F S2000x1 .f32 := broadcastInDim S2000x1 ![] bcast_S_S2000x1 main_cst_4
  let main_v16 : IVec S2000x1 1 := cmpf .olt main_v14 main_v15
  fn_part1 (F := F) main_arg4 main_arg5 main_arg6 main_arg7 main_arg8 main_arg9 main_arg10 main_arg11 main_v13 main_v16
-- ==== Kernel.lean ====
abbrev S10000x64 : Shape := ⟨2, ![10000, 64]⟩
abbrev S2000x64 : Shape := ⟨2, ![2000, 64]⟩
abbrev S10000x1 : Shape := ⟨2, ![10000, 1]⟩
abbrev S2000x1 : Shape := ⟨2, ![2000, 1]⟩
abbrev S4000000 : Shape := ⟨1, ![4000000]⟩
abbrev S64x1 : Shape := ⟨2, ![64, 1]⟩
abbrev S1 : Shape := ⟨1, ![1]⟩
abbrev S_ : Shape := ⟨0, ![]⟩
abbrev S64 : Shape := ⟨1, ![64]⟩
abbrev S1x64 : Shape := ⟨2, ![1, 64]⟩
abbrev S64x2000 : Shape := ⟨2, ![64, 2000]⟩
abbrev S10000x2000 : Shape := ⟨2, ![10000, 2000]⟩
abbrev S20000000 : Shape := ⟨1, ![20000000]⟩
abbrev S4000000x1 : Shape := ⟨2, ![4000000, 1]⟩
abbrev S2000 : Shape := ⟨1, ![2000]⟩
abbrev S10000 : Shape := ⟨1, ![10000]⟩
abbrev S1x4000000 : Shape := ⟨2, ![1, 4000000]⟩
abbrev S5x4000000 : Shape := ⟨2, ![5, 4000000]⟩
abbrev S3x4000000 : Shape := ⟨2, ![3, 4000000]⟩
abbrev S5x80000 : Shape := ⟨2, ![5, 80000]⟩
abbrev S3x80000 : Shape := ⟨2, ![3, 80000]⟩
abbrev S1x80000 : Shape := ⟨2, ![1, 80000]⟩

abbrev nBuf : Space → Nat
  | .hbm => 123
  | .vmem => 4
  | .smem => 0
  | _ => 0

abbrev bufTy : (tb : Table) → Fin (tcTables nBuf tb) → BufTy
  | .hbm, ⟨0, _⟩ => ⟨S10000x64, .f32⟩
  | .hbm, ⟨1, _⟩ => ⟨S2000x64, .f32⟩
  | .hbm, ⟨2, _⟩ => ⟨S10000x1, .f32⟩
  | .hbm, ⟨3, _⟩ => ⟨S2000x1, .f32⟩
  | .hbm, ⟨4, _⟩ => ⟨S4000000, .i32⟩
  | .hbm, ⟨5, _⟩ => ⟨S4000000, .i32⟩
  | .hbm, ⟨6, _⟩ => ⟨S64x1, .f32⟩
  | .hbm, ⟨7, _⟩ => ⟨S1, .f32⟩
  | .hbm, ⟨8, _⟩ => ⟨S64x1, .f32⟩
  | .hbm, ⟨9, _⟩ => ⟨S1, .f32⟩
  | .hbm, ⟨10, _⟩ => ⟨S64x1, .f32⟩
  | .hbm, ⟨11, _⟩ => ⟨S1, .f32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S4000000, .i32⟩
  | .hbm, ⟨16, _⟩ => ⟨S4000000, .i32⟩
  | .hbm, ⟨17, _⟩ => ⟨S_, .i32⟩
  | .hbm, ⟨18, _⟩ => ⟨S4000000, .i32⟩
  | .hbm, ⟨19, _⟩ => ⟨S4000000, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S4000000, .i32⟩
  | .hbm, ⟨24, _⟩ => ⟨S4000000, .i32⟩
  | .hbm, ⟨25, _⟩ => ⟨S_, .i32⟩
  | .hbm, ⟨26, _⟩ => ⟨S4000000, .i32⟩
  | .hbm, ⟨27, _⟩ => ⟨S4000000, .i32⟩
  | .hbm, ⟨28, _⟩ => ⟨S64, .f32⟩
  | .hbm, ⟨29, _⟩ => ⟨S1x64, .f32⟩
  | .hbm, ⟨30, _⟩ => ⟨S10000x64, .f32⟩
  | .hbm, ⟨31, _⟩ => ⟨S10000x64, .f32⟩
  | .hbm, ⟨32, _⟩ => ⟨S64, .f32⟩
  | .hbm, ⟨33, _⟩ => ⟨S1x64, .f32⟩
  | .hbm, ⟨34, _⟩ => ⟨S10000x64, .f32⟩
  | .hbm, ⟨35, _⟩ => ⟨S10000x64, .f32⟩
  | .hbm, ⟨36, _⟩ => ⟨S64, .f32⟩
  | .hbm, ⟨37, _⟩ => ⟨S1x64, .f32⟩
  | .hbm, ⟨38, _⟩ => ⟨S10000x64, .f32⟩
  | .hbm, ⟨39, _⟩ => ⟨S10000x64, .f32⟩
  | .hbm, ⟨40, _⟩ => ⟨S64x2000, .f32⟩
  | .hbm, ⟨41, _⟩ => ⟨S10000x2000, .f32⟩
  | .hbm, ⟨42, _⟩ => ⟨S_, .f32⟩
  | .hbm, ⟨43, _⟩ => ⟨S10000x2000, .f32⟩
  | .hbm, ⟨44, _⟩ => ⟨S10000x2000, .f32⟩
  | .hbm, ⟨45, _⟩ => ⟨S10000x2000, .f32⟩
  | .hbm, ⟨46, _⟩ => ⟨S_, .f32⟩
  | .hbm, ⟨47, _⟩ => ⟨S10000x2000, .f32⟩
  | .hbm, ⟨48, _⟩ => ⟨S10000x2000, .f32⟩
  | .hbm, ⟨49, _⟩ => ⟨S10000x2000, .f32⟩
  | .hbm, ⟨50, _⟩ => ⟨S_, .f32⟩
  | .hbm, ⟨51, _⟩ => ⟨S10000x2000, .f32⟩
  | .hbm, ⟨52, _⟩ => ⟨S10000x2000, .f32⟩
  | .hbm, ⟨53, _⟩ => ⟨S_, .i32⟩
  | .hbm, ⟨54, _⟩ => ⟨S4000000, .i32⟩
  | .hbm, ⟨55, _⟩ => ⟨S4000000, .i32⟩
  | .hbm, ⟨56, _⟩ => ⟨S4000000, .i32⟩
  | .hbm, ⟨57, _⟩ => ⟨S20000000, .f32⟩
  | .hbm, ⟨58, _⟩ => ⟨S_, .i32⟩
  | .hbm, ⟨59, _⟩ => ⟨S4000000, .i32⟩
  | .hbm, ⟨60, _⟩ => ⟨S4000000, .i1⟩
  | .hbm, ⟨61, _⟩ => ⟨S_, .i32⟩
  | .hbm, ⟨62, _⟩ => ⟨S4000000, .i32⟩
  | .hbm, ⟨63, _⟩ => ⟨S4000000, .i32⟩
  | .hbm, ⟨64, _⟩ => ⟨S4000000, .i32⟩
  | .hbm, ⟨65, _⟩ => ⟨S4000000x1, .i32⟩
  | .hbm, ⟨66, _⟩ => ⟨S4000000, .f32⟩
  | .hbm, ⟨67, _⟩ => ⟨S20000000, .f32⟩
  | .hbm, ⟨68, _⟩ => ⟨S_, .i32⟩
  | .hbm, ⟨69, _⟩ => ⟨S4000000, .i32⟩
  | .hbm, ⟨70, _⟩ => ⟨S4000000, .i1⟩
  | .hbm, ⟨71, _⟩ => ⟨S_, .i32⟩
  | .hbm, ⟨72, _⟩ => ⟨S4000000, .i32⟩
  | .hbm, ⟨73, _⟩ => ⟨S4000000, .i32⟩
  | .hbm, ⟨74, _⟩ => ⟨S4000000, .i32⟩
  | .hbm, ⟨75, _⟩ => ⟨S4000000x1, .i32⟩
  | .hbm, ⟨76, _⟩ => ⟨S4000000, .f32⟩
  | .hbm, ⟨77, _⟩ => ⟨S20000000, .f32⟩
  | .hbm, ⟨78, _⟩ => ⟨S_, .i32⟩
  | .hbm, ⟨79, _⟩ => ⟨S4000000, .i32⟩
  | .hbm, ⟨80, _⟩ => ⟨S4000000, .i1⟩
  | .hbm, ⟨81, _⟩ => ⟨S_, .i32⟩
  | .hbm, ⟨82, _⟩ => ⟨S4000000, .i32⟩
  | .hbm, ⟨83, _⟩ => ⟨S4000000, .i32⟩
  | .hbm, ⟨84, _⟩ => ⟨S4000000, .i32⟩
  | .hbm, ⟨85, _⟩ => ⟨S4000000x1, .i32⟩
  | .hbm, ⟨86, _⟩ => ⟨S4000000, .f32⟩
  | .hbm, ⟨87, _⟩ => ⟨S2000, .f32⟩
  | .hbm, ⟨88, _⟩ => ⟨S_, .i32⟩
  | .hbm, ⟨89, _⟩ => ⟨S4000000, .i32⟩
  | .hbm, ⟨90, _⟩ => ⟨S4000000, .i1⟩
  | .hbm, ⟨91, _⟩ => ⟨S_, .i32⟩
  | .hbm, ⟨92, _⟩ => ⟨S4000000, .i32⟩
  | .hbm, ⟨93, _⟩ => ⟨S4000000, .i32⟩
  | .hbm, ⟨94, _⟩ => ⟨S4000000, .i32⟩
  | .hbm, ⟨95, _⟩ => ⟨S4000000x1, .i32⟩
  | .hbm, ⟨96, _⟩ => ⟨S4000000, .f32⟩
  | .hbm, ⟨97, _⟩ => ⟨S10000, .f32⟩
  | .hbm, ⟨98, _⟩ => ⟨S_, .i32⟩
  | .hbm, ⟨99, _⟩ => ⟨S4000000, .i32⟩
  | .hbm, ⟨100, _⟩ => ⟨S4000000, .i1⟩
  | .hbm, ⟨101, _⟩ => ⟨S_, .i32⟩
  | .hbm, ⟨102, _⟩ => ⟨S4000000, .i32⟩
  | .hbm, ⟨103, _⟩ => ⟨S4000000, .i32⟩
  | .hbm, ⟨104, _⟩ => ⟨S4000000, .i32⟩
  | .hbm, ⟨105, _⟩ => ⟨S4000000x1, .i32⟩
  | .hbm, ⟨106, _⟩ => ⟨S4000000, .f32⟩
  | .hbm, ⟨107, _⟩ => ⟨S1x4000000, .f32⟩
  | .hbm, ⟨108, _⟩ => ⟨S1x4000000, .f32⟩
  | .hbm, ⟨109, _⟩ => ⟨S1x4000000, .f32⟩
  | .hbm, ⟨110, _⟩ => ⟨S1x4000000, .f32⟩
  | .hbm, ⟨111, _⟩ => ⟨S1x4000000, .f32⟩
  | .hbm, ⟨112, _⟩ => ⟨S5x4000000, .f32⟩
  | .hbm, ⟨113, _⟩ => ⟨S3x4000000, .f32⟩
  | .hbm, ⟨114, _⟩ => ⟨S1x4000000, .f32⟩
  | .hbm, ⟨115, _⟩ => ⟨S4000000, .f32⟩
  | .hbm, ⟨116, _⟩ => ⟨S4000000x1, .f32⟩
  | .hbm, ⟨117, _⟩ => ⟨S1x4000000, .f32⟩
  | .hbm, ⟨118, _⟩ => ⟨S4000000, .f32⟩
  | .hbm, ⟨119, _⟩ => ⟨S4000000x1, .f32⟩
  | .hbm, ⟨120, _⟩ => ⟨S1x4000000, .f32⟩
  | .hbm, ⟨121, _⟩ => ⟨S4000000, .f32⟩
  | .hbm, ⟨122, _⟩ => ⟨S4000000x1, .f32⟩
  | .local _ .vmem, ⟨0, _⟩ => ⟨S5x80000, .f32⟩
  | .local _ .vmem, ⟨1, _⟩ => ⟨S5x80000, .f32⟩
  | .local _ .vmem, ⟨2, _⟩ => ⟨S3x80000, .f32⟩
  | .local _ .vmem, ⟨3, _⟩ => ⟨S3x80000, .f32⟩
  | _, _ => ⟨S10000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_c_0 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_v0 : Ref sig .tc := ⟨.hbm, 19, rfl⟩
abbrev main_c_1 : Ref sig .tc := ⟨.hbm, 20, rfl⟩
abbrev main_c_2 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_call1_v3 : Ref sig .tc := ⟨.hbm, 25, rfl⟩
abbrev main_call1_v4 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_c_3 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_c_4 : Ref sig .tc := ⟨.hbm, 58, rfl⟩
abbrev main_v31 : Ref sig .tc := ⟨.hbm, 59, rfl⟩
abbrev main_v32 : Ref sig .tc := ⟨.hbm, 60, rfl⟩
abbrev main_c_5 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_c_6 : Ref sig .tc := ⟨.hbm, 68, rfl⟩
abbrev main_v39 : Ref sig .tc := ⟨.hbm, 69, rfl⟩
abbrev main_v40 : Ref sig .tc := ⟨.hbm, 70, rfl⟩
abbrev main_c_7 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_c_8 : Ref sig .tc := ⟨.hbm, 78, rfl⟩
abbrev main_v47 : Ref sig .tc := ⟨.hbm, 79, rfl⟩
abbrev main_v48 : Ref sig .tc := ⟨.hbm, 80, rfl⟩
abbrev main_c_9 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_c_10 : Ref sig .tc := ⟨.hbm, 88, rfl⟩
abbrev main_v55 : Ref sig .tc := ⟨.hbm, 89, rfl⟩
abbrev main_v56 : Ref sig .tc := ⟨.hbm, 90, rfl⟩
abbrev main_c_11 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_c_12 : Ref sig .tc := ⟨.hbm, 98, rfl⟩
abbrev main_v63 : Ref sig .tc := ⟨.hbm, 99, rfl⟩
abbrev main_v64 : Ref sig .tc := ⟨.hbm, 100, rfl⟩
abbrev main_c_13 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S5x80000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x80000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  bcast_S_S4000000 : S_.BroadcastsInDim S4000000 (![] : Fin 0 → Fin S4000000.rank)
  shapeCasts_S64x1_S64 : S64x1.ShapeCasts S64
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  transposes_S2000x64_S64x2000_1_0 : S2000x64.Transposes [1, 0] S64x2000
  shapeCasts_S1_S_ : S1.ShapeCasts S_
  bcast_S_S10000x2000 : S_.BroadcastsInDim S10000x2000 (![] : Fin 0 → Fin S10000x2000.rank)
  shapeCasts_S10000x2000_S20000000 : S10000x2000.ShapeCasts S20000000
  bcast_S4000000_S4000000x1_0 : S4000000.BroadcastsInDim S4000000x1 (![0] : Fin 1 → Fin S4000000x1.rank)
  shapeCasts_S2000x1_S2000 : S2000x1.ShapeCasts S2000
  shapeCasts_S10000x1_S10000 : S10000x1.ShapeCasts S10000
  bcast_S4000000_S1x4000000_1 : S4000000.BroadcastsInDim S1x4000000 (![1] : Fin 1 → Fin S1x4000000.rank)
  concatenates_S1x4000000_S1x4000000_S1x4000000_S1x4000000_S1x4000000_S5x4000000_d0 : Shape.Concatenates [S1x4000000, S1x4000000, S1x4000000, S1x4000000, S1x4000000] S5x4000000 0
  inb_S5x80000_S1x80000_0_0 : ∀ a, (![0, 0] : Fin 2 → Nat) a + S1x80000.size a ≤ S5x80000.size a
  h_S1x80000 : 0 < S1x80000.numel
  shapeCasts_S1x80000_S1x80000 : S1x80000.ShapeCasts S1x80000
  inb_S5x80000_S1x80000_1_0 : ∀ a, (![1, 0] : Fin 2 → Nat) a + S1x80000.size a ≤ S5x80000.size a
  inb_S5x80000_S1x80000_2_0 : ∀ a, (![2, 0] : Fin 2 → Nat) a + S1x80000.size a ≤ S5x80000.size a
  inb_S5x80000_S1x80000_3_0 : ∀ a, (![3, 0] : Fin 2 → Nat) a + S1x80000.size a ≤ S5x80000.size a
  inb_S5x80000_S1x80000_4_0 : ∀ a, (![4, 0] : Fin 2 → Nat) a + S1x80000.size a ≤ S5x80000.size a
  inb_S3x80000_S1x80000_0_0 : ∀ a, (![0, 0] : Fin 2 → Nat) a + S1x80000.size a ≤ S3x80000.size a
  inb_S3x80000_S1x80000_1_0 : ∀ a, (![1, 0] : Fin 2 → Nat) a + S1x80000.size a ≤ S3x80000.size a
  inb_S3x80000_S1x80000_2_0 : ∀ a, (![2, 0] : Fin 2 → Nat) a + S1x80000.size a ≤ S3x80000.size a
  slices_S3x4000000_S1x4000000_0_0 : S3x4000000.Slices ![0, 0] S1x4000000
  shapeCasts_S1x4000000_S4000000 : S1x4000000.ShapeCasts S4000000
  shapeCasts_S4000000_S4000000x1 : S4000000.ShapeCasts S4000000x1
  slices_S3x4000000_S1x4000000_1_0 : S3x4000000.Slices ![1, 0] S1x4000000
  slices_S3x4000000_S1x4000000_2_0 : S3x4000000.Slices ![2, 0] S1x4000000
  dot_S10000x64_S64x2000_S10000x2000_1_0_0_1_n_n_wf : DotDims.WF S10000x64 S64x2000 S10000x2000 [1] [0] [0] [1] [] []
  gather_S20000000_S4000000x1_S4000000_n_0_n_n_0_1_1_wf : GatherDims.WF S20000000 S4000000x1 S4000000 [] [0] [] [0] [] 1 ![1]
  gather_S2000_S4000000x1_S4000000_n_0_n_n_0_1_1_wf : GatherDims.WF S2000 S4000000x1 S4000000 [] [0] [] [0] [] 1 ![1]
  gather_S10000_S4000000x1_S4000000_n_0_n_n_0_1_1_wf : GatherDims.WF S10000 S4000000x1 S4000000 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5x80000.size a ≤ S5x4000000.size a
  hwx0_0 : ∀ i : grid0.Coords, EltTy.bits .f32 = 32 ∨ (Rect.block (s := S5x4000000) S5x80000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3x80000.size a ≤ S3x4000000.size a
  hwx0_1 : ∀ i : grid0.Coords, EltTy.bits .f32 = 32 ∨ (Rect.block (s := S3x4000000) S3x80000.size (cc0_transform_1 i) (hinb0_1 i)).WholeWords (EltTy.packing .f32)

variable [Facts₀]

def dot_S10000x64_S64x2000_S10000x2000_1_0_0_1_n_n : DotDims S10000x64 S64x2000 S10000x2000 where
  lhsContracting := [1]
  rhsContracting := [0]
  lhsNonContracting := [0]
  rhsNonContracting := [1]
  lhsBatch := []
  rhsBatch := []
  wf := dot_S10000x64_S64x2000_S10000x2000_1_0_0_1_n_n_wf
def gather_S20000000_S4000000x1_S4000000_n_0_n_n_0_1_1 : GatherDims S20000000 S4000000x1 S4000000 where
  offsetDims := []
  collapsedSliceDims := [0]
  operandBatchingDims := []
  startIndicesBatchingDims := []
  startIndexMap := [0]
  indexVectorDim := 1
  sliceSizes := ![1]
  wf := gather_S20000000_S4000000x1_S4000000_n_0_n_n_0_1_1_wf
def gather_S2000_S4000000x1_S4000000_n_0_n_n_0_1_1 : GatherDims S2000 S4000000x1 S4000000 where
  offsetDims := []
  collapsedSliceDims := [0]
  operandBatchingDims := []
  startIndicesBatchingDims := []
  startIndexMap := [0]
  indexVectorDim := 1
  sliceSizes := ![1]
  wf := gather_S2000_S4000000x1_S4000000_n_0_n_n_0_1_1_wf
def gather_S10000_S4000000x1_S4000000_n_0_n_n_0_1_1 : GatherDims S10000 S4000000x1 S4000000 where
  offsetDims := []
  collapsedSliceDims := [0]
  operandBatchingDims := []
  startIndicesBatchingDims := []
  startIndexMap := [0]
  indexVectorDim := 1
  sliceSizes := ![1]
  wf := gather_S10000_S4000000x1_S4000000_n_0_n_n_0_1_1_wf

abbrev win0_0 : Pipeline.Window sig grid0 :=
  Pipeline.Window.ofSpec (Memref.whole main_v75) S5x80000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v76) S3x80000.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S10000x64 : Shape := ⟨2, ![10000, 64]⟩
abbrev S2000x64 : Shape := ⟨2, ![2000, 64]⟩
abbrev S10000x1 : Shape := ⟨2, ![10000, 1]⟩
abbrev S2000x1 : Shape := ⟨2, ![2000, 1]⟩
abbrev S4000000 : Shape := ⟨1, ![4000000]⟩
abbrev S64x1 : Shape := ⟨2, ![64, 1]⟩
abbrev S1 : Shape := ⟨1, ![1]⟩
abbrev S_ : Shape := ⟨0, ![]⟩
abbrev S4000000x1 : Shape := ⟨2, ![4000000, 1]⟩
abbrev S4000000x64 : Shape := ⟨2, ![4000000, 64]⟩
abbrev S1x1 : Shape := ⟨2, ![1, 1]⟩

abbrev nBuf : Space → Nat
  | .hbm => 114
  | .vmem => 0
  | .smem => 0
  | _ => 0

abbrev bufTy : (tb : Table) → Fin (tcTables nBuf tb) → BufTy
  | .hbm, ⟨0, _⟩ => ⟨S10000x64, .f32⟩
  | .hbm, ⟨1, _⟩ => ⟨S2000x64, .f32⟩
  | .hbm, ⟨2, _⟩ => ⟨S10000x1, .f32⟩
  | .hbm, ⟨3, _⟩ => ⟨S2000x1, .f32⟩
  | .hbm, ⟨4, _⟩ => ⟨S4000000, .i32⟩
  | .hbm, ⟨5, _⟩ => ⟨S4000000, .i32⟩
  | .hbm, ⟨6, _⟩ => ⟨S64x1, .f32⟩
  | .hbm, ⟨7, _⟩ => ⟨S1, .f32⟩
  | .hbm, ⟨8, _⟩ => ⟨S64x1, .f32⟩
  | .hbm, ⟨9, _⟩ => ⟨S1, .f32⟩
  | .hbm, ⟨10, _⟩ => ⟨S64x1, .f32⟩
  | .hbm, ⟨11, _⟩ => ⟨S1, .f32⟩
  | .hbm, ⟨12, _⟩ => ⟨S_, .i32⟩
  | .hbm, ⟨13, _⟩ => ⟨S4000000, .i32⟩
  | .hbm, ⟨14, _⟩ => ⟨S4000000, .i1⟩
  | .hbm, ⟨15, _⟩ => ⟨S_, .i32⟩
  | .hbm, ⟨16, _⟩ => ⟨S4000000, .i32⟩
  | .hbm, ⟨17, _⟩ => ⟨S4000000, .i32⟩
  | .hbm, ⟨18, _⟩ => ⟨S4000000, .i32⟩
  | .hbm, ⟨19, _⟩ => ⟨S4000000x1, .i32⟩
  | .hbm, ⟨20, _⟩ => ⟨S4000000x64, .f32⟩
  | .hbm, ⟨21, _⟩ => ⟨S_, .i32⟩
  | .hbm, ⟨22, _⟩ => ⟨S4000000, .i32⟩
  | .hbm, ⟨23, _⟩ => ⟨S4000000, .i1⟩
  | .hbm, ⟨24, _⟩ => ⟨S_, .i32⟩
  | .hbm, ⟨25, _⟩ => ⟨S4000000, .i32⟩
  | .hbm, ⟨26, _⟩ => ⟨S4000000, .i32⟩
  | .hbm, ⟨27, _⟩ => ⟨S4000000, .i32⟩
  | .hbm, ⟨28, _⟩ => ⟨S4000000x1, .i32⟩
  | .hbm, ⟨29, _⟩ => ⟨S4000000x64, .f32⟩
  | .hbm, ⟨30, _⟩ => ⟨S4000000x64, .f32⟩
  | .hbm, ⟨31, _⟩ => ⟨S_, .i32⟩
  | .hbm, ⟨32, _⟩ => ⟨S4000000, .i32⟩
  | .hbm, ⟨33, _⟩ => ⟨S4000000, .i1⟩
  | .hbm, ⟨34, _⟩ => ⟨S_, .i32⟩
  | .hbm, ⟨35, _⟩ => ⟨S4000000, .i32⟩
  | .hbm, ⟨36, _⟩ => ⟨S4000000, .i32⟩
  | .hbm, ⟨37, _⟩ => ⟨S4000000, .i32⟩
  | .hbm, ⟨38, _⟩ => ⟨S4000000x1, .i32⟩
  | .hbm, ⟨39, _⟩ => ⟨S4000000x1, .f32⟩
  | .hbm, ⟨40, _⟩ => ⟨S_, .i32⟩
  | .hbm, ⟨41, _⟩ => ⟨S4000000, .i32⟩
  | .hbm, ⟨42, _⟩ => ⟨S4000000, .i1⟩
  | .hbm, ⟨43, _⟩ => ⟨S_, .i32⟩
  | .hbm, ⟨44, _⟩ => ⟨S4000000, .i32⟩
  | .hbm, ⟨45, _⟩ => ⟨S4000000, .i32⟩
  | .hbm, ⟨46, _⟩ => ⟨S4000000, .i32⟩
  | .hbm, ⟨47, _⟩ => ⟨S4000000x1, .i32⟩
  | .hbm, ⟨48, _⟩ => ⟨S4000000x1, .f32⟩
  | .hbm, ⟨49, _⟩ => ⟨S4000000x1, .f32⟩
  | .hbm, ⟨50, _⟩ => ⟨S1x1, .f32⟩
  | .hbm, ⟨51, _⟩ => ⟨S4000000x1, .f32⟩
  | .hbm, ⟨52, _⟩ => ⟨S4000000x1, .f32⟩
  | .hbm, ⟨53, _⟩ => ⟨S4000000x1, .f32⟩
  | .hbm, ⟨54, _⟩ => ⟨S4000000x1, .f32⟩
  | .hbm, ⟨55, _⟩ => ⟨S_, .f32⟩
  | .hbm, ⟨56, _⟩ => ⟨S4000000x1, .f32⟩
  | .hbm, ⟨57, _⟩ => ⟨S4000000x1, .f32⟩
  | .hbm, ⟨58, _⟩ => ⟨S_, .f32⟩
  | .hbm, ⟨59, _⟩ => ⟨S4000000x1, .f32⟩
  | .hbm, ⟨60, _⟩ => ⟨S4000000x1, .f32⟩
  | .hbm, ⟨61, _⟩ => ⟨S4000000x1, .f32⟩
  | .hbm, ⟨62, _⟩ => ⟨S1x1, .f32⟩
  | .hbm, ⟨63, _⟩ => ⟨S4000000x1, .f32⟩
  | .hbm, ⟨64, _⟩ => ⟨S4000000x1, .f32⟩
  | .hbm, ⟨65, _⟩ => ⟨S4000000x1, .f32⟩
  | .hbm, ⟨66, _⟩ => ⟨S1x1, .f32⟩
  | .hbm, ⟨67, _⟩ => ⟨S4000000x1, .f32⟩
  | .hbm, ⟨68, _⟩ => ⟨S4000000x1, .f32⟩
  | .hbm, ⟨69, _⟩ => ⟨S4000000x1, .f32⟩
  | .hbm, ⟨70, _⟩ => ⟨S4000000x1, .f32⟩
  | .hbm, ⟨71, _⟩ => ⟨S_, .f32⟩
  | .hbm, ⟨72, _⟩ => ⟨S4000000x1, .f32⟩
  | .hbm, ⟨73, _⟩ => ⟨S4000000x1, .f32⟩
  | .hbm, ⟨74, _⟩ => ⟨S_, .f32⟩
  | .hbm, ⟨75, _⟩ => ⟨S4000000x1, .f32⟩
  | .hbm, ⟨76, _⟩ => ⟨S4000000x1, .f32⟩
  | .hbm, ⟨77, _⟩ => ⟨S4000000x1, .f32⟩
  | .hbm, ⟨78, _⟩ => ⟨S_, .f32⟩
  | .hbm, ⟨79, _⟩ => ⟨S4000000x1, .f32⟩
  | .hbm, ⟨80, _⟩ => ⟨S4000000x1, .f32⟩
  | .hbm, ⟨81, _⟩ => ⟨S4000000x1, .f32⟩
  | .hbm, ⟨82, _⟩ => ⟨S4000000x1, .f32⟩
  | .hbm, ⟨83, _⟩ => ⟨S4000000x1, .i1⟩
  | .hbm, ⟨84, _⟩ => ⟨S4000000x1, .f32⟩
  | .hbm, ⟨85, _⟩ => ⟨S4000000x1, .f32⟩
  | .hbm, ⟨86, _⟩ => ⟨S4000000x1, .f32⟩
  | .hbm, ⟨87, _⟩ => ⟨S4000000x1, .f32⟩
  | .hbm, ⟨88, _⟩ => ⟨S4000000x1, .f32⟩
  | .hbm, ⟨89, _⟩ => ⟨S4000000x1, .f32⟩
  | .hbm, ⟨90, _⟩ => ⟨S4000000x1, .f32⟩
  | .hbm, ⟨91, _⟩ => ⟨S4000000x1, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S4000000x1, .f32⟩
  | .hbm, ⟨96, _⟩ => ⟨S4000000x1, .f32⟩
  | .hbm, ⟨97, _⟩ => ⟨S_, .f32⟩
  | .hbm, ⟨98, _⟩ => ⟨S4000000x1, .f32⟩
  | .hbm, ⟨99, _⟩ => ⟨S4000000x1, .f32⟩
  | .hbm, ⟨100, _⟩ => ⟨S4000000x1, .f32⟩
  | .hbm, ⟨101, _⟩ => ⟨S4000000x1, .f32⟩
  | .hbm, ⟨102, _⟩ => ⟨S_, .f32⟩
  | .hbm, ⟨103, _⟩ => ⟨S4000000x1, .f32⟩
  | .hbm, ⟨104, _⟩ => ⟨S4000000x1, .f32⟩
  | .hbm, ⟨105, _⟩ => ⟨S_, .f32⟩
  | .hbm, ⟨106, _⟩ => ⟨S_, .f32⟩
  | .hbm, ⟨107, _⟩ => ⟨S_, .f32⟩
  | .hbm, ⟨108, _⟩ => ⟨S4000000x1, .f32⟩
  | .hbm, ⟨109, _⟩ => ⟨S4000000x1, .f32⟩
  | .hbm, ⟨110, _⟩ => ⟨S_, .f32⟩
  | .hbm, ⟨111, _⟩ => ⟨S4000000x1, .f32⟩
  | .hbm, ⟨112, _⟩ => ⟨S4000000x1, .f32⟩
  | .hbm, ⟨113, _⟩ => ⟨S4000000x1, .f32⟩
  | _, _ => ⟨S10000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_c_1 : Ref sig .tc := ⟨.hbm, 21, rfl⟩
abbrev main_v7 : Ref sig .tc := ⟨.hbm, 22, rfl⟩
abbrev main_v8 : Ref sig .tc := ⟨.hbm, 23, rfl⟩
abbrev main_c_2 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_c_3 : Ref sig .tc := ⟨.hbm, 31, rfl⟩
abbrev main_v15 : Ref sig .tc := ⟨.hbm, 32, rfl⟩
abbrev main_v16 : Ref sig .tc := ⟨.hbm, 33, rfl⟩
abbrev main_c_4 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_5 : Ref sig .tc := ⟨.hbm, 40, rfl⟩
abbrev main_v22 : Ref sig .tc := ⟨.hbm, 41, rfl⟩
abbrev main_v23 : Ref sig .tc := ⟨.hbm, 42, rfl⟩
abbrev main_c_6 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst : Ref sig .tc := ⟨.hbm, 55, rfl⟩
abbrev main_v35 : Ref sig .tc := ⟨.hbm, 56, rfl⟩
abbrev main_v36 : Ref sig .tc := ⟨.hbm, 57, rfl⟩
abbrev main_cst_7 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_8 : Ref sig .tc := ⟨.hbm, 71, rfl⟩
abbrev main_v49 : Ref sig .tc := ⟨.hbm, 72, rfl⟩
abbrev main_v50 : Ref sig .tc := ⟨.hbm, 73, rfl⟩
abbrev main_cst_9 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_call0_cst : Ref sig .tc := ⟨.hbm, 78, rfl⟩
abbrev main_call0_v0 : Ref sig .tc := ⟨.hbm, 79, rfl⟩
abbrev main_call0_v1 : Ref sig .tc := ⟨.hbm, 80, rfl⟩
abbrev main_call0_v2 : Ref sig .tc := ⟨.hbm, 81, rfl⟩
abbrev main_call0_v3 : Ref sig .tc := ⟨.hbm, 82, rfl⟩
abbrev main_call0_v4 : Ref sig .tc := ⟨.hbm, 83, rfl⟩
abbrev main_call0_v5 : Ref sig .tc := ⟨.hbm, 84, rfl⟩
abbrev main_call0_v6 : Ref sig .tc := ⟨.hbm, 85, rfl⟩
abbrev main_call0_v7 : Ref sig .tc := ⟨.hbm, 86, rfl⟩
abbrev main_call0_v8 : Ref sig .tc := ⟨.hbm, 87, rfl⟩
abbrev main_call0_v9 : Ref sig .tc := ⟨.hbm, 88, rfl⟩
abbrev main_call0_v10 : Ref sig .tc := ⟨.hbm, 89, rfl⟩
abbrev main_call0_v11 : Ref sig .tc := ⟨.hbm, 90, rfl⟩
abbrev main_v54 : Ref sig .tc := ⟨.hbm, 91, rfl⟩
abbrev main_cst_10 : Ref sig .tc := ⟨.hbm, 92, rfl⟩
abbrev main_cst_11 : Ref sig .tc := ⟨.hbm, 93, rfl⟩
abbrev main_call1_v0 : Ref sig .tc := ⟨.hbm, 94, rfl⟩
abbrev main_call1_v1 : Ref sig .tc := ⟨.hbm, 95, rfl⟩
abbrev main_call1_v2 : Ref sig .tc := ⟨.hbm, 96, rfl⟩
abbrev main_call1_v3 : Ref sig .tc := ⟨.hbm, 97, rfl⟩
abbrev main_call1_v4 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_cst_12 : Ref sig .tc := ⟨.hbm, 102, rfl⟩
abbrev main_v58 : Ref sig .tc := ⟨.hbm, 103, rfl⟩
abbrev main_v59 : Ref sig .tc := ⟨.hbm, 104, rfl⟩
abbrev main_cst_13 : Ref sig .tc := ⟨.hbm, 105, rfl⟩
abbrev main_cst_14 : Ref sig .tc := ⟨.hbm, 106, rfl⟩
abbrev main_call2_v0 : Ref sig .tc := ⟨.hbm, 107, rfl⟩
abbrev main_call2_v1 : Ref sig .tc := ⟨.hbm, 108, rfl⟩
abbrev main_call2_v2 : Ref sig .tc := ⟨.hbm, 109, rfl⟩
abbrev main_call2_v3 : Ref sig .tc := ⟨.hbm, 110, rfl⟩
abbrev main_call2_v4 : Ref sig .tc := ⟨.hbm, 111, rfl⟩
abbrev main_v60 : Ref sig .tc := ⟨.hbm, 112, rfl⟩
abbrev main_v61 : Ref sig .tc := ⟨.hbm, 113, rfl⟩

abbrev nD : Nat := 1
abbrev τ : Topo := Topo.v7x

variable {F : FTy → Type} [FloatOps F]

class Facts₀ : Prop where
  bcast_S_S4000000 : S_.BroadcastsInDim S4000000 (![] : Fin 0 → Fin S4000000.rank)
  bcast_S4000000_S4000000x1_0 : S4000000.BroadcastsInDim S4000000x1 (![0] : Fin 1 → Fin S4000000x1.rank)
  bcast_S1_S1x1_1 : S1.BroadcastsInDim S1x1 (![1] : Fin 1 → Fin S1x1.rank)
  bcast_S1x1_S4000000x1_0_1 : S1x1.BroadcastsInDim S4000000x1 (![0, 1] : Fin 2 → Fin S4000000x1.rank)
  bcast_S_S4000000x1 : S_.BroadcastsInDim S4000000x1 (![] : Fin 0 → Fin S4000000x1.rank)
  gather_S10000x64_S4000000x1_S4000000x64_1_0_n_n_0_1_164_wf : GatherDims.WF S10000x64 S4000000x1 S4000000x64 [1] [0] [] [0] [] 1 ![1, 64]
  gather_S2000x64_S4000000x1_S4000000x64_1_0_n_n_0_1_164_wf : GatherDims.WF S2000x64 S4000000x1 S4000000x64 [1] [0] [] [0] [] 1 ![1, 64]
  gather_S2000x1_S4000000x1_S4000000x1_1_0_n_n_0_1_11_wf : GatherDims.WF S2000x1 S4000000x1 S4000000x1 [1] [0] [] [0] [] 1 ![1, 1]
  gather_S10000x1_S4000000x1_S4000000x1_1_0_n_n_0_1_11_wf : GatherDims.WF S10000x1 S4000000x1 S4000000x1 [1] [0] [] [0] [] 1 ![1, 1]
  dot_S4000000x64_S64x1_S4000000x1_1_0_0_1_n_n_wf : DotDims.WF S4000000x64 S64x1 S4000000x1 [1] [0] [0] [1] [] []

variable [Facts₀]

def gather_S10000x64_S4000000x1_S4000000x64_1_0_n_n_0_1_164 : GatherDims S10000x64 S4000000x1 S4000000x64 where
  offsetDims := [1]
  collapsedSliceDims := [0]
  operandBatchingDims := []
  startIndicesBatchingDims := []
  startIndexMap := [0]
  indexVectorDim := 1
  sliceSizes := ![1, 64]
  wf := gather_S10000x64_S4000000x1_S4000000x64_1_0_n_n_0_1_164_wf
def gather_S2000x64_S4000000x1_S4000000x64_1_0_n_n_0_1_164 : GatherDims S2000x64 S4000000x1 S4000000x64 where
  offsetDims := [1]
  collapsedSliceDims := [0]
  operandBatchingDims := []
  startIndicesBatchingDims := []
  startIndexMap := [0]
  indexVectorDim := 1
  sliceSizes := ![1, 64]
  wf := gather_S2000x64_S4000000x1_S4000000x64_1_0_n_n_0_1_164_wf
def gather_S2000x1_S4000000x1_S4000000x1_1_0_n_n_0_1_11 : GatherDims S2000x1 S4000000x1 S4000000x1 where
  offsetDims := [1]
  collapsedSliceDims := [0]
  operandBatchingDims := []
  startIndicesBatchingDims := []
  startIndexMap := [0]
  indexVectorDim := 1
  sliceSizes := ![1, 1]
  wf := gather_S2000x1_S4000000x1_S4000000x1_1_0_n_n_0_1_11_wf
def gather_S10000x1_S4000000x1_S4000000x1_1_0_n_n_0_1_11 : GatherDims S10000x1 S4000000x1 S4000000x1 where
  offsetDims := [1]
  collapsedSliceDims := [0]
  operandBatchingDims := []
  startIndicesBatchingDims := []
  startIndexMap := [0]
  indexVectorDim := 1
  sliceSizes := ![1, 1]
  wf := gather_S10000x1_S4000000x1_S4000000x1_1_0_n_n_0_1_11_wf
def dot_S4000000x64_S64x1_S4000000x1_1_0_0_1_n_n : DotDims S4000000x64 S64x1 S4000000x1 where
  lhsContracting := [1]
  rhsContracting := [0]
  lhsNonContracting := [0]
  rhsNonContracting := [1]
  lhsBatch := []
  rhsBatch := []
  wf := dot_S4000000x64_S64x1_S4000000x1_1_0_0_1_n_n_wf

class Facts : Prop extends Facts₀ where

variable [Facts]
-- ==== Proof.BitsHost.lean ====
/-
  @main of the kernel program as printed (read at the word level in the certificate) around its one region, at any float instance. Before the region there are five
  stretches of host operations: the two index clamps, the three dense pre-activation tables (a scaled copy of the
  cell features times the transposed gene features, plus a bias), the flat index src*2000+dst, five per-edge gathers
  and their stacking into one [5, E] array. The region runs over 50 tiles of 80000 edges. After it nine host
  operations cut the [3, E] result into three [E, 1] columns. This file states what every buffer holds when the
  region is entered (the fold of the host operations over the launch memory), that @main is "those operations, the
  region, the later operations", that no host operation on either side writes an argument array, and that a run
  ending in the launch theorem's post leaves all twelve argument arrays as launched.
-/
import proofs.«416161_j30889404793298_2_alg».proof.Proof.Gen.Kernel.Launch
import proofs.«416161_j30889404793298_2_alg».proof.Proof.Gen.Kernel.Skeleton
import proofs.«416161_j30889404793298_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the region is entered -/

/-- Core `c`'s buffer contents when the region is entered: the launch memory after the five stretches of host
    operations that precede the region. -/
abbrev V0 (c : Dev nD) : Valuation τ sig (Elt F) :=
  StableHlo.after (List.flatten [hostOps0, hostOps0_1, hostOps0_2, hostOps0_3, hostOps0_4]) (fun b => m (c, b))
/-- The same, read at a TensorCore reference. -/
abbrev V (c : Dev nD) (b : Ref sig .tc) : Buf (Elt F) ((c : Thread nD τ).loc b) := V0 m c (Proc.devRef .tc b)

/-- An operation over a family of operands writes its result buffer and nothing else. -/
theorem nary_writes {n : Nat} (xs : Fin n → Ref sig .tc) (y : Ref sig .tc)
    (f : ((k : Fin n) → (xs k).ty.Contents (Elt F)) → y.ty.Contents (Elt F)) (hxs hy) :
    (StableHlo.nary (τ := τ) xs y f hxs hy).writes = {Proc.devRef .tc y} := rfl

/-! No host operation allocates a buffer. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host operations before the region, the region, and the host operations after it: it reduces to the
    region entered at `V` and continued by the later operations. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3, hostOps0_4] [hostOps1]
    (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-! ## The operations after the region -/

/-- They touch only the pipeline's arrays and the buffers that bypass it. -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- They allocate nothing. -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- Each writes its own result buffer, which is neither the stacked input array nor the [3, E] result array. -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl | rfl | rfl | rfl | rfl | rfl | rfl | rfl
  all_goals intro w; fin_cases w <;> simp only [StableHlo.unary_writes, StableHlo.reshape_writes, Finset.mem_singleton] <;> exact StableHlo.devRef_ne_of_ne (by decide)

/-! ## The argument arrays are written by no host operation -/

/-- Every operation before the region writes a buffer other than the given one: decided operation by operation. -/
local macro "before_keeps" : tactic => `(tactic| (
  simp only [hostOps0, hostOps0_1, hostOps0_2, hostOps0_3, hostOps0_4, List.flatten_cons, List.flatten_nil, List.append_nil, List.cons_append,
    List.nil_append, List.Forall, StableHlo.nullary_writes, StableHlo.unary_writes, StableHlo.binary_writes, StableHlo.ternary_writes,
    StableHlo.reshape_writes, nary_writes, Finset.mem_singleton]
  repeat' apply And.intro
  all_goals exact StableHlo.devRef_ne_of_ne (by decide)))
/-- The same for the operations after the region. -/
local macro "after_keeps" : tactic => `(tactic| (
  simp only [hostOps1, List.flatten_cons, List.flatten_nil, List.append_nil, List.cons_append,
    List.nil_append, List.Forall, StableHlo.unary_writes, StableHlo.reshape_writes, Finset.mem_singleton]
  repeat' apply And.intro
  all_goals exact StableHlo.devRef_ne_of_ne (by decide)))

/-- The region finds argument 0 as launched. -/
theorem V_main_arg0 (c : Dev nD) : V m c main_arg0 = m ((c : Thread nD τ).loc main_arg0) :=
  StableHlo.after_of_forall_not_mem (b := Proc.devRef .tc main_arg0) _ _ (List.forall_iff_forall_mem.mp (by before_keeps))
/-- The region finds argument 1 as launched. -/
theorem V_main_arg1 (c : Dev nD) : V m c main_arg1 = m ((c : Thread nD τ).loc main_arg1) :=
  StableHlo.after_of_forall_not_mem (b := Proc.devRef .tc main_arg1) _ _ (List.forall_iff_forall_mem.mp (by before_keeps))
/-- The region finds argument 2 as launched. -/
theorem V_main_arg2 (c : Dev nD) : V m c main_arg2 = m ((c : Thread nD τ).loc main_arg2) :=
  StableHlo.after_of_forall_not_mem (b := Proc.devRef .tc main_arg2) _ _ (List.forall_iff_forall_mem.mp (by before_keeps))
/-- The region finds argument 3 as launched. -/
theorem V_main_arg3 (c : Dev nD) : V m c main_arg3 = m ((c : Thread nD τ).loc main_arg3) :=
  StableHlo.after_of_forall_not_mem (b := Proc.devRef .tc main_arg3) _ _ (List.forall_iff_forall_mem.mp (by before_keeps))
/-- The region finds argument 4 as launched. -/
theorem V_main_arg4 (c : Dev nD) : V m c main_arg4 = m ((c : Thread nD τ).loc main_arg4) :=
  StableHlo.after_of_forall_not_mem (b := Proc.devRef .tc main_arg4) _ _ (List.forall_iff_forall_mem.mp (by before_keeps))
/-- The region finds argument 5 as launched. -/
theorem V_main_arg5 (c : Dev nD) : V m c main_arg5 = m ((c : Thread nD τ).loc main_arg5) :=
  StableHlo.after_of_forall_not_mem (b := Proc.devRef .tc main_arg5) _ _ (List.forall_iff_forall_mem.mp (by before_keeps))
/-- The region finds argument 6 as launched. -/
theorem V_main_arg6 (c : Dev nD) : V m c main_arg6 = m ((c : Thread nD τ).loc main_arg6) :=
  StableHlo.after_of_forall_not_mem (b := Proc.devRef .tc main_arg6) _ _ (List.forall_iff_forall_mem.mp (by before_keeps))
/-- The region finds argument 7 as launched. -/
theorem V_main_arg7 (c : Dev nD) : V m c main_arg7 = m ((c : Thread nD τ).loc main_arg7) :=
  StableHlo.after_of_forall_not_mem (b := Proc.devRef .tc main_arg7) _ _ (List.forall_iff_forall_mem.mp (by before_keeps))
/-- The region finds argument 8 as launched. -/
theorem V_main_arg8 (c : Dev nD) : V m c main_arg8 = m ((c : Thread nD τ).loc main_arg8) :=
  StableHlo.after_of_forall_not_mem (b := Proc.devRef .tc main_arg8) _ _ (List.forall_iff_forall_mem.mp (by before_keeps))
/-- The region finds argument 9 as launched. -/
theorem V_main_arg9 (c : Dev nD) : V m c main_arg9 = m ((c : Thread nD τ).loc main_arg9) :=
  StableHlo.after_of_forall_not_mem (b := Proc.devRef .tc main_arg9) _ _ (List.forall_iff_forall_mem.mp (by before_keeps))
/-- The region finds argument 10 as launched. -/
theorem V_main_arg10 (c : Dev nD) : V m c main_arg10 = m ((c : Thread nD τ).loc main_arg10) :=
  StableHlo.after_of_forall_not_mem (b := Proc.devRef .tc main_arg10) _ _ (List.forall_iff_forall_mem.mp (by before_keeps))
/-- The region finds argument 11 as launched. -/
theorem V_main_arg11 (c : Dev nD) : V m c main_arg11 = m ((c : Thread nD τ).loc main_arg11) :=
  StableHlo.after_of_forall_not_mem (b := Proc.devRef .tc main_arg11) _ _ (List.forall_iff_forall_mem.mp (by before_keeps))

/-- Argument 0 ends as launched: it is no array of the pipeline and no later operation writes it. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by after_keeps)),
    Pipeline.withArrays_of_ne _ c (V0 m c) _ main_arg0 (by exact (by decide : ∀ w, Pipeline.arrRef spec0 w ≠ main_arg0))]
  exact V_main_arg0 m c
/-- Argument 1 ends as launched: it is no array of the pipeline and no later operation writes it. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by after_keeps)),
    Pipeline.withArrays_of_ne _ c (V0 m c) _ main_arg1 (by exact (by decide : ∀ w, Pipeline.arrRef spec0 w ≠ main_arg1))]
  exact V_main_arg1 m c
/-- Argument 2 ends as launched: it is no array of the pipeline and no later operation writes it. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by after_keeps)),
    Pipeline.withArrays_of_ne _ c (V0 m c) _ main_arg2 (by exact (by decide : ∀ w, Pipeline.arrRef spec0 w ≠ main_arg2))]
  exact V_main_arg2 m c
/-- Argument 3 ends as launched: it is no array of the pipeline and no later operation writes it. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by after_keeps)),
    Pipeline.withArrays_of_ne _ c (V0 m c) _ main_arg3 (by exact (by decide : ∀ w, Pipeline.arrRef spec0 w ≠ main_arg3))]
  exact V_main_arg3 m c
/-- Argument 4 ends as launched: it is no array of the pipeline and no later operation writes it. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by after_keeps)),
    Pipeline.withArrays_of_ne _ c (V0 m c) _ main_arg4 (by exact (by decide : ∀ w, Pipeline.arrRef spec0 w ≠ main_arg4))]
  exact V_main_arg4 m c
/-- Argument 5 ends as launched: it is no array of the pipeline and no later operation writes it. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by after_keeps)),
    Pipeline.withArrays_of_ne _ c (V0 m c) _ main_arg5 (by exact (by decide : ∀ w, Pipeline.arrRef spec0 w ≠ main_arg5))]
  exact V_main_arg5 m c
/-- Argument 6 ends as launched: it is no array of the pipeline and no later operation writes it. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by after_keeps)),
    Pipeline.withArrays_of_ne _ c (V0 m c) _ main_arg6 (by exact (by decide : ∀ w, Pipeline.arrRef spec0 w ≠ main_arg6))]
  exact V_main_arg6 m c
/-- Argument 7 ends as launched: it is no array of the pipeline and no later operation writes it. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by after_keeps)),
    Pipeline.withArrays_of_ne _ c (V0 m c) _ main_arg7 (by exact (by decide : ∀ w, Pipeline.arrRef spec0 w ≠ main_arg7))]
  exact V_main_arg7 m c
/-- Argument 8 ends as launched: it is no array of the pipeline and no later operation writes it. -/
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by after_keeps)),
    Pipeline.withArrays_of_ne _ c (V0 m c) _ main_arg8 (by exact (by decide : ∀ w, Pipeline.arrRef spec0 w ≠ main_arg8))]
  exact V_main_arg8 m c
/-- Argument 9 ends as launched: it is no array of the pipeline and no later operation writes it. -/
theorem W_main_arg9 (dats : (p : Fin _) → (c : Dev nD) → Dat τ (Elt F) Unit ℕ (UR sig nD τ) ℕ (cfgs p) c) (c : Dev nD) :
    Pipeline.afterTail₀ cfgs dats 0 (V0 m) [hostOps1] c main_arg9 = m ((c : Thread nD τ).loc main_arg9) := by
  unfold Pipeline.afterTail₀
  rw [StableHlo.after_of_forall_not_mem (b := Proc.devRef .tc main_arg9) _ _ (List.forall_iff_forall_mem.mp (by after_keeps)),
    Pipeline.withArrays_of_ne _ c (V0 m c) _ main_arg9 (by exact (by decide : ∀ w, Pipeline.arrRef spec0 w ≠ main_arg9))]
  exact V_main_arg9 m c
/-- Argument 10 ends as launched: it is no array of the pipeline and no later operation writes it. -/
theorem W_main_arg10 (dats : (p : Fin _) → (c : Dev nD) → Dat τ (Elt F) Unit ℕ (UR sig nD τ) ℕ (cfgs p) c) (c : Dev nD) :
    Pipeline.afterTail₀ cfgs dats 0 (V0 m) [hostOps1] c main_arg10 = m ((c : Thread nD τ).loc main_arg10) := by
  unfold Pipeline.afterTail₀
  rw [StableHlo.after_of_forall_not_mem (b := Proc.devRef .tc main_arg10) _ _ (List.forall_iff_forall_mem.mp (by after_keeps)),
    Pipeline.withArrays_of_ne _ c (V0 m c) _ main_arg10 (by exact (by decide : ∀ w, Pipeline.arrRef spec0 w ≠ main_arg10))]
  exact V_main_arg10 m c
/-- Argument 11 ends as launched: it is no array of the pipeline and no later operation writes it. -/
theorem W_main_arg11 (dats : (p : Fin _) → (c : Dev nD) → Dat τ (Elt F) Unit ℕ (UR sig nD τ) ℕ (cfgs p) c) (c : Dev nD) :
    Pipeline.afterTail₀ cfgs dats 0 (V0 m) [hostOps1] c main_arg11 = m ((c : Thread nD τ).loc main_arg11) := by
  unfold Pipeline.afterTail₀
  rw [StableHlo.after_of_forall_not_mem (b := Proc.devRef .tc main_arg11) _ _ (List.forall_iff_forall_mem.mp (by after_keeps)),
    Pipeline.withArrays_of_ne _ c (V0 m c) _ main_arg11 (by exact (by decide : ∀ w, Pipeline.arrRef spec0 w ≠ main_arg11))]
  exact V_main_arg11 m c

/-! ## The windows' blocks -/

/-- Window `w`'s block at tile `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The input window's current staging buffer holds its block at every tile, for any proof data whose array is the
    region-entry one and whose body leaves the block in place: the window is fetched at every tile and never cut. -/
theorem before_in_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The frame from a run -/

/-- A run to the launch theorem's post leaves every argument array as launched: each argument is one of the buffers
    that bypass the pipeline, which end as the later host operations leave them. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨((h c).2 main_arg0 (Pipeline.mem_restRefs_of main_arg0 (by decide) (by decide))).trans (W_main_arg0 m dats c),
    ((h c).2 main_arg1 (Pipeline.mem_restRefs_of main_arg1 (by decide) (by decide))).trans (W_main_arg1 m dats c),
    ((h c).2 main_arg2 (Pipeline.mem_restRefs_of main_arg2 (by decide) (by decide))).trans (W_main_arg2 m dats c),
    ((h c).2 main_arg3 (Pipeline.mem_restRefs_of main_arg3 (by decide) (by decide))).trans (W_main_arg3 m dats c),
    ((h c).2 main_arg4 (Pipeline.mem_restRefs_of main_arg4 (by decide) (by decide))).trans (W_main_arg4 m dats c),
    ((h c).2 main_arg5 (Pipeline.mem_restRefs_of main_arg5 (by decide) (by decide))).trans (W_main_arg5 m dats c),
    ((h c).2 main_arg6 (Pipeline.mem_restRefs_of main_arg6 (by decide) (by decide))).trans (W_main_arg6 m dats c),
    ((h c).2 main_arg7 (Pipeline.mem_restRefs_of main_arg7 (by decide) (by decide))).trans (W_main_arg7 m dats c),
    ((h c).2 main_arg8 (Pipeline.mem_restRefs_of main_arg8 (by decide) (by decide))).trans (W_main_arg8 m dats c),
    ((h c).2 main_arg9 (Pipeline.mem_restRefs_of main_arg9 (by decide) (by decide))).trans (W_main_arg9 m dats c),
    ((h c).2 main_arg10 (Pipeline.mem_restRefs_of main_arg10 (by decide) (by decide))).trans (W_main_arg10 m dats c),
    ((h c).2 main_arg11 (Pipeline.mem_restRefs_of main_arg11 (by decide) (by decide))).trans (W_main_arg11 m dats c)⟩) h

end Cert.Kernel.Hand

end
-- ==== Proof.BitsBody.lean ====
/-
  The kernel body on one tile of 80000 edges, the run of the whole program, and its frame, at any float instance.
  The body reads the five rows of its [5, 80000] input block (the three pre-activations, the gene factor, the cell
  factor) and writes the three rows of its [3, 80000] output block: row 0 the mean, row 1 the dispersion, row 2 the
  dropout probability, each a pointwise function of the input rows. Before each store it also loads the row it is
  about to overwrite; that value is used by nothing. What the output block holds after the body is therefore the
  three stored rows laid over whatever was there, and the three rows tile the block, so nothing of the old contents
  is left. With that per-tile fact the launch theorem for a region with host operations on both sides gives the run
  of @main, and the run's post gives the frame.
-/
import proofs.«416161_j30889404793298_2_alg».proof.Proof.BitsHost

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The rows the body reads and writes -/

/-- Row `k` of the input block, k = 0 … 4: mean pre-activation, dispersion pre-activation, dropout pre-activation,
    gene factor, cell factor. -/
abbrev inRow0 : Rect S5x80000 := Rect.unit (s := S5x80000) ![0, 0] S1x80000.size inb_S5x80000_S1x80000_0_0
abbrev inRow1 : Rect S5x80000 := Rect.unit (s := S5x80000) ![1, 0] S1x80000.size inb_S5x80000_S1x80000_1_0
abbrev inRow2 : Rect S5x80000 := Rect.unit (s := S5x80000) ![2, 0] S1x80000.size inb_S5x80000_S1x80000_2_0
abbrev inRow3 : Rect S5x80000 := Rect.unit (s := S5x80000) ![3, 0] S1x80000.size inb_S5x80000_S1x80000_3_0
abbrev inRow4 : Rect S5x80000 := Rect.unit (s := S5x80000) ![4, 0] S1x80000.size inb_S5x80000_S1x80000_4_0
/-- Row `k` of the output block, k = 0 … 2: mean, dispersion, dropout probability. -/
abbrev outRow0 : Rect S3x80000 := Rect.unit (s := S3x80000) ![0, 0] S1x80000.size inb_S3x80000_S1x80000_0_0
abbrev outRow1 : Rect S3x80000 := Rect.unit (s := S3x80000) ![1, 0] S1x80000.size inb_S3x80000_S1x80000_1_0
abbrev outRow2 : Rect S3x80000 := Rect.unit (s := S3x80000) ![2, 0] S1x80000.size inb_S3x80000_S1x80000_2_0

/-! ## What the body leaves in the output block -/

/-- The output block after the body, from the input block `x`: its three row stores, the last one first. Row 2 is the
    logistic of input row 2; row 1 the clamped softplus of (gene factor × dispersion pre-activation); row 0 the cell
    factor times the clamped exp(gene factor × logistic(mean pre-activation)) − 1. -/
def outBlock (x : Vec F S5x80000 .f32) : Vec F S3x80000 .f32 :=
  View.canon [⟨outRow2, k0_pay4 (View.ld x inRow2)⟩,
    ⟨outRow1, k0_pay2 (View.ld x inRow1) (View.ld x inRow3)⟩,
    ⟨outRow0, k0_pay3 (View.ld x inRow0) (View.ld x inRow3) (View.ld x inRow4)⟩]

/-- The three rows tile the [3, 80000] block, so every position of it lies in one of them. -/
theorem rows_cover (p2 p1 p0 : Vec F S1x80000 .f32) (y : S3x80000.Idx) :
    ∃ pc ∈ ([⟨outRow2, p2⟩, ⟨outRow1, p1⟩, ⟨outRow0, p0⟩] : List (View.Piece (Elt F) S3x80000 .f32)), y ∈ pc.1.set :=
  View.cover_of_tiled [⟨outRow2, p2⟩, ⟨outRow1, p1⟩, ⟨outRow0, p0⟩] S1x80000.size (by rfl) y

/-! ## The body's triple -/

set_option maxHeartbeats 1000000 in
/-- On whole staging buffers, the input's holding `x` and the output's holding anything, the body runs to its end
    leaving the input's as it was and the output's at `outBlock x`. -/
theorem sound_kernel (c : Dev nD) (E : Set ℕ) (i : grid0.Coords) (arg1 : Memref sig .tc .vmem S5x80000 .f32) (harg1 : arg1.IsWhole)
    (arg2 : Memref sig .tc .vmem S3x80000 .f32) (harg2 : arg2.IsWhole)
    (x : Vec F S5x80000 .f32) (K : PUnit → sProp 𝕄) :
    iprop(owns (c : Thread nD τ) arg1 fullShare x ∗ (∃ d, owns (c : Thread nD τ) arg2 fullShare d)
        ∗ (iprop(owns (c : Thread nD τ) arg1 fullShare x ∗ owns (c : Thread nD τ) arg2 fullShare (outBlock x)) -∗ K ⟨⟩))
      ⊢ wp frame (wpE (defs₀ (F := F)) Variants.none c none) E (cc0__zinb_kernel i arg1 harg1 arg2 harg2) K := by
  simp only [cc0__zinb_kernel_eq_skeleton]; unfold cc0__zinb_kernel_skel
  simp only [k0_part1_eq_skeleton]; unfold k0_part1_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  try dsimp only
  exact View.read_writes_eq_canon _ _ _ (rows_cover _ _ _)

/-! ## The pipeline's proof data -/

/-- On core `c`: the two arrays as the region finds them; after the body at tile `t` the input's staging buffer still at
    its block and the output's at `outBlock` of that block; the invariant is the untouched rest of the core's scoped
    memory and its generator register; nothing is owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => outBlock (iblk m c 0 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_in (c : Dev nD) (t : Fin cfg0.N) : (dats m 0 c).after 0 t = iblk m c 0 t := by dsimp only [dats]
theorem after_out (c : Dev nD) (t : Fin cfg0.N) : (dats m 0 c).after 1 t = outBlock (iblk m c 0 t) := by dsimp only [dats]

/-- The input's current staging buffer holds its block at every tile. -/
theorem before_in (c : Dev nD) (t : Fin cfg0.N) (d) : (dats m 0 c).before 0 t d = iblk m c 0 t :=
  before_in_of m (dats m 0 c) (A_eq m c 0) (after_in m c) t d

/-! ## The body obligation, at any tile -/

/-- What the body is called with at tile `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

/-- At any tile the input's buffer holds its block, so `sound_kernel` applies; the invariant and what the core owes
    pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in]
  rw [show (dats m 0 c).Φ t.succ = (dats m 0 c).Φ t.castSucc from rfl,
    show (dats m 0 c).owesAt () t.succ = (dats m 0 c).owesAt () t.castSucc from rfl,
    after_in, after_out]
  iintro ⟨HΦ, Ho, ⟨%d0, H0⟩, ⟨%d1, H1⟩⟩
  iapply (sound_kernel c Set.univ (grid0.coords t) _ _ _ _ (iblk m c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates without a fault; at the end each
    array of the pipeline holds what its blocks' write-backs make of it, and every other unscoped buffer what the host
    operations after the region leave in it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := tail_sub) (hfresh := tail_fresh) (hkeep := tail_keeps)
    (hmain := hmain m Variants.none) (hA := A_eq m) (hΦ := fun _ _ => rfl)

/-- The program terminates without a fault and leaves its twelve argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_of m ρ (dats m) (run_main m ρ)

end Cert.Kernel.Hand

end
-- ==== Proof.IdealHost.lean ====
/-
  @main of the kernel program around its one region, at any float instance. Before the region there are five
  stretches of host operations: the two index clamps, the three dense pre-activation tables (a scaled copy of the
  cell features times the transposed gene features, plus a bias), the flat index src*2000+dst, five per-edge gathers
  and their stacking into one [5, E] array. The region runs over 50 tiles of 80000 edges. After it nine host
  operations cut the [3, E] result into three [E, 1] columns. This file states what every buffer holds when the
  region is entered (the fold of the host operations over the launch memory), that @main is "those operations, the
  region, the later operations", that no host operation on either side writes an argument array, and that a run
  ending in the launch theorem's post leaves all twelve argument arrays as launched.
-/
import proofs.«416161_j30889404793298_2_alg».proof.Proof.Gen.KernelIdeal.Launch
import proofs.«416161_j30889404793298_2_alg».proof.Proof.Gen.KernelIdeal.Skeleton
import proofs.«416161_j30889404793298_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the region is entered -/

/-- Core `c`'s buffer contents when the region is entered: the launch memory after the five stretches of host
    operations that precede the region. -/
abbrev V0 (c : Dev nD) : Valuation τ sig (Elt F) :=
  StableHlo.after (List.flatten [hostOps0, hostOps0_1, hostOps0_2, hostOps0_3, hostOps0_4]) (fun b => m (c, b))
/-- The same, read at a TensorCore reference. -/
abbrev V (c : Dev nD) (b : Ref sig .tc) : Buf (Elt F) ((c : Thread nD τ).loc b) := V0 m c (Proc.devRef .tc b)

/-- An operation over a family of operands writes its result buffer and nothing else. -/
theorem nary_writes {n : Nat} (xs : Fin n → Ref sig .tc) (y : Ref sig .tc)
    (f : ((k : Fin n) → (xs k).ty.Contents (Elt F)) → y.ty.Contents (Elt F)) (hxs hy) :
    (StableHlo.nary (τ := τ) xs y f hxs hy).writes = {Proc.devRef .tc y} := rfl

/-! No host operation allocates a buffer. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host operations before the region, the region, and the host operations after it: it reduces to the
    region entered at `V` and continued by the later operations. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3, hostOps0_4] [hostOps1]
    (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-! ## The operations after the region -/

/-- They touch only the pipeline's arrays and the buffers that bypass it. -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- They allocate nothing. -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- Each writes its own result buffer, which is neither the stacked input array nor the [3, E] result array. -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl | rfl | rfl | rfl | rfl | rfl | rfl | rfl
  all_goals intro w; fin_cases w <;> simp only [StableHlo.unary_writes, StableHlo.reshape_writes, Finset.mem_singleton] <;> exact StableHlo.devRef_ne_of_ne (by decide)

/-! ## The argument arrays are written by no host operation -/

/-- Every operation before the region writes a buffer other than the given one: decided operation by operation. -/
local macro "before_keeps" : tactic => `(tactic| (
  simp only [hostOps0, hostOps0_1, hostOps0_2, hostOps0_3, hostOps0_4, List.flatten_cons, List.flatten_nil, List.append_nil, List.cons_append,
    List.nil_append, List.Forall, StableHlo.nullary_writes, StableHlo.unary_writes, StableHlo.binary_writes, StableHlo.ternary_writes,
    StableHlo.reshape_writes, nary_writes, Finset.mem_singleton]
  repeat' apply And.intro
  all_goals exact StableHlo.devRef_ne_of_ne (by decide)))
/-- The same for the operations after the region. -/
local macro "after_keeps" : tactic => `(tactic| (
  simp only [hostOps1, List.flatten_cons, List.flatten_nil, List.append_nil, List.cons_append,
    List.nil_append, List.Forall, StableHlo.unary_writes, StableHlo.reshape_writes, Finset.mem_singleton]
  repeat' apply And.intro
  all_goals exact StableHlo.devRef_ne_of_ne (by decide)))

/-- The region finds argument 0 as launched. -/
theorem V_main_arg0 (c : Dev nD) : V m c main_arg0 = m ((c : Thread nD τ).loc main_arg0) :=
  StableHlo.after_of_forall_not_mem (b := Proc.devRef .tc main_arg0) _ _ (List.forall_iff_forall_mem.mp (by before_keeps))
/-- The region finds argument 1 as launched. -/
theorem V_main_arg1 (c : Dev nD) : V m c main_arg1 = m ((c : Thread nD τ).loc main_arg1) :=
  StableHlo.after_of_forall_not_mem (b := Proc.devRef .tc main_arg1) _ _ (List.forall_iff_forall_mem.mp (by before_keeps))
/-- The region finds argument 2 as launched. -/
theorem V_main_arg2 (c : Dev nD) : V m c main_arg2 = m ((c : Thread nD τ).loc main_arg2) :=
  StableHlo.after_of_forall_not_mem (b := Proc.devRef .tc main_arg2) _ _ (List.forall_iff_forall_mem.mp (by before_keeps))
/-- The region finds argument 3 as launched. -/
theorem V_main_arg3 (c : Dev nD) : V m c main_arg3 = m ((c : Thread nD τ).loc main_arg3) :=
  StableHlo.after_of_forall_not_mem (b := Proc.devRef .tc main_arg3) _ _ (List.forall_iff_forall_mem.mp (by before_keeps))
/-- The region finds argument 4 as launched. -/
theorem V_main_arg4 (c : Dev nD) : V m c main_arg4 = m ((c : Thread nD τ).loc main_arg4) :=
  StableHlo.after_of_forall_not_mem (b := Proc.devRef .tc main_arg4) _ _ (List.forall_iff_forall_mem.mp (by before_keeps))
/-- The region finds argument 5 as launched. -/
theorem V_main_arg5 (c : Dev nD) : V m c main_arg5 = m ((c : Thread nD τ).loc main_arg5) :=
  StableHlo.after_of_forall_not_mem (b := Proc.devRef .tc main_arg5) _ _ (List.forall_iff_forall_mem.mp (by before_keeps))
/-- The region finds argument 6 as launched. -/
theorem V_main_arg6 (c : Dev nD) : V m c main_arg6 = m ((c : Thread nD τ).loc main_arg6) :=
  StableHlo.after_of_forall_not_mem (b := Proc.devRef .tc main_arg6) _ _ (List.forall_iff_forall_mem.mp (by before_keeps))
/-- The region finds argument 7 as launched. -/
theorem V_main_arg7 (c : Dev nD) : V m c main_arg7 = m ((c : Thread nD τ).loc main_arg7) :=
  StableHlo.after_of_forall_not_mem (b := Proc.devRef .tc main_arg7) _ _ (List.forall_iff_forall_mem.mp (by before_keeps))
/-- The region finds argument 8 as launched. -/
theorem V_main_arg8 (c : Dev nD) : V m c main_arg8 = m ((c : Thread nD τ).loc main_arg8) :=
  StableHlo.after_of_forall_not_mem (b := Proc.devRef .tc main_arg8) _ _ (List.forall_iff_forall_mem.mp (by before_keeps))
/-- The region finds argument 9 as launched. -/
theorem V_main_arg9 (c : Dev nD) : V m c main_arg9 = m ((c : Thread nD τ).loc main_arg9) :=
  StableHlo.after_of_forall_not_mem (b := Proc.devRef .tc main_arg9) _ _ (List.forall_iff_forall_mem.mp (by before_keeps))
/-- The region finds argument 10 as launched. -/
theorem V_main_arg10 (c : Dev nD) : V m c main_arg10 = m ((c : Thread nD τ).loc main_arg10) :=
  StableHlo.after_of_forall_not_mem (b := Proc.devRef .tc main_arg10) _ _ (List.forall_iff_forall_mem.mp (by before_keeps))
/-- The region finds argument 11 as launched. -/
theorem V_main_arg11 (c : Dev nD) : V m c main_arg11 = m ((c : Thread nD τ).loc main_arg11) :=
  StableHlo.after_of_forall_not_mem (b := Proc.devRef .tc main_arg11) _ _ (List.forall_iff_forall_mem.mp (by before_keeps))

/-- Argument 0 ends as launched: it is no array of the pipeline and no later operation writes it. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by after_keeps)),
    Pipeline.withArrays_of_ne _ c (V0 m c) _ main_arg0 (by exact (by decide : ∀ w, Pipeline.arrRef spec0 w ≠ main_arg0))]
  exact V_main_arg0 m c
/-- Argument 1 ends as launched: it is no array of the pipeline and no later operation writes it. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by after_keeps)),
    Pipeline.withArrays_of_ne _ c (V0 m c) _ main_arg1 (by exact (by decide : ∀ w, Pipeline.arrRef spec0 w ≠ main_arg1))]
  exact V_main_arg1 m c
/-- Argument 2 ends as launched: it is no array of the pipeline and no later operation writes it. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by after_keeps)),
    Pipeline.withArrays_of_ne _ c (V0 m c) _ main_arg2 (by exact (by decide : ∀ w, Pipeline.arrRef spec0 w ≠ main_arg2))]
  exact V_main_arg2 m c
/-- Argument 3 ends as launched: it is no array of the pipeline and no later operation writes it. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by after_keeps)),
    Pipeline.withArrays_of_ne _ c (V0 m c) _ main_arg3 (by exact (by decide : ∀ w, Pipeline.arrRef spec0 w ≠ main_arg3))]
  exact V_main_arg3 m c
/-- Argument 4 ends as launched: it is no array of the pipeline and no later operation writes it. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by after_keeps)),
    Pipeline.withArrays_of_ne _ c (V0 m c) _ main_arg4 (by exact (by decide : ∀ w, Pipeline.arrRef spec0 w ≠ main_arg4))]
  exact V_main_arg4 m c
/-- Argument 5 ends as launched: it is no array of the pipeline and no later operation writes it. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by after_keeps)),
    Pipeline.withArrays_of_ne _ c (V0 m c) _ main_arg5 (by exact (by decide : ∀ w, Pipeline.arrRef spec0 w ≠ main_arg5))]
  exact V_main_arg5 m c
/-- Argument 6 ends as launched: it is no array of the pipeline and no later operation writes it. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by after_keeps)),
    Pipeline.withArrays_of_ne _ c (V0 m c) _ main_arg6 (by exact (by decide : ∀ w, Pipeline.arrRef spec0 w ≠ main_arg6))]
  exact V_main_arg6 m c
/-- Argument 7 ends as launched: it is no array of the pipeline and no later operation writes it. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by after_keeps)),
    Pipeline.withArrays_of_ne _ c (V0 m c) _ main_arg7 (by exact (by decide : ∀ w, Pipeline.arrRef spec0 w ≠ main_arg7))]
  exact V_main_arg7 m c
/-- Argument 8 ends as launched: it is no array of the pipeline and no later operation writes it. -/
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by after_keeps)),
    Pipeline.withArrays_of_ne _ c (V0 m c) _ main_arg8 (by exact (by decide : ∀ w, Pipeline.arrRef spec0 w ≠ main_arg8))]
  exact V_main_arg8 m c
/-- Argument 9 ends as launched: it is no array of the pipeline and no later operation writes it. -/
theorem W_main_arg9 (dats : (p : Fin _) → (c : Dev nD) → Dat τ (Elt F) Unit ℕ (UR sig nD τ) ℕ (cfgs p) c) (c : Dev nD) :
    Pipeline.afterTail₀ cfgs dats 0 (V0 m) [hostOps1] c main_arg9 = m ((c : Thread nD τ).loc main_arg9) := by
  unfold Pipeline.afterTail₀
  rw [StableHlo.after_of_forall_not_mem (b := Proc.devRef .tc main_arg9) _ _ (List.forall_iff_forall_mem.mp (by after_keeps)),
    Pipeline.withArrays_of_ne _ c (V0 m c) _ main_arg9 (by exact (by decide : ∀ w, Pipeline.arrRef spec0 w ≠ main_arg9))]
  exact V_main_arg9 m c
/-- Argument 10 ends as launched: it is no array of the pipeline and no later operation writes it. -/
theorem W_main_arg10 (dats : (p : Fin _) → (c : Dev nD) → Dat τ (Elt F) Unit ℕ (UR sig nD τ) ℕ (cfgs p) c) (c : Dev nD) :
    Pipeline.afterTail₀ cfgs dats 0 (V0 m) [hostOps1] c main_arg10 = m ((c : Thread nD τ).loc main_arg10) := by
  unfold Pipeline.afterTail₀
  rw [StableHlo.after_of_forall_not_mem (b := Proc.devRef .tc main_arg10) _ _ (List.forall_iff_forall_mem.mp (by after_keeps)),
    Pipeline.withArrays_of_ne _ c (V0 m c) _ main_arg10 (by exact (by decide : ∀ w, Pipeline.arrRef spec0 w ≠ main_arg10))]
  exact V_main_arg10 m c
/-- Argument 11 ends as launched: it is no array of the pipeline and no later operation writes it. -/
theorem W_main_arg11 (dats : (p : Fin _) → (c : Dev nD) → Dat τ (Elt F) Unit ℕ (UR sig nD τ) ℕ (cfgs p) c) (c : Dev nD) :
    Pipeline.afterTail₀ cfgs dats 0 (V0 m) [hostOps1] c main_arg11 = m ((c : Thread nD τ).loc main_arg11) := by
  unfold Pipeline.afterTail₀
  rw [StableHlo.after_of_forall_not_mem (b := Proc.devRef .tc main_arg11) _ _ (List.forall_iff_forall_mem.mp (by after_keeps)),
    Pipeline.withArrays_of_ne _ c (V0 m c) _ main_arg11 (by exact (by decide : ∀ w, Pipeline.arrRef spec0 w ≠ main_arg11))]
  exact V_main_arg11 m c

/-! ## The windows' blocks -/

/-- Window `w`'s block at tile `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The input window's current staging buffer holds its block at every tile, for any proof data whose array is the
    region-entry one and whose body leaves the block in place: the window is fetched at every tile and never cut. -/
theorem before_in_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The frame from a run -/

/-- A run to the launch theorem's post leaves every argument array as launched: each argument is one of the buffers
    that bypass the pipeline, which end as the later host operations leave them. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨((h c).2 main_arg0 (Pipeline.mem_restRefs_of main_arg0 (by decide) (by decide))).trans (W_main_arg0 m dats c),
    ((h c).2 main_arg1 (Pipeline.mem_restRefs_of main_arg1 (by decide) (by decide))).trans (W_main_arg1 m dats c),
    ((h c).2 main_arg2 (Pipeline.mem_restRefs_of main_arg2 (by decide) (by decide))).trans (W_main_arg2 m dats c),
    ((h c).2 main_arg3 (Pipeline.mem_restRefs_of main_arg3 (by decide) (by decide))).trans (W_main_arg3 m dats c),
    ((h c).2 main_arg4 (Pipeline.mem_restRefs_of main_arg4 (by decide) (by decide))).trans (W_main_arg4 m dats c),
    ((h c).2 main_arg5 (Pipeline.mem_restRefs_of main_arg5 (by decide) (by decide))).trans (W_main_arg5 m dats c),
    ((h c).2 main_arg6 (Pipeline.mem_restRefs_of main_arg6 (by decide) (by decide))).trans (W_main_arg6 m dats c),
    ((h c).2 main_arg7 (Pipeline.mem_restRefs_of main_arg7 (by decide) (by decide))).trans (W_main_arg7 m dats c),
    ((h c).2 main_arg8 (Pipeline.mem_restRefs_of main_arg8 (by decide) (by decide))).trans (W_main_arg8 m dats c),
    ((h c).2 main_arg9 (Pipeline.mem_restRefs_of main_arg9 (by decide) (by decide))).trans (W_main_arg9 m dats c),
    ((h c).2 main_arg10 (Pipeline.mem_restRefs_of main_arg10 (by decide) (by decide))).trans (W_main_arg10 m dats c),
    ((h c).2 main_arg11 (Pipeline.mem_restRefs_of main_arg11 (by decide) (by decide))).trans (W_main_arg11 m dats c)⟩) h

end Cert.KernelIdeal.Hand

end
-- ==== Proof.IdealBody.lean ====
/-
  The kernel body on one tile of 80000 edges, the run of the whole program, and its frame, at any float instance.
  The body reads the five rows of its [5, 80000] input block (the three pre-activations, the gene factor, the cell
  factor) and writes the three rows of its [3, 80000] output block: row 0 the mean, row 1 the dispersion, row 2 the
  dropout probability, each a pointwise function of the input rows. Before each store it also loads the row it is
  about to overwrite; that value is used by nothing. What the output block holds after the body is therefore the
  three stored rows laid over whatever was there, and the three rows tile the block, so nothing of the old contents
  is left. With that per-tile fact the launch theorem for a region with host operations on both sides gives the run
  of @main, and the run's post gives the frame.
-/
import proofs.«416161_j30889404793298_2_alg».proof.Proof.IdealHost

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The rows the body reads and writes -/

/-- Row `k` of the input block, k = 0 … 4: mean pre-activation, dispersion pre-activation, dropout pre-activation,
    gene factor, cell factor. -/
abbrev inRow0 : Rect S5x80000 := Rect.unit (s := S5x80000) ![0, 0] S1x80000.size inb_S5x80000_S1x80000_0_0
abbrev inRow1 : Rect S5x80000 := Rect.unit (s := S5x80000) ![1, 0] S1x80000.size inb_S5x80000_S1x80000_1_0
abbrev inRow2 : Rect S5x80000 := Rect.unit (s := S5x80000) ![2, 0] S1x80000.size inb_S5x80000_S1x80000_2_0
abbrev inRow3 : Rect S5x80000 := Rect.unit (s := S5x80000) ![3, 0] S1x80000.size inb_S5x80000_S1x80000_3_0
abbrev inRow4 : Rect S5x80000 := Rect.unit (s := S5x80000) ![4, 0] S1x80000.size inb_S5x80000_S1x80000_4_0
/-- Row `k` of the output block, k = 0 … 2: mean, dispersion, dropout probability. -/
abbrev outRow0 : Rect S3x80000 := Rect.unit (s := S3x80000) ![0, 0] S1x80000.size inb_S3x80000_S1x80000_0_0
abbrev outRow1 : Rect S3x80000 := Rect.unit (s := S3x80000) ![1, 0] S1x80000.size inb_S3x80000_S1x80000_1_0
abbrev outRow2 : Rect S3x80000 := Rect.unit (s := S3x80000) ![2, 0] S1x80000.size inb_S3x80000_S1x80000_2_0

/-! ## What the body leaves in the output block -/

/-- The output block after the body, from the input block `x`: its three row stores, the last one first. Row 2 is the
    logistic of input row 2; row 1 the clamped softplus of (gene factor × dispersion pre-activation); row 0 the cell
    factor times the clamped exp(gene factor × logistic(mean pre-activation)) − 1. -/
def outBlock (x : Vec F S5x80000 .f32) : Vec F S3x80000 .f32 :=
  View.canon [⟨outRow2, k0_pay4 (View.ld x inRow2)⟩,
    ⟨outRow1, k0_pay2 (View.ld x inRow1) (View.ld x inRow3)⟩,
    ⟨outRow0, k0_pay3 (View.ld x inRow0) (View.ld x inRow3) (View.ld x inRow4)⟩]

/-- The three rows tile the [3, 80000] block, so every position of it lies in one of them. -/
theorem rows_cover (p2 p1 p0 : Vec F S1x80000 .f32) (y : S3x80000.Idx) :
    ∃ pc ∈ ([⟨outRow2, p2⟩, ⟨outRow1, p1⟩, ⟨outRow0, p0⟩] : List (View.Piece (Elt F) S3x80000 .f32)), y ∈ pc.1.set :=
  View.cover_of_tiled [⟨outRow2, p2⟩, ⟨outRow1, p1⟩, ⟨outRow0, p0⟩] S1x80000.size (by rfl) y

/-! ## The body's triple -/

set_option maxHeartbeats 1000000 in
/-- On whole staging buffers, the input's holding `x` and the output's holding anything, the body runs to its end
    leaving the input's as it was and the output's at `outBlock x`. -/
theorem sound_kernel (c : Dev nD) (E : Set ℕ) (i : grid0.Coords) (arg1 : Memref sig .tc .vmem S5x80000 .f32) (harg1 : arg1.IsWhole)
    (arg2 : Memref sig .tc .vmem S3x80000 .f32) (harg2 : arg2.IsWhole)
    (x : Vec F S5x80000 .f32) (K : PUnit → sProp 𝕄) :
    iprop(owns (c : Thread nD τ) arg1 fullShare x ∗ (∃ d, owns (c : Thread nD τ) arg2 fullShare d)
        ∗ (iprop(owns (c : Thread nD τ) arg1 fullShare x ∗ owns (c : Thread nD τ) arg2 fullShare (outBlock x)) -∗ K ⟨⟩))
      ⊢ wp frame (wpE (defs₀ (F := F)) Variants.none c none) E (cc0__zinb_kernel i arg1 harg1 arg2 harg2) K := by
  simp only [cc0__zinb_kernel_eq_skeleton]; unfold cc0__zinb_kernel_skel
  simp only [k0_part1_eq_skeleton]; unfold k0_part1_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  try dsimp only
  exact View.read_writes_eq_canon _ _ _ (rows_cover _ _ _)

/-! ## The pipeline's proof data -/

/-- On core `c`: the two arrays as the region finds them; after the body at tile `t` the input's staging buffer still at
    its block and the output's at `outBlock` of that block; the invariant is the untouched rest of the core's scoped
    memory and its generator register; nothing is owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => outBlock (iblk m c 0 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_in (c : Dev nD) (t : Fin cfg0.N) : (dats m 0 c).after 0 t = iblk m c 0 t := by dsimp only [dats]
theorem after_out (c : Dev nD) (t : Fin cfg0.N) : (dats m 0 c).after 1 t = outBlock (iblk m c 0 t) := by dsimp only [dats]

/-- The input's current staging buffer holds its block at every tile. -/
theorem before_in (c : Dev nD) (t : Fin cfg0.N) (d) : (dats m 0 c).before 0 t d = iblk m c 0 t :=
  before_in_of m (dats m 0 c) (A_eq m c 0) (after_in m c) t d

/-! ## The body obligation, at any tile -/

/-- What the body is called with at tile `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

/-- At any tile the input's buffer holds its block, so `sound_kernel` applies; the invariant and what the core owes
    pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in]
  rw [show (dats m 0 c).Φ t.succ = (dats m 0 c).Φ t.castSucc from rfl,
    show (dats m 0 c).owesAt () t.succ = (dats m 0 c).owesAt () t.castSucc from rfl,
    after_in, after_out]
  iintro ⟨HΦ, Ho, ⟨%d0, H0⟩, ⟨%d1, H1⟩⟩
  iapply (sound_kernel c Set.univ (grid0.coords t) _ _ _ _ (iblk m c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates without a fault; at the end each
    array of the pipeline holds what its blocks' write-backs make of it, and every other unscoped buffer what the host
    operations after the region leave in it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := tail_sub) (hfresh := tail_fresh) (hkeep := tail_keeps)
    (hmain := hmain m Variants.none) (hA := A_eq m) (hΦ := fun _ _ => rfl)

/-- The program terminates without a fault and leaves its twelve argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_of m ρ (dats m) (run_main m ρ)

end Cert.KernelIdeal.Hand

end
-- ==== Proof.Spec.lean ====
/-
  The mathematics of the ZINB decoder at one edge, over the extended reals.

  An edge joins a cell s and a gene t. Each of the three linear heads (mean, dispersion, dropout) has the
  pre-activation  sum over the 64 features k of c[s,k] * g[t,k] * W[k]  plus a bias. The reference multiplies the two
  gathered feature rows first and contracts with W afterwards; the kernel scales the cell features by W first and
  contracts with the gene features afterwards. Term by term these are the same product of three extended reals in
  another grouping, and multiplication of extended reals is commutative and associative, so the two sums agree with no
  assumption that anything is finite.

  On top of the pre-activations sit three pointwise chains: the logistic of the dropout head; a softplus of
  (gene factor × dispersion head) clamped to [1e-4, 1e4]; and the cell factor times exp(gene factor × logistic(mean
  head)) − 1 clamped to [1e-5, 1e6]. The kernel and the reference spell these chains with the same operations in the
  same order except in three places, each an identity on the extended reals: the kernel's one logistic operation is by
  definition 1 / (1 + exp(−x)), which the reference writes out; inside the softplus the kernel writes 0 − |z| where the
  reference writes −|z|; and the test "z is not equal to itself" that guards the softplus is an ordered comparison in
  the kernel and an unordered one in the reference, both false where there is no NaN.
-/
import Idealize.ShloMosaic.PureOps.Ideal
import Idealize.ShloMosaic.PureOps.Ideal.Laws
import Idealize.ShloMosaic.Lib.ValueIdx

noncomputable section

namespace Cert.Zinb

open Idealize.ShloMosaic Idealize.ShloMosaic.ValueIdx

/-! ## One head's pre-activation at a (cell, gene) pair -/

/-- The kernel's grouping: (c[s,k] · W[k]) · g[t,k], summed over k, plus the bias. -/
def headK (c : (⟨2, ![10000, 64]⟩ : Shape).Idx → EReal) (g : (⟨2, ![2000, 64]⟩ : Shape).Idx → EReal)
    (W : (⟨2, ![64, 1]⟩ : Shape).Idx → EReal) (b : (⟨1, ![1]⟩ : Shape).Idx → EReal) (s : Fin 10000) (t : Fin 2000) : EReal :=
  (∑ k : Fin 64, (c (ix2 s k) * W (ix2 k (0 : Fin 1))) * g (ix2 t k)) + b (ix1 (0 : Fin 1))

/-- The reference's grouping: (c[s,k] · g[t,k]) · W[k], summed over k, plus the bias. -/
def headR (c : (⟨2, ![10000, 64]⟩ : Shape).Idx → EReal) (g : (⟨2, ![2000, 64]⟩ : Shape).Idx → EReal)
    (W : (⟨2, ![64, 1]⟩ : Shape).Idx → EReal) (b : (⟨1, ![1]⟩ : Shape).Idx → EReal) (s : Fin 10000) (t : Fin 2000) : EReal :=
  (∑ k : Fin 64, (c (ix2 s k) * g (ix2 t k)) * W (ix2 k (0 : Fin 1))) + b (ix1 (0 : Fin 1))

/-- The two groupings agree term by term. -/
theorem headK_eq_headR (c g W b) (s : Fin 10000) (t : Fin 2000) : headK c g W b s t = headR c g W b s t := by
  unfold headK headR
  congr 1
  exact Finset.sum_congr rfl fun k _ => mul_right_comm _ _ _

/-! ## The three activation chains, as the kernel spells them -/

/-- Dropout probability: the logistic of the head. -/
def dropK (a : EReal) : EReal := Ideal.logistic a

/-- Dispersion: softplus of z = gene factor × head, clamped to [1e-4, 1e4] (the bounds as their f32 words). -/
def dispK (a gsv : EReal) : EReal :=
  let z := gsv * a
  let zero : EReal := Ideal.ofBits .f32 0x00000000#32
  let d := z - zero
  min (Ideal.ofBits .f32 0x461C4000#32)
    (max (Ideal.ofBits .f32 0x38D1B717#32)
      (Scalar.select (Ideal.cmp .one d d) (z + zero) (max z zero + Ideal.log1p (Ideal.exp (zero - max d (-d))))))

/-- Mean: cell factor × (exp(gene factor × logistic(head)) − 1 clamped to [1e-5, 1e6]). -/
def meanK (a gsv csv : EReal) : EReal :=
  csv * min (Ideal.ofBits .f32 0x49742400#32)
    (max (Ideal.ofBits .f32 0x3727C5AC#32) (Ideal.exp (gsv * Ideal.logistic a) - Ideal.ofBits .f32 0x3F800000#32))

end Cert.Zinb

end
-- ==== Proof.KernelBlock.lean ====
/-
  The [3, E] result array of the region as one function of the stacked [5, E] array it reads, at the ideal instance.

  Row 0 of the result at edge e is the mean chain of rows 0, 3, 4 of the stack at e; row 1 the dispersion chain of rows
  1, 3; row 2 the logistic of row 2. The region computes this tile by tile: tile t holds edges 80000·t … 80000·t + 79999,
  the body's three row stores are this same map applied to the tile's input block, the three rows tile the output block,
  and the fifty output blocks tile the result array. Nothing here depends on what the stack holds.
-/
import proofs.«416161_j30889404793298_2_alg».proof.Proof.IdealBody
import proofs.«416161_j30889404793298_2_alg».proof.Proof.Spec
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen Cert.Zinb

/-! ## The pointwise map from five rows to three -/

/-- Row r (0, 1, anything else) of the result at column e, from the five rows of X at column e. -/
def actAt {n : Nat} (X : (⟨2, ![5, n]⟩ : Shape).Idx → EReal) (r : ℕ) (e : Fin n) : EReal :=
  if r = 0 then meanK (X (ix2 (0 : Fin 5) e)) (X (ix2 (3 : Fin 5) e)) (X (ix2 (4 : Fin 5) e))
  else if r = 1 then dispK (X (ix2 (1 : Fin 5) e)) (X (ix2 (3 : Fin 5) e))
  else dropK (X (ix2 (2 : Fin 5) e))

/-- The whole [3, n] array. -/
def act {n : Nat} (X : (⟨2, ![5, n]⟩ : Shape).Idx → EReal) : (⟨2, ![3, n]⟩ : Shape).Idx → EReal :=
  fun y => actAt X (y 0).val ⟨(y 1).val, idx2_lt1 y⟩

theorem act_of {n : Nat} (X : (⟨2, ![5, n]⟩ : Shape).Idx → EReal) (y : (⟨2, ![3, n]⟩ : Shape).Idx) (r : ℕ) (e : Fin n)
    (h0 : (y 0).val = r) (h1 : (y 1).val = e.val) : act X y = actAt X r e := by
  unfold act
  have he : (⟨(y 1).val, idx2_lt1 y⟩ : Fin n) = e := Fin.ext h1
  rw [h0, he]

/-- The map at a column depends only on the five entries of that column. -/
theorem actAt_congr {n n' : Nat} (X : (⟨2, ![5, n]⟩ : Shape).Idx → EReal) (X' : (⟨2, ![5, n']⟩ : Shape).Idx → EReal)
    (r : ℕ) (e : Fin n) (e' : Fin n') (h : ∀ k : Fin 5, X (ix2 k e) = X' (ix2 k e')) : actAt X r e = actAt X' r e' := by
  unfold actAt
  rw [h 0, h 1, h 2, h 3, h 4]

/-! ## The body's three row stores are this map on the tile's block -/

theorem drop_lane (v4 : Vec Ideal S1x80000 .f32) (j : S1x80000.Idx) : k0_pay4 v4 j = dropK (v4 j) := by
  unfold k0_pay4; simp only [shapeCast_self]; rfl
theorem disp_lane (v2 v6 : Vec Ideal S1x80000 .f32) (j : S1x80000.Idx) : k0_pay2 v2 v6 j = dispK (v2 j) (v6 j) := by
  unfold k0_pay2 k0_pay1; simp only [shapeCast_self]; rfl
theorem mean_lane (v0 v6 v8 : Vec Ideal S1x80000 .f32) (j : S1x80000.Idx) : k0_pay3 v0 v6 v8 j = meanK (v0 j) (v6 j) (v8 j) := by
  unfold k0_pay3 k0_pay1; simp only [shapeCast_self]; rfl

/-- A load of row k of the block, at lane j, is the block at (k, j). -/
theorem ld_row (x : Vec Ideal S5x80000 .f32) (k : Fin 5)
    (inb : ∀ a, (![k.val, 0] : Fin 2 → Nat) a + S1x80000.size a ≤ S5x80000.size a) (j : S1x80000.Idx) :
    View.ld x (Rect.unit (s := S5x80000) ![k.val, 0] S1x80000.size inb) j = x (ix2 k (⟨(j 1).val, idx2_lt1 j⟩ : Fin 80000)) := by
  show x ((Rect.unit (s := S5x80000) ![k.val, 0] S1x80000.size inb).emb j) = _
  congr 1
  funext a
  have h0 : (j 0).val < 1 := (j 0).isLt
  match a with
  | ⟨0, _⟩ => apply Fin.ext; show k.val + 1 * (j 0).val = k.val; omega
  | ⟨1, _⟩ => apply Fin.ext; show 0 + 1 * (j 1).val = (j 1).val; omega

/-- Position (row, lane) of the output block under row piece r. -/
theorem outRow_emb (r : ℕ) (inb : ∀ a, (![r, 0] : Fin 2 → Nat) a + S1x80000.size a ≤ S3x80000.size a) (j : S1x80000.Idx) :
    (((Rect.unit (s := S3x80000) ![r, 0] S1x80000.size inb).emb j) 0).val = r
    ∧ (((Rect.unit (s := S3x80000) ![r, 0] S1x80000.size inb).emb j) 1).val = (j 1).val := by
  have h0 : (j 0).val < 1 := (j 0).isLt
  constructor
  · show r + 1 * (j 0).val = r; omega
  · show 0 + 1 * (j 1).val = (j 1).val; omega

theorem row2_piece (x : Vec Ideal S5x80000 .f32) (j : S1x80000.Idx) :
    k0_pay4 (View.ld x inRow2) j = act (n := 80000) x (outRow2.emb j) := by
  obtain ⟨h0, h1⟩ := outRow_emb 2 inb_S3x80000_S1x80000_2_0 j
  rw [act_of x _ 2 ⟨(j 1).val, idx2_lt1 j⟩ h0 h1, drop_lane]
  show dropK (View.ld x inRow2 j) = dropK (x (ix2 (2 : Fin 5) _))
  rw [show View.ld x inRow2 j = _ from ld_row x 2 inb_S5x80000_S1x80000_2_0 j]

theorem row1_piece (x : Vec Ideal S5x80000 .f32) (j : S1x80000.Idx) :
    k0_pay2 (View.ld x inRow1) (View.ld x inRow3) j = act (n := 80000) x (outRow1.emb j) := by
  obtain ⟨h0, h1⟩ := outRow_emb 1 inb_S3x80000_S1x80000_1_0 j
  rw [act_of x _ 1 ⟨(j 1).val, idx2_lt1 j⟩ h0 h1, disp_lane]
  show dispK (View.ld x inRow1 j) (View.ld x inRow3 j) = dispK (x (ix2 (1 : Fin 5) _)) (x (ix2 (3 : Fin 5) _))
  rw [show View.ld x inRow1 j = _ from ld_row x 1 inb_S5x80000_S1x80000_1_0 j,
    show View.ld x inRow3 j = _ from ld_row x 3 inb_S5x80000_S1x80000_3_0 j]

theorem row0_piece (x : Vec Ideal S5x80000 .f32) (j : S1x80000.Idx) :
    k0_pay3 (View.ld x inRow0) (View.ld x inRow3) (View.ld x inRow4) j = act (n := 80000) x (outRow0.emb j) := by
  obtain ⟨h0, h1⟩ := outRow_emb 0 inb_S3x80000_S1x80000_0_0 j
  rw [act_of x _ 0 ⟨(j 1).val, idx2_lt1 j⟩ h0 h1, mean_lane]
  show meanK (View.ld x inRow0 j) (View.ld x inRow3 j) (View.ld x inRow4 j)
    = meanK (x (ix2 (0 : Fin 5) _)) (x (ix2 (3 : Fin 5) _)) (x (ix2 (4 : Fin 5) _))
  rw [show View.ld x inRow0 j = _ from ld_row x 0 inb_S5x80000_S1x80000_0_0 j,
    show View.ld x inRow3 j = _ from ld_row x 3 inb_S5x80000_S1x80000_3_0 j,
    show View.ld x inRow4 j = _ from ld_row x 4 inb_S5x80000_S1x80000_4_0 j]

/-- The output block after the body is the map applied to the input block. -/
theorem outBlock_eq (x : Vec Ideal S5x80000 .f32) : outBlock x = act (n := 80000) x := by
  funext y
  unfold outBlock
  refine View.canon_apply_of_pieces (Val := Elt Ideal) (act (n := 80000) x) _ ?_ y (rows_cover _ _ _ y)
  intro p hp j
  simp only [List.mem_cons, List.not_mem_nil, or_false] at hp
  rcases hp with rfl | rfl | rfl
  · exact row2_piece x j
  · exact row1_piece x j
  · exact row0_piece x j

/-! ## From the fifty blocks to the array -/

variable (m : (ℓ : Loc nD τ sig) → Buf (Elt Ideal) ℓ)

/-- Both windows' blocks at tile t sit at row-block 0 and column-block t. -/
theorem tile_index : ∀ t : Fin cfg0.N, win0_0.index t (0 : Fin 2) = 0 ∧ win0_0.index t (1 : Fin 2) = t.val
    ∧ win0_1.index t (0 : Fin 2) = 0 ∧ win0_1.index t (1 : Fin 2) = t.val :=
  (by decide +kernel : ∀ t : Fin grid0.N, _)

/-- The tile's input block at (k, j) is the stacked array at (k, 80000·t + j). -/
theorem block_read (c : Dev nD) (t : Fin cfg0.N) (k : Fin 5) (j : Fin 80000) (E : Fin 4000000) (hE : E.val = t.val * 80000 + j.val) :
    iblk m c 0 t (ix2 k j) = V m c main_v75 (ix2 k E) := by
  obtain ⟨e0, e1, -, -⟩ := tile_index t
  show V m c main_v75 (((cfg0.win 0).blk t).view.emb (ix2 k j)) = V m c main_v75 (ix2 k E)
  congr 1
  funext a
  match a with
  | ⟨0, _⟩ => apply Fin.ext; show win0_0.index t (0 : Fin 2) * 5 + 1 * k.val = k.val; omega
  | ⟨1, _⟩ => apply Fin.ext; show win0_0.index t (1 : Fin 2) * 80000 + 1 * j.val = E.val; omega

/-- What tile t writes back is block t of the map applied to the stacked array. -/
theorem flushed_out (c : Dev nD) (t : Fin cfg0.N) :
    (dats m 0 c).flushed 1 t = ((cfg0.win 1).blk t).view.read (Elt Ideal) (act (n := 4000000) (V m c main_v75)) := by
  show (cfg0.win 1).cut (grid0.coords t) ((dats m 0 c).after 1 t) = _
  rw [after_out, outBlock_eq]
  obtain ⟨-, -, e2, e3⟩ := tile_index t
  funext j
  show act (n := 80000) (iblk m c 0 t) j = act (n := 4000000) (V m c main_v75) (((cfg0.win 1).blk t).view.emb j)
  have hj0 : (j 0).val < 3 := (j 0).isLt
  have hj1 : (j 1).val < 80000 := (j 1).isLt
  have ht : t.val < 50 := Nat.lt_of_lt_of_eq t.isLt N_0
  have hE : t.val * 80000 + (j 1).val < 4000000 := by omega
  have h0 : ((((cfg0.win 1).blk t).view.emb j) 0).val = (j 0).val := by
    show win0_1.index t (0 : Fin 2) * 3 + 1 * (j 0).val = (j 0).val; omega
  have h1 : ((((cfg0.win 1).blk t).view.emb j) 1).val = (⟨t.val * 80000 + (j 1).val, hE⟩ : Fin 4000000).val := by
    show win0_1.index t (1 : Fin 2) * 80000 + 1 * (j 1).val = t.val * 80000 + (j 1).val; omega
  rw [act_of (V m c main_v75) _ (j 0).val ⟨t.val * 80000 + (j 1).val, hE⟩ h0 h1,
    act_of (iblk m c 0 t) j (j 0).val ⟨(j 1).val, hj1⟩ rfl rfl]
  exact actAt_congr _ _ _ _ _ fun k => block_read m c t k ⟨(j 1).val, hj1⟩ ⟨t.val * 80000 + (j 1).val, hE⟩ rfl

/-- A position of the result array lies in tile t's block iff its column lies in the tile's 80000 columns. -/
theorem mem_outBlk (t : Fin cfg0.N) (i : S3x4000000.Idx) :
    i ∈ ((cfg0.win 1).blk t).view.set ↔ ∀ a : Fin 2, win0_1.index t a * S3x80000.size a ≤ (i a).val ∧ (i a).val < win0_1.index t a * S3x80000.size a + S3x80000.size a := by
  show i ∈ ((View.whole main_v76).slice (win0_1.rect t)).set ↔ _
  rw [View.set_slice_whole, Rect.mem_set_unit]
  exact Iff.rfl

/-- Every position of the result array lies in the block of the tile its column falls in. -/
theorem out_cover (i : S3x4000000.Idx) : ∃ t : Fin cfg0.N, (cfg0.win 1).flush t = true ∧ i ∈ ((cfg0.win 1).blk t).view.set := by
  have hi0 : (i 0).val < 3 := (i 0).isLt
  have hi1 : (i 1).val < 4000000 := (i 1).isLt
  have hN : cfg0.N = 50 := N_0
  let t : Fin cfg0.N := ⟨(i 1).val / 80000, by rw [hN]; omega⟩
  obtain ⟨-, -, e2, e3⟩ := tile_index t
  have e3' : win0_1.index t (1 : Fin 2) = (i 1).val / 80000 := e3
  refine ⟨t, flush0_1 t, ?_⟩
  rw [mem_outBlk]
  intro a
  match a with
  | ⟨0, _⟩ => show win0_1.index t (0 : Fin 2) * 3 ≤ (i 0).val ∧ (i 0).val < win0_1.index t (0 : Fin 2) * 3 + 3; omega
  | ⟨1, _⟩ => show win0_1.index t (1 : Fin 2) * 80000 ≤ (i 1).val ∧ (i 1).val < win0_1.index t (1 : Fin 2) * 80000 + 80000; omega

/-- THE RESULT ARRAY after the region: the map applied to the stacked array. -/
theorem out_array (c : Dev nD) : (dats m 0 c).arrAt 1 cfg0.N = act (n := 4000000) (V m c main_v75) :=
  (dats m 0 c).arrAt_eq_of_cover 1 (act (n := 4000000) (V m c main_v75)) (fun t _ => flushed_out m c t) out_cover

end Cert.KernelIdeal.Hand

end
-- ==== Proof.LibAfter.lean ====
/-
  The contents of a buffer after a line of host operations, read one operation at a time.

  Every buffer of a printed program is written by one operation. So what the line leaves in the buffer operation k
  writes is what operation k left there, and that is its function applied to what the WHOLE line leaves in the buffers
  it reads, since no operation from k on writes those. The bookkeeping is a list ys of the references the operations
  write, in order: "x is not written from position k on" is "x is not among ys from position k on", a decidable
  question about a list of references.
-/
import Idealize.ShloMosaic.Lib.StableHlo.Run

noncomputable section

namespace Cert.LibAfter

open Idealize.ShloMosaic Idealize.ShloMosaic.StableHlo

variable {τ : Topo} {sig : RefSig} {Val : EltTy → Type}

/-- The contents after two lines run one after the other. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- A buffer no operation from position k on writes holds what the first k operations left. -/
theorem after_take (ops : List (HloOp τ sig Val)) (k : Nat) (V : Valuation τ sig Val) (b : DevRef τ sig)
    (h : ∀ o ∈ ops.drop k, b ∉ o.writes) : after ops V b = after (ops.take k) V b := by
  conv_lhs => rw [← List.take_append_drop k ops]
  rw [after_append, after_of_forall_not_mem _ _ h]

/-- A buffer no operation after position k writes holds what operation k left, run on what the first k operations left. -/
theorem after_at (ops : List (HloOp τ sig Val)) (k : Nat) (hk : k < ops.length) (V : Valuation τ sig Val)
    (b : DevRef τ sig) (h : ∀ o ∈ ops.drop (k + 1), b ∉ o.writes) :
    after ops V b = (ops[k]).result (after (ops.take k) V) b := by
  conv_lhs => rw [← List.take_append_drop k ops, List.drop_eq_getElem_cons hk]
  rw [after_append, after_cons, after_of_forall_not_mem _ _ h]

/-- The line writes, operation by operation, exactly the references ys, one each. -/
def Writes (ops : List (HloOp τ sig Val)) (ys : List (Ref sig .tc)) : Prop :=
  ops.map (fun o => o.writes) = ys.map fun y => ({Proc.devRef .tc y} : Finset (DevRef τ sig))

/-- A reference that is not among ys from position k on is written by no operation from position k on. -/
theorem Writes.not_written {ops : List (HloOp τ sig Val)} {ys : List (Ref sig .tc)} (hW : Writes ops ys) (k : Nat)
    (x : Ref sig .tc) (hx : x ∉ ys.drop k) : ∀ o ∈ ops.drop k, (Proc.devRef .tc x : DevRef τ sig) ∉ o.writes := by
  intro o ho hmem
  have h1 : o.writes ∈ (ops.drop k).map (fun o => o.writes) := List.mem_map_of_mem ho
  rw [List.map_drop, hW, ← List.map_drop] at h1
  obtain ⟨y', hy', he⟩ := List.mem_map.mp h1
  rw [← he, Finset.mem_singleton] at hmem
  have hxy : x = y' := Proc.devRef_injective _ hmem
  exact hx (hxy ▸ hy')

variable {ops : List (HloOp τ sig Val)} {ys : List (Ref sig .tc)}

/-- What the line leaves in the buffer operation k writes: operation k's result on what the first k operations left. -/
theorem Writes.at (hW : Writes ops ys) (V : Valuation τ sig Val) (k : Nat) {op : HloOp τ sig Val} {y : Ref sig .tc}
    (hop : ops[k]? = some op) (hy : y ∉ ys.drop (k + 1)) :
    after ops V (Proc.devRef .tc y) = op.result (after (ops.take k) V) (Proc.devRef .tc y) := by
  obtain ⟨hk, he⟩ := List.getElem?_eq_some_iff.mp hop
  rw [after_at ops k hk V _ (hW.not_written (k + 1) y hy), he]

/-- A buffer not written from position k on: what the first k operations left there is what the whole line leaves. -/
theorem Writes.back (hW : Writes ops ys) (V : Valuation τ sig Val) (k : Nat) (x : Ref sig .tc) (hx : x ∉ ys.drop k) :
    after (ops.take k) V (Proc.devRef .tc x) = after ops V (Proc.devRef .tc x) :=
  (after_take ops k V _ (hW.not_written k x hx)).symm

/-- A buffer the line never writes keeps its contents. -/
theorem Writes.kept (hW : Writes ops ys) (V : Valuation τ sig Val) (x : Ref sig .tc) (hx : x ∉ ys) :
    after ops V (Proc.devRef .tc x) = V (Proc.devRef .tc x) :=
  after_of_forall_not_mem ops V (hW.not_written 0 x hx)

/-! ## One operation: its result buffer from its operands' buffers, all after the whole line -/

theorem Writes.nullary (hW : Writes ops ys) (V : Valuation τ sig Val) (k : Nat) {y : Ref sig .tc} {v : y.ty.Contents Val} {hy}
    (hop : ops[k]? = some (nullary y v hy)) (hy' : y ∉ ys.drop (k + 1)) :
    after ops V (Proc.devRef .tc y) = v := by
  rw [hW.at V k hop hy', nullary_result]

theorem Writes.unary (hW : Writes ops ys) (V : Valuation τ sig Val) (k : Nat) {x y : Ref sig .tc}
    {f : x.ty.Contents Val → y.ty.Contents Val} {hx hy}
    (hop : ops[k]? = some (unary x y f hx hy)) (hy' : y ∉ ys.drop (k + 1)) (hx' : x ∉ ys.drop k) :
    after ops V (Proc.devRef .tc y) = f (after ops V (Proc.devRef .tc x)) := by
  rw [hW.at V k hop hy', unary_result]
  exact congrArg f (hW.back V k x hx')

theorem Writes.binary (hW : Writes ops ys) (V : Valuation τ sig Val) (k : Nat) {a b y : Ref sig .tc}
    {f : a.ty.Contents Val → b.ty.Contents Val → y.ty.Contents Val} {ha hb hy}
    (hop : ops[k]? = some (binary a b y f ha hb hy)) (hy' : y ∉ ys.drop (k + 1)) (ha' : a ∉ ys.drop k)
    (hb' : b ∉ ys.drop k) :
    after ops V (Proc.devRef .tc y) = f (after ops V (Proc.devRef .tc a)) (after ops V (Proc.devRef .tc b)) := by
  rw [hW.at V k hop hy', binary_result]
  exact congrArg₂ f (hW.back V k a ha') (hW.back V k b hb')

theorem Writes.ternary (hW : Writes ops ys) (V : Valuation τ sig Val) (k : Nat) {c a b y : Ref sig .tc}
    {f : c.ty.Contents Val → a.ty.Contents Val → b.ty.Contents Val → y.ty.Contents Val} {hc ha hb hy}
    (hop : ops[k]? = some (ternary c a b y f hc ha hb hy)) (hy' : y ∉ ys.drop (k + 1)) (hc' : c ∉ ys.drop k)
    (ha' : a ∉ ys.drop k) (hb' : b ∉ ys.drop k) :
    after ops V (Proc.devRef .tc y)
      = f (after ops V (Proc.devRef .tc c)) (after ops V (Proc.devRef .tc a)) (after ops V (Proc.devRef .tc b)) := by
  rw [hW.at V k hop hy', ternary_result, hW.back V k c hc', hW.back V k a ha', hW.back V k b hb']

theorem Writes.reshape (hW : Writes ops ys) (V : Valuation τ sig Val) (k : Nat) {x y : Ref sig .tc}
    {he : x.ty.elt = y.ty.elt} {hn : x.ty.shape.ShapeCasts y.ty.shape} {hx hy}
    (hop : ops[k]? = some (reshape x y he hn hx hy)) (hy' : y ∉ ys.drop (k + 1)) (hx' : x ∉ ys.drop k) :
    after ops V (Proc.devRef .tc y) = fun i => he ▸ shapeCast y.ty.shape (after ops V (Proc.devRef .tc x)) hn i := by
  rw [hW.at V k hop hy', reshape_result, hW.back V k x hx']

/-! ## The same for an operation of a called function

  A called function's operation names its buffers through typed references and carries contents across the equation
  "the buffer's type is the value's type". When that equation is the reflexive one the transport is the identity, and
  the operation's function applies to the buffers' contents as they are. -/

theorem Writes.tunary (hW : Writes ops ys) (V : Valuation τ sig Val) (k : Nat) {x y : Ref sig .tc} {ox ux oy uy}
    {g : x.ty.Contents Val → y.ty.Contents Val}
    (hop : ops[k]? = some (TRef.unary (⟨x, rfl, ox, ux⟩ : TRef sig x.ty) (⟨y, rfl, oy, uy⟩ : TRef sig y.ty) g))
    (hy' : y ∉ ys.drop (k + 1)) (hx' : x ∉ ys.drop k) :
    after ops V (Proc.devRef .tc y) = g (after ops V (Proc.devRef .tc x)) := by
  have h := hW.unary V k hop hy' hx'
  simpa only [TRef.toBuf, TRef.ofBuf, cast_eq] using h

theorem Writes.tbinary (hW : Writes ops ys) (V : Valuation τ sig Val) (k : Nat) {a b y : Ref sig .tc} {oa ua ob ub oy uy}
    {g : a.ty.Contents Val → b.ty.Contents Val → y.ty.Contents Val}
    (hop : ops[k]? = some (TRef.binary (⟨a, rfl, oa, ua⟩ : TRef sig a.ty) (⟨b, rfl, ob, ub⟩ : TRef sig b.ty)
      (⟨y, rfl, oy, uy⟩ : TRef sig y.ty) g))
    (hy' : y ∉ ys.drop (k + 1)) (ha' : a ∉ ys.drop k) (hb' : b ∉ ys.drop k) :
    after ops V (Proc.devRef .tc y) = g (after ops V (Proc.devRef .tc a)) (after ops V (Proc.devRef .tc b)) := by
  have h := hW.binary V k hop hy' ha' hb'
  simpa only [TRef.toBuf, TRef.ofBuf, cast_eq] using h

theorem Writes.tternary (hW : Writes ops ys) (V : Valuation τ sig Val) (k : Nat) {c a b y : Ref sig .tc}
    {oc uc oa ua ob ub oy uy} {g : c.ty.Contents Val → a.ty.Contents Val → b.ty.Contents Val → y.ty.Contents Val}
    (hop : ops[k]? = some (TRef.ternary (⟨c, rfl, oc, uc⟩ : TRef sig c.ty) (⟨a, rfl, oa, ua⟩ : TRef sig a.ty)
      (⟨b, rfl, ob, ub⟩ : TRef sig b.ty) (⟨y, rfl, oy, uy⟩ : TRef sig y.ty) g))
    (hy' : y ∉ ys.drop (k + 1)) (hc' : c ∉ ys.drop k) (ha' : a ∉ ys.drop k) (hb' : b ∉ ys.drop k) :
    after ops V (Proc.devRef .tc y)
      = g (after ops V (Proc.devRef .tc c)) (after ops V (Proc.devRef .tc a)) (after ops V (Proc.devRef .tc b)) := by
  have h := hW.ternary V k hop hy' hc' ha' hb'
  simpa only [TRef.toBuf, TRef.ofBuf, cast_eq] using h

end Cert.LibAfter

end
-- ==== Proof.KernelTail.lean ====
/-
  The three result columns after the region, at the ideal instance.

  After the region the program cuts its [3, E] result array into rows and turns each row into an [E, 1] column: a slice of
  one row, a reshape to [E], a reshape to [E, 1]. Entry (e, 0) of column r is therefore entry (r, e) of the result array,
  which is the pointwise map of the stacked array at column e: the mean for r = 0, the dispersion for r = 1, the dropout
  probability for r = 2.
-/
import proofs.«416161_j30889404793298_2_alg».proof.Proof.KernelBlock
import proofs.«416161_j30889404793298_2_alg».proof.Proof.LibAfter

set_option maxRecDepth 16384

noncomputable section

namespace Cert.KernelIdeal.Hand

open Idealize.ShloMosaic Idealize.ShloMosaic.TcCoe Idealize.ShloMosaic.ValueIdx Idealize.SL.Sem Idealize.ShloMosaic.StableHlo
open Idealize.ShloMosaic.Pipeline (Dat)
open Cert.KernelIdeal Cert.KernelIdeal.Gen Cert.Zinb Cert.LibAfter

variable (m : (ℓ : Loc nD τ sig) → Buf (Elt Ideal) ℓ)

/-- The buffers the nine operations after the region write, in order. -/
def tailYs : List (Ref sig .tc) :=
  [main_v77, main_v78, main_v79, main_v80, main_v81, main_v82, main_v83, main_v84, main_v85]

theorem tailWrites : Writes (hostOps1 (F := Ideal)) tailYs := by
  unfold Writes tailYs
  simp only [hostOps1, List.map_cons, List.map_nil, StableHlo.unary_writes, StableHlo.reshape_writes]

/-- Core c's buffers when the region is left: the region-entry contents with the two arrays of the pipeline replaced by
    what their blocks' write-backs made of them. -/
abbrev exitV (c : Dev nD) : Valuation τ sig (Elt Ideal) :=
  Pipeline.withArrays (cfgs 0).spec c (V0 m c) fun w => (dats m 0 c).arrAt w (cfgs 0).N

theorem afterTail_eq (c : Dev nD) (b : Ref sig .tc) :
    Pipeline.afterTail₀ cfgs (dats m) 0 (V0 m) [hostOps1] c b = after (hostOps1 (F := Ideal)) (exitV m c) (Proc.devRef .tc b) := by
  unfold Pipeline.afterTail₀
  simp only [List.flatten_cons, List.flatten_nil, List.append_nil]

/-- The result array when the region is left, and after the nine operations, none of which writes it. -/
theorem exit_out (c : Dev nD) : after (hostOps1 (F := Ideal)) (exitV m c) (Proc.devRef .tc main_v76) = act (n := 4000000) (V m c main_v75) := by
  rw [(tailWrites).kept (exitV m c) main_v76 (by decide)]
  exact (Pipeline.withArrays_arr spec0 launch0.win.arr_inj c _ _ 1).trans (out_array m c)

/-- A one-row slice of a [3, E] array at row r, reshaped to [E] and then to [E, 1], read at (e, 0), is the array at (r, e). -/
theorem column_read (X : S3x4000000.Idx → EReal) (r : Fin 3) (hs : S3x4000000.Slices ![r.val, 0] S1x4000000)
    (h1 : S1x4000000.ShapeCasts S4000000) (h2 : S4000000.ShapeCasts S4000000x1) (e : Fin 4000000) :
    shapeCast S4000000x1 (shapeCast S4000000 (extractStridedSlice S1x4000000 ![r.val, 0] X hs) h1) h2 (ix2 e (0 : Fin 1)) = X (ix2 r e) := by
  rw [shapeCast_apply _ h2 (ix2 e (0 : Fin 1)) (ix1 e) (by
      rw [Shape.rowMajor_val_one, Shape.rowMajor_val_two]; show e.val = e.val * 1 + 0; omega),
    shapeCast_apply _ h1 (ix1 e) (ix2 (0 : Fin 1) e) (by
      rw [Shape.rowMajor_val_two, Shape.rowMajor_val_one]; show 0 * 4000000 + e.val = e.val; omega)]
  exact extractStridedSlice_apply ![r.val, 0] X hs (ix2 (0 : Fin 1) e) (ix2 r e) (by
    intro a
    match a with
    | ⟨0, _⟩ => show r.val = r.val + 0; omega
    | ⟨1, _⟩ => show e.val = 0 + e.val; omega)

variable (c : Dev nD) (e : Fin 4000000)

/-- The mean column at edge e. -/
theorem result_mean : Pipeline.afterTail₀ cfgs (dats m) 0 (V0 m) [hostOps1] c main_v79 (ix2 e (0 : Fin 1)) = actAt (V m c main_v75) 0 e := by
  rw [afterTail_eq,
    (tailWrites).reshape (exitV m c) 2 (x := main_v78) (y := main_v79) rfl (by decide) (by decide),
    (tailWrites).reshape (exitV m c) 1 (x := main_v77) (y := main_v78) rfl (by decide) (by decide),
    (tailWrites).unary (exitV m c) 0 (x := main_v76) (y := main_v77) rfl (by decide) (by decide), exit_out]
  exact (column_read _ 0 _ _ _ e).trans (act_of _ _ 0 e rfl rfl)

/-- The dispersion column at edge e. -/
theorem result_disp : Pipeline.afterTail₀ cfgs (dats m) 0 (V0 m) [hostOps1] c main_v82 (ix2 e (0 : Fin 1)) = actAt (V m c main_v75) 1 e := by
  rw [afterTail_eq,
    (tailWrites).reshape (exitV m c) 5 (x := main_v81) (y := main_v82) rfl (by decide) (by decide),
    (tailWrites).reshape (exitV m c) 4 (x := main_v80) (y := main_v81) rfl (by decide) (by decide),
    (tailWrites).unary (exitV m c) 3 (x := main_v76) (y := main_v80) rfl (by decide) (by decide), exit_out]
  exact (column_read _ 1 _ _ _ e).trans (act_of _ _ 1 e rfl rfl)

/-- The dropout column at edge e. -/
theorem result_drop : Pipeline.afterTail₀ cfgs (dats m) 0 (V0 m) [hostOps1] c main_v85 (ix2 e (0 : Fin 1)) = actAt (V m c main_v75) 2 e := by
  rw [afterTail_eq,
    (tailWrites).reshape (exitV m c) 8 (x := main_v84) (y := main_v85) rfl (by decide) (by decide),
    (tailWrites).reshape (exitV m c) 7 (x := main_v83) (y := main_v84) rfl (by decide) (by decide),
    (tailWrites).unary (exitV m c) 6 (x := main_v76) (y := main_v83) rfl (by decide) (by decide), exit_out]
  exact (column_read _ 2 _ _ _ e).trans (act_of _ _ 2 e rfl rfl)

end Cert.KernelIdeal.Hand

end
-- ==== Proof.KernelWrites.lean ====
/-
  The host operations that precede the region, as a list of the buffers they write.

  Every buffer of the printed program is written by exactly one operation, so the contents of a buffer when the region is
  entered are that one operation's function applied to the contents, at that same moment, of the buffers it reads. To use
  this one operation at a time one needs, for each buffer, that no later operation writes it; with the written buffers
  listed in program order that is a question about a list of 101 references: the two index clamps (a constant pair and
  six operations each), then the 85 operations that build the three dense tables, the flat edge index, the five gathers
  and the stacked [5, E] array.
-/
import proofs.«416161_j30889404793298_2_alg».proof.Proof.IdealHost
import proofs.«416161_j30889404793298_2_alg».proof.Proof.LibAfter

set_option maxRecDepth 16384

noncomputable section

namespace Cert.KernelIdeal.Hand

open Idealize.ShloMosaic Idealize.ShloMosaic.TcCoe Idealize.SL.Sem Idealize.ShloMosaic.StableHlo
open Cert.KernelIdeal Cert.KernelIdeal.Gen Cert.LibAfter

variable {F : FTy → Type} [FloatOps F]

/-- The operations before the region, in program order. -/
abbrev preOps : List (HloOp τ sig (Elt F)) := List.flatten [hostOps0, hostOps0_1, hostOps0_2, hostOps0_3, hostOps0_4]

/-- The buffers they write, in the same order. -/
def preYs : List (Ref sig .tc) :=
  [
    main_c, main_c_0, main_call0_v0, main_call0_v1, main_call0_v2, main_call0_v3, main_call0_v4, main_v0, main_c_1, main_c_2,
    main_call1_v0, main_call1_v1, main_call1_v2, main_call1_v3, main_call1_v4, main_v1, main_v2, main_v3, main_v4, main_v5,
    main_v6, main_v7, main_v8, main_v9, main_v10, main_v11, main_v12, main_v13, main_v14, main_v15,
    main_v16, main_v17, main_v18, main_v19, main_v20, main_v21, main_v22, main_v23, main_v24, main_v25,
    main_v26, main_c_3, main_v27, main_v28, main_v29, main_v30, main_c_4, main_v31, main_v32, main_c_5,
    main_v33, main_v34, main_v35, main_v36, main_v37, main_v38, main_c_6, main_v39, main_v40, main_c_7,
    main_v41, main_v42, main_v43, main_v44, main_v45, main_v46, main_c_8, main_v47, main_v48, main_c_9,
    main_v49, main_v50, main_v51, main_v52, main_v53, main_v54, main_c_10, main_v55, main_v56, main_c_11,
    main_v57, main_v58, main_v59, main_v60, main_v61, main_v62, main_c_12, main_v63, main_v64, main_c_13,
    main_v65, main_v66, main_v67, main_v68, main_v69, main_v70, main_v71, main_v72, main_v73, main_v74,
    main_v75 ]

set_option maxHeartbeats 4000000 in
/-- Operation by operation, the k-th operation writes the k-th buffer of the list and nothing else. -/
theorem preWrites : Writes (preOps (F := F)) preYs := by
  unfold Writes preYs
  simp only [preOps, hostOps0, hostOps0_1, hostOps0_2, hostOps0_3, hostOps0_4, List.flatten_cons, List.flatten_nil, List.append_nil,
    List.cons_append, List.nil_append, List.map_cons, List.map_nil, StableHlo.nullary_writes, StableHlo.unary_writes,
    StableHlo.binary_writes, StableHlo.ternary_writes, StableHlo.reshape_writes, nary_writes]

/-- The region-entry contents are the launch memory after these operations. -/
theorem V_eq (m : (ℓ : Loc nD τ sig) → Buf (Elt F) ℓ) (c : Dev nD) (b : Ref sig .tc) :
    V m c b = after (preOps (F := F)) (fun b => m (c, b)) (Proc.devRef .tc b) := rfl

end Cert.KernelIdeal.Hand

end
-- ==== Proof.KernelStack.lean ====
/-
  The stacked [5, E] array the region reads, read row by row at one edge; the two index clamps; the two factor gathers.

  The last host operation before the region concatenates five [1, E] rows along axis 0. Each row is a rank-1 [E] array
  laid along the second axis, so entry (r, e) of the stack is entry e of the r-th of those arrays: the three gathered
  pre-activations, the gathered gene factor and the gathered cell factor.

  The edge endpoints pass through a clip to [0, 9999] and [0, 1999] before they are used. A word that is a natural
  number below the bound is left alone by the clip. The factor gathers then wrap negative indices (none here), and
  StableHLO's gather reads the start index signed and clamped into the table, which for an in-range natural number is
  the number itself; the tables are the [N, 1] factor columns reshaped to [N].
-/
import proofs.«416161_j30889404793298_2_alg».proof.Proof.KernelWrites
import proofs.«416161_j30889404793298_2_alg».proof.Proof.Spec
import Idealize.ShloMosaic.Lib.ValueIdx
import Idealize.ShloMosaic.Lib.Pipeline.Value
import Idealize.ShloMosaic.Lib.ValueLayout
import Idealize.ShloMosaic.Lib.StableHlo.Predicate
import Idealize.ShloMosaic.PureOps.Ideal.Laws

set_option maxRecDepth 16384

noncomputable section

/-! ## An operation over a family of operands, read one operation at a time -/

namespace Cert.LibAfter

open Idealize.ShloMosaic Idealize.ShloMosaic.StableHlo

variable {τ : Topo} {sig : RefSig} {Val : EltTy → Type}
variable {ops : List (HloOp τ sig Val)} {ys : List (Ref sig .tc)}

/-- What the line leaves in the buffer written by an operation over a family of operands: the operation's function of
    what the whole line leaves in each operand's buffer, none of which is written from that position on. -/
theorem Writes.nary (hW : Writes ops ys) (V : Valuation τ sig Val) (k : Nat) {n : Nat} {xs : Fin n → Ref sig .tc}
    {y : Ref sig .tc} {f : ((i : Fin n) → (xs i).ty.Contents Val) → y.ty.Contents Val} {hxs hy}
    (hop : ops[k]? = some (nary xs y f hxs hy)) (hy' : y ∉ ys.drop (k + 1)) (hx' : ∀ i, xs i ∉ ys.drop k) :
    after ops V (Proc.devRef .tc y) = f (fun i => after ops V (Proc.devRef .tc (xs i))) := by
  rw [hW.at V k hop hy', nary_result]
  exact congrArg f (funext fun i => hW.back V k (xs i) (hx' i))

end Cert.LibAfter

namespace Cert.KernelIdeal.Hand

open Idealize.ShloMosaic Idealize.ShloMosaic.TcCoe Idealize.ShloMosaic.ValueIdx Idealize.SL.Sem
open Idealize.ShloMosaic.StableHlo Cert.KernelIdeal Cert.KernelIdeal.Gen Cert.LibAfter Cert.Zinb

variable (m : (ℓ : Loc nD τ sig) → Buf (Elt Ideal) ℓ) (c : Dev nD) (e : Fin 4000000)

/-! ## The stack -/

/-- The stacked array is the concatenation of the five rows. -/
theorem V_v75 : V m c main_v75
    = concatenate S5x4000000 0 [⟨S1x4000000, V m c main_v70⟩, ⟨S1x4000000, V m c main_v71⟩, ⟨S1x4000000, V m c main_v72⟩,
        ⟨S1x4000000, V m c main_v73⟩, ⟨S1x4000000, V m c main_v74⟩]
        concatenates_S1x4000000_S1x4000000_S1x4000000_S1x4000000_S1x4000000_S5x4000000_d0 :=
  (preWrites (F := Ideal)).nary (fun b => m (c, b)) 100 (by rfl) (by decide) (by intro i; fin_cases i <;> decide)

/-- Each row is a rank-1 [E] array laid along the second axis. -/
theorem V_v70 : V m c main_v70 = broadcastInDim S1x4000000 ![1] bcast_S4000000_S1x4000000_1 (V m c main_v37) :=
  (preWrites (F := Ideal)).unary (fun b => m (c, b)) 95 (by rfl) (by decide) (by decide)
theorem V_v71 : V m c main_v71 = broadcastInDim S1x4000000 ![1] bcast_S4000000_S1x4000000_1 (V m c main_v45) :=
  (preWrites (F := Ideal)).unary (fun b => m (c, b)) 96 (by rfl) (by decide) (by decide)
theorem V_v72 : V m c main_v72 = broadcastInDim S1x4000000 ![1] bcast_S4000000_S1x4000000_1 (V m c main_v53) :=
  (preWrites (F := Ideal)).unary (fun b => m (c, b)) 97 (by rfl) (by decide) (by decide)
theorem V_v73 : V m c main_v73 = broadcastInDim S1x4000000 ![1] bcast_S4000000_S1x4000000_1 (V m c main_v61) :=
  (preWrites (F := Ideal)).unary (fun b => m (c, b)) 98 (by rfl) (by decide) (by decide)
theorem V_v74 : V m c main_v74 = broadcastInDim S1x4000000 ![1] bcast_S4000000_S1x4000000_1 (V m c main_v69) :=
  (preWrites (F := Ideal)).unary (fun b => m (c, b)) 99 (by rfl) (by decide) (by decide)

/-- Entry (r, e) of a concatenation of five one-row pieces along axis 0 is entry (0, e) of piece r. -/
theorem concat5_apply {α : Type} (x0 x1 x2 x3 x4 : S1x4000000.Idx → α)
    (h : Shape.Concatenates [S1x4000000, S1x4000000, S1x4000000, S1x4000000, S1x4000000] S5x4000000 0) (r : Fin 5) (e : Fin 4000000) :
    concatenate S5x4000000 0 [⟨S1x4000000, x0⟩, ⟨S1x4000000, x1⟩, ⟨S1x4000000, x2⟩, ⟨S1x4000000, x3⟩, ⟨S1x4000000, x4⟩] h (ix2 r e)
      = (![x0, x1, x2, x3, x4] r) (ix2 (0 : Fin 1) e) := by
  -- off the concatenated axis the piece's index has the stack index's coordinate
  have hi : ∀ (r : Fin 5) (b : Fin S1x4000000.rank), b.cast (rfl : S1x4000000.rank = S5x4000000.rank) ≠ (0 : Fin 2) →
      ((ix2 (0 : Fin 1) e : S1x4000000.Idx) b).val = ((ix2 r e : S5x4000000.Idx) (b.cast rfl)).val := by
    intro r b hb
    match b with
    | ⟨0, _⟩ => exact absurd rfl hb
    | ⟨1, _⟩ => rfl
  fin_cases r
  · exact concatenate_apply_piece (t := S5x4000000) (0 : Fin 2)
      [⟨S1x4000000, x0⟩, ⟨S1x4000000, x1⟩, ⟨S1x4000000, x2⟩, ⟨S1x4000000, x3⟩, ⟨S1x4000000, x4⟩] h _ 0 (by simp) S1x4000000 x0 rfl rfl 0 rfl
      (ix2 (0 : Fin 1) e) (hi _) rfl
  · exact concatenate_apply_piece (t := S5x4000000) (0 : Fin 2)
      [⟨S1x4000000, x0⟩, ⟨S1x4000000, x1⟩, ⟨S1x4000000, x2⟩, ⟨S1x4000000, x3⟩, ⟨S1x4000000, x4⟩] h _ 1 (by simp) S1x4000000 x1 rfl rfl 1 rfl
      (ix2 (0 : Fin 1) e) (hi _) rfl
  · exact concatenate_apply_piece (t := S5x4000000) (0 : Fin 2)
      [⟨S1x4000000, x0⟩, ⟨S1x4000000, x1⟩, ⟨S1x4000000, x2⟩, ⟨S1x4000000, x3⟩, ⟨S1x4000000, x4⟩] h _ 2 (by simp) S1x4000000 x2 rfl rfl 2 rfl
      (ix2 (0 : Fin 1) e) (hi _) rfl
  · exact concatenate_apply_piece (t := S5x4000000) (0 : Fin 2)
      [⟨S1x4000000, x0⟩, ⟨S1x4000000, x1⟩, ⟨S1x4000000, x2⟩, ⟨S1x4000000, x3⟩, ⟨S1x4000000, x4⟩] h _ 3 (by simp) S1x4000000 x3 rfl rfl 3 rfl
      (ix2 (0 : Fin 1) e) (hi _) rfl
  · exact concatenate_apply_piece (t := S5x4000000) (0 : Fin 2)
      [⟨S1x4000000, x0⟩, ⟨S1x4000000, x1⟩, ⟨S1x4000000, x2⟩, ⟨S1x4000000, x3⟩, ⟨S1x4000000, x4⟩] h _ 4 (by simp) S1x4000000 x4 rfl rfl 4 rfl
      (ix2 (0 : Fin 1) e) (hi _) rfl

/-- A rank-1 [E] array laid along the second axis of a [1, E] row reads, at (0, e), the array at e. -/
theorem row_apply {α : Type} (v : S4000000.Idx → α) (e : Fin 4000000) :
    broadcastInDim S1x4000000 ![1] bcast_S4000000_S1x4000000_1 v (ix2 (0 : Fin 1) e) = v (ix1 e) :=
  broadcastInDim_apply _ _ v _ (ix1 e) fun a => by
    match a with
    | ⟨0, _⟩ => exact (if_neg (show ¬ (4000000 : Nat) = 1 by decide)).symm

/-! Row r of a stack of five rows, each a rank-1 array laid along the second axis, read at edge e: the r-th array at e.
    Stated for arbitrary arrays related by these equations. -/

theorem stack_row0 {α : Type} {A : S5x4000000.Idx → α} {R0 R1 R2 R3 R4 : S1x4000000.Idx → α}
    {h : Shape.Concatenates [S1x4000000, S1x4000000, S1x4000000, S1x4000000, S1x4000000] S5x4000000 0}
    (hA : A = concatenate S5x4000000 0
      [⟨S1x4000000, R0⟩, ⟨S1x4000000, R1⟩, ⟨S1x4000000, R2⟩, ⟨S1x4000000, R3⟩, ⟨S1x4000000, R4⟩] h)
    {a : S4000000.Idx → α} (hR : R0 = broadcastInDim S1x4000000 ![1] bcast_S4000000_S1x4000000_1 a) (e : Fin 4000000) :
    A (ix2 (0 : Fin 5) e) = a (ix1 e) := by
  subst hA hR
  exact (concat5_apply _ _ _ _ _ h 0 e).trans (row_apply a e)

theorem stack_row1 {α : Type} {A : S5x4000000.Idx → α} {R0 R1 R2 R3 R4 : S1x4000000.Idx → α}
    {h : Shape.Concatenates [S1x4000000, S1x4000000, S1x4000000, S1x4000000, S1x4000000] S5x4000000 0}
    (hA : A = concatenate S5x4000000 0
      [⟨S1x4000000, R0⟩, ⟨S1x4000000, R1⟩, ⟨S1x4000000, R2⟩, ⟨S1x4000000, R3⟩, ⟨S1x4000000, R4⟩] h)
    {a : S4000000.Idx → α} (hR : R1 = broadcastInDim S1x4000000 ![1] bcast_S4000000_S1x4000000_1 a) (e : Fin 4000000) :
    A (ix2 (1 : Fin 5) e) = a (ix1 e) := by
  subst hA hR
  exact (concat5_apply _ _ _ _ _ h 1 e).trans (row_apply a e)

theorem stack_row2 {α : Type} {A : S5x4000000.Idx → α} {R0 R1 R2 R3 R4 : S1x4000000.Idx → α}
    {h : Shape.Concatenates [S1x4000000, S1x4000000, S1x4000000, S1x4000000, S1x4000000] S5x4000000 0}
    (hA : A = concatenate S5x4000000 0
      [⟨S1x4000000, R0⟩, ⟨S1x4000000, R1⟩, ⟨S1x4000000, R2⟩, ⟨S1x4000000, R3⟩, ⟨S1x4000000, R4⟩] h)
    {a : S4000000.Idx → α} (hR : R2 = broadcastInDim S1x4000000 ![1] bcast_S4000000_S1x4000000_1 a) (e : Fin 4000000) :
    A (ix2 (2 : Fin 5) e) = a (ix1 e) := by
  subst hA hR
  exact (concat5_apply _ _ _ _ _ h 2 e).trans (row_apply a e)

theorem stack_row3 {α : Type} {A : S5x4000000.Idx → α} {R0 R1 R2 R3 R4 : S1x4000000.Idx → α}
    {h : Shape.Concatenates [S1x4000000, S1x4000000, S1x4000000, S1x4000000, S1x4000000] S5x4000000 0}
    (hA : A = concatenate S5x4000000 0
      [⟨S1x4000000, R0⟩, ⟨S1x4000000, R1⟩, ⟨S1x4000000, R2⟩, ⟨S1x4000000, R3⟩, ⟨S1x4000000, R4⟩] h)
    {a : S4000000.Idx → α} (hR : R3 = broadcastInDim S1x4000000 ![1] bcast_S4000000_S1x4000000_1 a) (e : Fin 4000000) :
    A (ix2 (3 : Fin 5) e) = a (ix1 e) := by
  subst hA hR
  exact (concat5_apply _ _ _ _ _ h 3 e).trans (row_apply a e)

theorem stack_row4 {α : Type} {A : S5x4000000.Idx → α} {R0 R1 R2 R3 R4 : S1x4000000.Idx → α}
    {h : Shape.Concatenates [S1x4000000, S1x4000000, S1x4000000, S1x4000000, S1x4000000] S5x4000000 0}
    (hA : A = concatenate S5x4000000 0
      [⟨S1x4000000, R0⟩, ⟨S1x4000000, R1⟩, ⟨S1x4000000, R2⟩, ⟨S1x4000000, R3⟩, ⟨S1x4000000, R4⟩] h)
    {a : S4000000.Idx → α} (hR : R4 = broadcastInDim S1x4000000 ![1] bcast_S4000000_S1x4000000_1 a) (e : Fin 4000000) :
    A (ix2 (4 : Fin 5) e) = a (ix1 e) := by
  subst hA hR
  exact (concat5_apply _ _ _ _ _ h 4 e).trans (row_apply a e)

/-- Row r of the stack at edge e is the r-th gathered array at e. -/
theorem stack0 : V m c main_v75 (ix2 (0 : Fin 5) e) = V m c main_v37 (ix1 e) :=
  stack_row0 (V_v75 m c) (V_v70 m c) e
theorem stack1 : V m c main_v75 (ix2 (1 : Fin 5) e) = V m c main_v45 (ix1 e) :=
  stack_row1 (V_v75 m c) (V_v71 m c) e
theorem stack2 : V m c main_v75 (ix2 (2 : Fin 5) e) = V m c main_v53 (ix1 e) :=
  stack_row2 (V_v75 m c) (V_v72 m c) e
theorem stack3 : V m c main_v75 (ix2 (3 : Fin 5) e) = V m c main_v61 (ix1 e) :=
  stack_row3 (V_v75 m c) (V_v73 m c) e
theorem stack4 : V m c main_v75 (ix2 (4 : Fin 5) e) = V m c main_v69 (ix1 e) :=
  stack_row4 (V_v75 m c) (V_v74 m c) e

/-! ## The index clamps -/

/-- The clip of a word to [0, hi], written minimum(hi, maximum(0, w)), is the word when it is already there. -/
theorem clip_word (w hi : BitVec 32) (hhi : hi.toNat < 2 ^ 31) (hw : w.toNat ≤ hi.toNat) :
    IntOp.minsi hi (IntOp.maxsi 0#32 w) = w := by
  have hti : w.toInt = w.toNat := Predicate.toInt_eq_toNat_of_lt (by omega)
  have hth : hi.toInt = hi.toNat := Predicate.toInt_eq_toNat_of_lt hhi
  have h0 : (0#32 : BitVec 32).toInt = 0 := by decide
  have hmax : IntOp.maxsi 0#32 w = w := by
    unfold IntOp.maxsi
    rw [if_neg]
    simp only [BitVec.slt, hti, h0, decide_eq_true_eq]
    omega
  rw [hmax]
  unfold IntOp.minsi
  rw [if_neg]
  simp only [BitVec.slt, hti, hth, decide_eq_true_eq]
  omega

/-- The clip's eight operations read at one index: minimum(hi, maximum(lo, w)) of the word w there. Stated for
    arbitrary arrays related by these equations. -/
theorem clip_chain {c0 c1 v0 v3 : S_.Idx → BitVec 32} {v1 v2 v4 out srcV src : S4000000.Idx → BitVec 32} {lo hi : BitVec 32}
    (h0 : c0 = constantI S_ 32 lo) (h1 : c1 = constantI S_ 32 hi) (h2 : v0 = id c0)
    (h3 : v1 = broadcastInDim S4000000 ![] bcast_S_S4000000 v0) (h4 : v2 = maxsi v1 srcV) (h5 : v3 = id c1)
    (h6 : v4 = broadcastInDim S4000000 ![] bcast_S_S4000000 v3) (h7 : out = minsi v4 v2) (hs : srcV = src)
    (i : S4000000.Idx) : out i = IntOp.minsi hi (IntOp.maxsi lo (src i)) := by
  subst h0 h1 h2 h3 h4 h5 h6 h7 hs
  rfl

/-! The clip of the sources, operation by operation: the constants 0 and 9999, their copies, their broadcasts, the
    maximum of 0 with the source words and the minimum of 9999 with that. -/

theorem V_main_c : V m c main_c = constantI S_ 32 0#32 :=
  (preWrites (F := Ideal)).nullary (fun b => m (c, b)) 0 (by rfl) (by decide)
theorem V_main_c_0 : V m c main_c_0 = constantI S_ 32 9999#32 :=
  (preWrites (F := Ideal)).nullary (fun b => m (c, b)) 1 (by rfl) (by decide)
theorem V_main_call0_v0 : V m c main_call0_v0 = id (V m c main_c) :=
  (preWrites (F := Ideal)).tunary (fun b => m (c, b)) 2 (x := main_c) (y := main_call0_v0) (g := id) (by rfl) (by decide) (by decide)
theorem V_main_call0_v1 : V m c main_call0_v1 = broadcastInDim S4000000 ![] bcast_S_S4000000 (V m c main_call0_v0) :=
  (preWrites (F := Ideal)).tunary (fun b => m (c, b)) 3 (x := main_call0_v0) (y := main_call0_v1) (by rfl) (by decide) (by decide)
theorem V_main_call0_v2 : V m c main_call0_v2 = maxsi (V m c main_call0_v1) (V m c main_arg4) :=
  (preWrites (F := Ideal)).tbinary (fun b => m (c, b)) 4 (a := main_call0_v1) (b := main_arg4) (y := main_call0_v2) (by rfl) (by decide) (by decide) (by decide)
theorem V_main_call0_v3 : V m c main_call0_v3 = id (V m c main_c_0) :=
  (preWrites (F := Ideal)).tunary (fun b => m (c, b)) 5 (x := main_c_0) (y := main_call0_v3) (g := id) (by rfl) (by decide) (by decide)
theorem V_main_call0_v4 : V m c main_call0_v4 = broadcastInDim S4000000 ![] bcast_S_S4000000 (V m c main_call0_v3) :=
  (preWrites (F := Ideal)).tunary (fun b => m (c, b)) 6 (x := main_call0_v3) (y := main_call0_v4) (by rfl) (by decide) (by decide)
theorem V_main_v0 : V m c main_v0 = minsi (V m c main_call0_v4) (V m c main_call0_v2) :=
  (preWrites (F := Ideal)).tbinary (fun b => m (c, b)) 7 (a := main_call0_v4) (b := main_call0_v2) (y := main_v0) (by rfl) (by decide) (by decide) (by decide)

/-! The clip of the destinations, the same eight operations with the bound 1999. -/

theorem V_main_c_1 : V m c main_c_1 = constantI S_ 32 0#32 :=
  (preWrites (F := Ideal)).nullary (fun b => m (c, b)) 8 (by rfl) (by decide)
theorem V_main_c_2 : V m c main_c_2 = constantI S_ 32 1999#32 :=
  (preWrites (F := Ideal)).nullary (fun b => m (c, b)) 9 (by rfl) (by decide)
theorem V_main_call1_v0 : V m c main_call1_v0 = id (V m c main_c_1) :=
  (preWrites (F := Ideal)).tunary (fun b => m (c, b)) 10 (x := main_c_1) (y := main_call1_v0) (g := id) (by rfl) (by decide) (by decide)
theorem V_main_call1_v1 : V m c main_call1_v1 = broadcastInDim S4000000 ![] bcast_S_S4000000 (V m c main_call1_v0) :=
  (preWrites (F := Ideal)).tunary (fun b => m (c, b)) 11 (x := main_call1_v0) (y := main_call1_v1) (by rfl) (by decide) (by decide)
theorem V_main_call1_v2 : V m c main_call1_v2 = maxsi (V m c main_call1_v1) (V m c main_arg5) :=
  (preWrites (F := Ideal)).tbinary (fun b => m (c, b)) 12 (a := main_call1_v1) (b := main_arg5) (y := main_call1_v2) (by rfl) (by decide) (by decide) (by decide)
theorem V_main_call1_v3 : V m c main_call1_v3 = id (V m c main_c_2) :=
  (preWrites (F := Ideal)).tunary (fun b => m (c, b)) 13 (x := main_c_2) (y := main_call1_v3) (g := id) (by rfl) (by decide) (by decide)
theorem V_main_call1_v4 : V m c main_call1_v4 = broadcastInDim S4000000 ![] bcast_S_S4000000 (V m c main_call1_v3) :=
  (preWrites (F := Ideal)).tunary (fun b => m (c, b)) 14 (x := main_call1_v3) (y := main_call1_v4) (by rfl) (by decide) (by decide)
theorem V_main_v1 : V m c main_v1 = minsi (V m c main_call1_v4) (V m c main_call1_v2) :=
  (preWrites (F := Ideal)).tbinary (fun b => m (c, b)) 15 (a := main_call1_v4) (b := main_call1_v2) (y := main_v1) (by rfl) (by decide) (by decide) (by decide)

/-- An in-range source word passes the clip to [0, 9999] unchanged. -/
theorem clampSrc (s : Fin 10000) (hs : (m ((c : Thread nD τ).loc main_arg4) (ix1 e)).toNat = s.val) :
    V m c main_v0 (ix1 e) = m ((c : Thread nD τ).loc main_arg4) (ix1 e) :=
  (clip_chain (V_main_c m c) (V_main_c_0 m c) (V_main_call0_v0 m c) (V_main_call0_v1 m c) (V_main_call0_v2 m c)
      (V_main_call0_v3 m c) (V_main_call0_v4 m c) (V_main_v0 m c) (V_main_arg4 m c) (ix1 e)).trans
    (clip_word _ 9999#32 (by decide) (by have := s.isLt; rw [hs]; show s.val ≤ 9999; omega))

/-- An in-range destination word passes the clip to [0, 1999] unchanged. -/
theorem clampDst (t : Fin 2000) (ht : (m ((c : Thread nD τ).loc main_arg5) (ix1 e)).toNat = t.val) :
    V m c main_v1 (ix1 e) = m ((c : Thread nD τ).loc main_arg5) (ix1 e) :=
  (clip_chain (V_main_c_1 m c) (V_main_c_2 m c) (V_main_call1_v0 m c) (V_main_call1_v1 m c) (V_main_call1_v2 m c)
      (V_main_call1_v3 m c) (V_main_call1_v4 m c) (V_main_v1 m c) (V_main_arg5 m c) (ix1 e)).trans
    (clip_word _ 1999#32 (by decide) (by have := t.isLt; rw [ht]; show t.val ≤ 1999; omega))

/-! ## The factor gathers -/

/-- The take of one entry per edge from an [N, 1] column, read at one edge whose index word is a natural number t below N:
    the column is reshaped to a rank-1 table; negative indices would be wrapped by adding N, and the word is not
    negative; the gather reads the table at the start index read signed and clamped into [0, N − 1], which is t. Stated
    for arbitrary arrays related by these equations. -/
theorem take_chain {α : Type} {N : Nat} (hN0 : 0 < N) (hN : N < 2 ^ 31)
    (d : GatherDims ⟨1, ![N]⟩ S4000000x1 S4000000)
    (hcoll : d.collapsedSliceDims = [0]) (hob : d.operandBatchingDims = []) (hsim : d.startIndexMap = [0])
    (hivd : d.indexVectorDim = 1)
    {colV col : (⟨2, ![N, 1]⟩ : Shape).Idx → α} {tab : (⟨1, ![N]⟩ : Shape).Idx → α}
    {hc : (⟨2, ![N, 1]⟩ : Shape).ShapeCasts ⟨1, ![N]⟩}
    {c0 cN : S_.Idx → BitVec 32} {z nn idx sum wr : S4000000.Idx → BitVec 32} {lt : S4000000.Idx → BitVec 1}
    {st : S4000000x1.Idx → BitVec 32} {out : S4000000.Idx → α}
    (h0 : tab = shapeCast ⟨1, ![N]⟩ colV hc)
    (h1 : c0 = constantI S_ 32 0#32) (h2 : z = broadcastInDim S4000000 ![] bcast_S_S4000000 c0)
    (h3 : lt = cmpi .slt idx z) (h4 : cN = constantI S_ 32 (BitVec.ofNat 32 N))
    (h5 : nn = broadcastInDim S4000000 ![] bcast_S_S4000000 cN) (h6 : sum = addi idx nn)
    (h7 : wr = select lt sum idx) (h8 : st = broadcastInDim S4000000x1 ![0] bcast_S4000000_S4000000x1_0 wr)
    (h9 : out = Host.gather d tab st) (hcol : colV = col)
    (e : Fin 4000000) (t : Fin N) (ht : (idx (ix1 e)).toNat = t.val) :
    out (ix1 e) = col (ix2 t (0 : Fin 1)) := by
  subst h0 h1 h2 h3 h4 h5 h6 h7 h8 h9 hcol
  have hix : ix1 e = Shape.Idx.ofFin e := Shape.Idx.eq_ofFin (ix1 e)
  rw [hix] at ht ⊢
  have hlt : (idx (Shape.Idx.ofFin e)).toNat < 2 ^ 31 := by have := t.isLt; omega
  -- the wrap of negative indices leaves a non-negative word alone
  have hwr : select (cmpi .slt idx (broadcastInDim S4000000 ![] bcast_S_S4000000 (constantI S_ 32 0#32)))
      (addi idx (broadcastInDim S4000000 ![] bcast_S_S4000000 (constantI S_ 32 (BitVec.ofNat 32 N)))) idx
        (Shape.Idx.ofFin e) = idx (Shape.Idx.ofFin e) := by
    have hc0 : ¬ IntOp.cmpi .slt (idx (Shape.Idx.ofFin e)) 0#32 = 1#1 := by
      rw [Predicate.slt_iff_toNat hlt (by decide)]; simp
    show Scalar.select (IntOp.cmpi .slt (idx (Shape.Idx.ofFin e)) 0#32) _ _ = _
    unfold Scalar.select
    exact if_neg hc0
  rw [Predicate.gather_take d hcoll hob hsim hivd _ _ e hN0]
  -- the start index, read signed and clamped, is t; entry t of the reshaped column is its entry (t, 0)
  refine shapeCast_apply colV hc _ (ix2 t (0 : Fin 1)) ?_
  rw [Shape.rowMajor_val_two, Shape.rowMajor_val_one]
  show t.val * 1 + 0 = min (BitVec.toInt _).toNat (N - 1)
  rw [Predicate.bcast_col1, hwr, Predicate.toInt_eq_toNat_of_lt hlt, Int.toNat_natCast, ht]
  have := t.isLt
  omega

/-! The gene factor: the ten operations from the reshaped column to the gather. -/

theorem V_main_v54 : V m c main_v54 = shapeCast (s := S2000x1) (α := EReal) S2000 (V m c main_arg3) shapeCasts_S2000x1_S2000 :=
  (preWrites (F := Ideal)).reshape (fun b => m (c, b)) 75 (x := main_arg3) (y := main_v54) (he := rfl) (hn := shapeCasts_S2000x1_S2000)
    (by rfl) (by decide) (by decide)
theorem V_main_c_10 : V m c main_c_10 = constantI S_ 32 0#32 :=
  (preWrites (F := Ideal)).nullary (fun b => m (c, b)) 76 (by rfl) (by decide)
theorem V_main_v55 : V m c main_v55 = broadcastInDim S4000000 ![] bcast_S_S4000000 (V m c main_c_10) :=
  (preWrites (F := Ideal)).unary (fun b => m (c, b)) 77 (by rfl) (by decide) (by decide)
theorem V_main_v56 : V m c main_v56 = cmpi .slt (V m c main_v1) (V m c main_v55) :=
  (preWrites (F := Ideal)).binary (fun b => m (c, b)) 78 (by rfl) (by decide) (by decide) (by decide)
theorem V_main_c_11 : V m c main_c_11 = constantI S_ 32 2000#32 :=
  (preWrites (F := Ideal)).nullary (fun b => m (c, b)) 79 (by rfl) (by decide)
theorem V_main_v57 : V m c main_v57 = broadcastInDim S4000000 ![] bcast_S_S4000000 (V m c main_c_11) :=
  (preWrites (F := Ideal)).unary (fun b => m (c, b)) 80 (by rfl) (by decide) (by decide)
theorem V_main_v58 : V m c main_v58 = addi (V m c main_v1) (V m c main_v57) :=
  (preWrites (F := Ideal)).binary (fun b => m (c, b)) 81 (by rfl) (by decide) (by decide) (by decide)
theorem V_main_v59 : V m c main_v59 = select (V m c main_v56) (V m c main_v58) (V m c main_v1) :=
  (preWrites (F := Ideal)).ternary (fun b => m (c, b)) 82 (by rfl) (by decide) (by decide) (by decide) (by decide)
theorem V_main_v60 : V m c main_v60 = broadcastInDim S4000000x1 ![0] bcast_S4000000_S4000000x1_0 (V m c main_v59) :=
  (preWrites (F := Ideal)).unary (fun b => m (c, b)) 83 (by rfl) (by decide) (by decide)
theorem V_main_v61 : V m c main_v61 = Host.gather gather_S2000_S4000000x1_S4000000_n_0_n_n_0_1_1 (V m c main_v54) (V m c main_v60) :=
  (preWrites (F := Ideal)).binary (fun b => m (c, b)) 84 (by rfl) (by decide) (by decide) (by decide)

/-- The gathered gene factor at an edge whose destination word is the gene t: entry (t, 0) of the gene-factor column. -/
theorem geneFactor (t : Fin 2000) (ht : (m ((c : Thread nD τ).loc main_arg5) (ix1 e)).toNat = t.val) :
    V m c main_v61 (ix1 e) = m ((c : Thread nD τ).loc main_arg3) (ix2 t (0 : Fin 1)) :=
  take_chain (N := 2000) (by decide) (by decide) gather_S2000_S4000000x1_S4000000_n_0_n_n_0_1_1 rfl rfl rfl rfl
    (V_main_v54 m c) (V_main_c_10 m c) (V_main_v55 m c) (V_main_v56 m c) (V_main_c_11 m c) (V_main_v57 m c) (V_main_v58 m c)
    (V_main_v59 m c) (V_main_v60 m c) (V_main_v61 m c) (V_main_arg3 m c) e t
    ((congrArg BitVec.toNat (clampDst m c e t ht)).trans ht)

/-! The cell factor: the same ten operations over the cell-factor column and the clipped sources. -/

theorem V_main_v62 : V m c main_v62 = shapeCast (s := S10000x1) (α := EReal) S10000 (V m c main_arg2) shapeCasts_S10000x1_S10000 :=
  (preWrites (F := Ideal)).reshape (fun b => m (c, b)) 85 (x := main_arg2) (y := main_v62) (he := rfl) (hn := shapeCasts_S10000x1_S10000)
    (by rfl) (by decide) (by decide)
theorem V_main_c_12 : V m c main_c_12 = constantI S_ 32 0#32 :=
  (preWrites (F := Ideal)).nullary (fun b => m (c, b)) 86 (by rfl) (by decide)
theorem V_main_v63 : V m c main_v63 = broadcastInDim S4000000 ![] bcast_S_S4000000 (V m c main_c_12) :=
  (preWrites (F := Ideal)).unary (fun b => m (c, b)) 87 (by rfl) (by decide) (by decide)
theorem V_main_v64 : V m c main_v64 = cmpi .slt (V m c main_v0) (V m c main_v63) :=
  (preWrites (F := Ideal)).binary (fun b => m (c, b)) 88 (by rfl) (by decide) (by decide) (by decide)
theorem V_main_c_13 : V m c main_c_13 = constantI S_ 32 10000#32 :=
  (preWrites (F := Ideal)).nullary (fun b => m (c, b)) 89 (by rfl) (by decide)
theorem V_main_v65 : V m c main_v65 = broadcastInDim S4000000 ![] bcast_S_S4000000 (V m c main_c_13) :=
  (preWrites (F := Ideal)).unary (fun b => m (c, b)) 90 (by rfl) (by decide) (by decide)
theorem V_main_v66 : V m c main_v66 = addi (V m c main_v0) (V m c main_v65) :=
  (preWrites (F := Ideal)).binary (fun b => m (c, b)) 91 (by rfl) (by decide) (by decide) (by decide)
theorem V_main_v67 : V m c main_v67 = select (V m c main_v64) (V m c main_v66) (V m c main_v0) :=
  (preWrites (F := Ideal)).ternary (fun b => m (c, b)) 92 (by rfl) (by decide) (by decide) (by decide) (by decide)
theorem V_main_v68 : V m c main_v68 = broadcastInDim S4000000x1 ![0] bcast_S4000000_S4000000x1_0 (V m c main_v67) :=
  (preWrites (F := Ideal)).unary (fun b => m (c, b)) 93 (by rfl) (by decide) (by decide)
theorem V_main_v69 : V m c main_v69 = Host.gather gather_S10000_S4000000x1_S4000000_n_0_n_n_0_1_1 (V m c main_v62) (V m c main_v68) :=
  (preWrites (F := Ideal)).binary (fun b => m (c, b)) 94 (by rfl) (by decide) (by decide) (by decide)

/-- The gathered cell factor at an edge whose source word is the cell s: entry (s, 0) of the cell-factor column. -/
theorem cellFactor (s : Fin 10000) (hs : (m ((c : Thread nD τ).loc main_arg4) (ix1 e)).toNat = s.val) :
    V m c main_v69 (ix1 e) = m ((c : Thread nD τ).loc main_arg2) (ix2 s (0 : Fin 1)) :=
  take_chain (N := 10000) (by decide) (by decide) gather_S10000_S4000000x1_S4000000_n_0_n_n_0_1_1 rfl rfl rfl rfl
    (V_main_v62 m c) (V_main_c_12 m c) (V_main_v63 m c) (V_main_v64 m c) (V_main_c_13 m c) (V_main_v65 m c) (V_main_v66 m c)
    (V_main_v67 m c) (V_main_v68 m c) (V_main_v69 m c) (V_main_arg2 m c) e s
    ((congrArg BitVec.toNat (clampSrc m c e s hs)).trans hs)

end Cert.KernelIdeal.Hand

end
-- ==== Proof.KernelTables.lean ====
/-
  The three gathered pre-activation vectors, read at one edge.

  For each of the three linear heads the host builds a dense [10000, 2000] table: the cell features scaled column by column
  by the head's weight vector, contracted over the 64 features with the transposed gene features, plus the head's bias. The
  table is then flattened row-major to 20000000 entries and read, for every edge, at the flat position s * 2000 + t, where
  s is the edge's cell and t its gene. With s below 10000 and t below 2000 the flat position is a natural number below
  20000000, so the 32-bit arithmetic that forms it does not wrap, the wrap of negative positions leaves it alone, the
  gather's clamp into the table leaves it alone, and the entry read is entry (s, t) of the table:
  the sum over k of (c[s,k] * W[k]) * g[t,k], plus the bias.
-/
import proofs.«416161_j30889404793298_2_alg».proof.Proof.KernelWrites
import proofs.«416161_j30889404793298_2_alg».proof.Proof.Spec
import Idealize.ShloMosaic.Lib.ValueIdx
import Idealize.ShloMosaic.Lib.Pipeline.Value
import Idealize.ShloMosaic.Lib.ValueLayout
import Idealize.ShloMosaic.Lib.StableHlo.Predicate
import Idealize.ShloMosaic.PureOps.Ideal.Laws

set_option maxRecDepth 16384

noncomputable section

namespace Cert.KernelIdeal.Hand

open Idealize.ShloMosaic Idealize.ShloMosaic.TcCoe Idealize.ShloMosaic.ValueIdx Idealize.SL.Sem
open Idealize.ShloMosaic.StableHlo Cert.KernelIdeal Cert.KernelIdeal.Gen Cert.LibAfter Cert.Zinb

variable (m : (ℓ : Loc nD τ sig) → Buf (Elt Ideal) ℓ) (c : Dev nD) (e : Fin 4000000)

/-! The auxiliary definitions and lemmas. -/
namespace Tables

/-! ## One head as a function of its inputs -/

/-- The flat table position of every edge, as a 32-bit word: cell word times 2000 plus gene word. -/
def flatIdx (v0 v1 : IVec S4000000 32) : IVec S4000000 32 :=
  addi (muli v0 (broadcastInDim S4000000 ![] bcast_S_S4000000 (constantI S_ 32 2000#32))) v1

/-- The gather's start-index column: every negative position has 20000000 added once, and the vector is kept as an
    [E, 1] column. -/
def startCol (x : IVec S4000000 32) : IVec S4000000x1 32 :=
  broadcastInDim S4000000x1 ![0] bcast_S4000000_S4000000x1_0
    (select (cmpi .slt x (broadcastInDim S4000000 ![] bcast_S_S4000000 (constantI S_ 32 0#32)))
      (addi x (broadcastInDim S4000000 ![] bcast_S_S4000000 (constantI S_ 32 20000000#32))) x)

/-- The cell features scaled column by column by the weight vector: entry (s, k) is c[s,k] * W[k]. -/
def scaled (cf : FVec Ideal S10000x64 .f32) (W : FVec Ideal S64x1 .f32) : FVec Ideal S10000x64 .f32 :=
  mulf cf (broadcastInDim S10000x64 ![0, 1] bcast_S1x64_S10000x64_0_1
    (broadcastInDim S1x64 ![1] bcast_S64_S1x64_1 (shapeCast S64 W shapeCasts_S64x1_S64)))

/-- One head's dense [10000, 2000] table: the scaled cell features contracted with the transposed gene features, plus the
    bias. -/
def denseTable (cf : FVec Ideal S10000x64 .f32) (gf : FVec Ideal S2000x64 .f32) (W : FVec Ideal S64x1 .f32)
    (b : FVec Ideal S1 .f32) : FVec Ideal S10000x2000 .f32 :=
  addf
    (Host.dotGeneral dot_S10000x64_S64x2000_S10000x2000_1_0_0_1_n_n none (scaled cf W)
      (transpose S64x2000 [1, 0] gf transposes_S2000x64_S64x2000_1_0))
    (broadcastInDim S10000x2000 ![] bcast_S_S10000x2000 (shapeCast S_ b shapeCasts_S1_S_))

/-- One head's gathered vector: the flattened table read at every edge's start index. -/
def tableFn (cf : FVec Ideal S10000x64 .f32) (gf : FVec Ideal S2000x64 .f32) (W : FVec Ideal S64x1 .f32)
    (b : FVec Ideal S1 .f32) (v0 v1 : IVec S4000000 32) : FVec Ideal S4000000 .f32 :=
  Host.gather gather_S20000000_S4000000x1_S4000000_n_0_n_n_0_1_1
    (shapeCast S20000000 (denseTable cf gf W b) shapeCasts_S10000x2000_S20000000) (startCol (flatIdx v0 v1))

/-! ## The index arithmetic at one edge -/

/-- A rank-1 index written by its coordinate, in the two spellings the lemmas below meet. -/
theorem ix1_eq_ofFin {n : Nat} (p : Fin n) : ix1 p = Shape.Idx.ofFin p :=
  funext fun a => match a with | ⟨0, _⟩ => rfl

/-- With the cell word s below 10000 and the gene word t below 2000, the 32-bit product and sum do not wrap: the flat
    position is s * 2000 + t. -/
theorem flat_toNat (a b : BitVec 32) (s t : Nat) (ha : a.toNat = s) (hb : b.toNat = t) (hs : s < 10000) (ht : t < 2000) :
    (IntOp.addi (IntOp.muli a 2000#32) b).toNat = s * 2000 + t := by
  show (a * 2000#32 + b).toNat = s * 2000 + t
  rw [BitVec.toNat_add, BitVec.toNat_mul, ha, hb]
  have h2 : (2000#32 : BitVec 32).toNat = 2000 := rfl
  rw [h2, Nat.mod_eq_of_lt (a := s * 2000) (by omega), Nat.mod_eq_of_lt (by omega)]

/-- The flat position of edge e. -/
theorem flatIdx_apply (v0 v1 : IVec S4000000 32) (i : S4000000.Idx) :
    flatIdx v0 v1 i = IntOp.addi (IntOp.muli (v0 i) 2000#32) (v1 i) := rfl

/-- A position that is a natural number below 2³¹ is not negative as a signed word, so the wrap leaves it alone: the
    start-index column at row e is the position of edge e. -/
theorem startCol_apply (x : IVec S4000000 32) (p : Fin 4000000) (hx : (x (Shape.Idx.ofFin p)).toNat < 2 ^ 31) :
    startCol x (Predicate.ixP p) = x (Shape.Idx.ofFin p) := by
  unfold startCol
  rw [Predicate.bcast_col1]
  show Scalar.select (IntOp.cmpi .slt (x (Shape.Idx.ofFin p)) 0#32) _ (x (Shape.Idx.ofFin p)) = _
  unfold Scalar.select
  rw [if_neg]
  intro h
  exact Nat.not_lt_zero _ ((Predicate.slt_iff_toNat hx (by decide)).1 h)

/-! ## The gather, the flattening and the dense table at one edge -/

/-- The gather at edge e reads the flat table at the start index of row e, read signed and clamped into the table. With
    the start index a natural number below 20000000 this is the table at that number. -/
theorem gather_at (x : FVec Ideal S20000000 .f32) (idx : IVec S4000000x1 32) (p : Fin 4000000) (q : Fin 20000000)
    (hq : (idx (Predicate.ixP p)).toNat = q.val) :
    Host.gather gather_S20000000_S4000000x1_S4000000_n_0_n_n_0_1_1 x idx (Shape.Idx.ofFin p) = x (Shape.Idx.ofFin q) := by
  rw [Predicate.gather_take gather_S20000000_S4000000x1_S4000000_n_0_n_n_0_1_1 rfl rfl rfl rfl x idx p (by decide)]
  congr 2
  apply Fin.ext
  have hlt := q.isLt
  show min (idx (Predicate.ixP p)).toInt.toNat (20000000 - 1) = q.val
  rw [Predicate.toInt_eq_toNat_of_lt (by omega), hq, Int.toNat_natCast]
  omega

/-- Entry s * 2000 + t of the row-major flattening of a [10000, 2000] table is entry (s, t). -/
theorem flatten_at (x : FVec Ideal S10000x2000 .f32) (s : Fin 10000) (t : Fin 2000) (q : Fin 20000000)
    (hq : q.val = s.val * 2000 + t.val) :
    shapeCast S20000000 x shapeCasts_S10000x2000_S20000000 (Shape.Idx.ofFin q) = x (ix2 s t) := by
  refine shapeCast_apply x shapeCasts_S10000x2000_S20000000 (Shape.Idx.ofFin q) (ix2 s t) ?_
  rw [Shape.rowMajor_val_two, Shape.rowMajor_val_one]
  show s.val * 2000 + t.val = q.val
  exact hq.symm

/-- The scaled cell features at (s, k): the weight vector is read at k along both broadcasts and through the reshape of
    the [64, 1] column. -/
theorem scaled_apply (cf : FVec Ideal S10000x64 .f32) (W : FVec Ideal S64x1 .f32) (s : Fin 10000) (k : Fin 64) :
    scaled cf W (ix2 s k) = cf (ix2 s k) * W (ix2 k (0 : Fin 1)) := by
  unfold scaled
  rw [mulf_apply]
  congr 1
  refine (broadcastInDim_apply _ bcast_S1x64_S10000x64_0_1 _ (ix2 s k) (ix2 (0 : Fin 1) k) (fun a => match a with
    | ⟨0, _⟩ => by show (0 : Nat) = if (1 : Nat) = 1 then 0 else s.val; rw [if_pos rfl]
    | ⟨1, _⟩ => by show k.val = if (64 : Nat) = 1 then 0 else k.val; rw [if_neg (by decide)])).trans ?_
  refine (broadcastInDim_apply _ bcast_S64_S1x64_1 _ (ix2 (0 : Fin 1) k) (ix1 k) (fun a => match a with
    | ⟨0, _⟩ => by show k.val = if (64 : Nat) = 1 then 0 else k.val; rw [if_neg (by decide)])).trans ?_
  refine shapeCast_apply W shapeCasts_S64x1_S64 (ix1 k) (ix2 k (0 : Fin 1)) ?_
  rw [Shape.rowMajor_val_two, Shape.rowMajor_val_one]
  show k.val * 1 + 0 = k.val
  omega

/-- The transposed gene features at (k, t) are the gene features at (t, k). -/
theorem transposed_apply (gf : FVec Ideal S2000x64 .f32) (k : Fin 64) (t : Fin 2000) :
    transpose S64x2000 [1, 0] gf transposes_S2000x64_S64x2000_1_0 (ix2 k t) = gf (ix2 t k) :=
  transpose_apply [1, 0] gf transposes_S2000x64_S64x2000_1_0 (ix2 k t) (ix2 t k) (fun b => match b with
    | ⟨0, _⟩ => rfl
    | ⟨1, _⟩ => rfl)

/-- The broadcast bias reads the one entry of the bias array everywhere. -/
theorem bias_apply (b : FVec Ideal S1 .f32) (j : S10000x2000.Idx) :
    broadcastInDim S10000x2000 ![] bcast_S_S10000x2000 (shapeCast S_ b shapeCasts_S1_S_) j = b (ix1 (0 : Fin 1)) := by
  refine (broadcastInDim_apply _ bcast_S_S10000x2000 _ j ix0 (fun a => a.elim0)).trans ?_
  refine shapeCast_apply b shapeCasts_S1_S_ ix0 (ix1 (0 : Fin 1)) ?_
  rw [Shape.rowMajor_val_one]
  show (0 : Nat) = (Shape.rowMajorPi S_.size ix0).val
  rw [Shape.rowMajorPi_zero]

/-! The contraction's operand indices, axis by axis: the left operand is read at (row of the result, contraction
    position), the right operand at (contraction position, column of the result). -/

theorem dot_lhs_0 (i : S10000x2000.Idx) (q : dot_S10000x64_S64x2000_S10000x2000_1_0_0_1_n_n.contr.Idx) :
    (dot_S10000x64_S64x2000_S10000x2000_1_0_0_1_n_n.lhsIdx i q 0).val = (i 0).val := by
  unfold DotDims.lhsIdx
  rw [dif_neg (show ¬(0 : Fin S10000x64.rank) ∈ dot_S10000x64_S64x2000_S10000x2000_1_0_0_1_n_n.lhsBatch by decide),
    dif_pos (show (0 : Fin S10000x64.rank) ∈ dot_S10000x64_S64x2000_S10000x2000_1_0_0_1_n_n.lhsNonContracting by decide)]
  rfl
theorem dot_lhs_1 (i : S10000x2000.Idx) (q : dot_S10000x64_S64x2000_S10000x2000_1_0_0_1_n_n.contr.Idx) :
    (dot_S10000x64_S64x2000_S10000x2000_1_0_0_1_n_n.lhsIdx i q 1).val = (q ⟨0, by decide⟩).val :=
  dot_S10000x64_S64x2000_S10000x2000_1_0_0_1_n_n.lhsIdx_val_of_single rfl i q
theorem dot_rhs_0 (i : S10000x2000.Idx) (q : dot_S10000x64_S64x2000_S10000x2000_1_0_0_1_n_n.contr.Idx) :
    (dot_S10000x64_S64x2000_S10000x2000_1_0_0_1_n_n.rhsIdx i q 0).val = (q ⟨0, by decide⟩).val :=
  dot_S10000x64_S64x2000_S10000x2000_1_0_0_1_n_n.rhsIdx_val_of_single rfl i q
theorem dot_rhs_1 (i : S10000x2000.Idx) (q : dot_S10000x64_S64x2000_S10000x2000_1_0_0_1_n_n.contr.Idx) :
    (dot_S10000x64_S64x2000_S10000x2000_1_0_0_1_n_n.rhsIdx i q 1).val = (i 1).val := by
  unfold DotDims.rhsIdx
  rw [dif_neg (show ¬(1 : Fin S64x2000.rank) ∈ dot_S10000x64_S64x2000_S10000x2000_1_0_0_1_n_n.rhsBatch by decide),
    dif_pos (show (1 : Fin S64x2000.rank) ∈ dot_S10000x64_S64x2000_S10000x2000_1_0_0_1_n_n.rhsNonContracting by decide)]
  rfl

/-- The contraction at (s, t) is the sum over the 64 features of left (s, k) times right (k, t). -/
theorem dot_apply (l : FVec Ideal S10000x64 .f32) (r : FVec Ideal S64x2000 .f32) (s : Fin 10000) (t : Fin 2000) :
    Host.dotGeneral dot_S10000x64_S64x2000_S10000x2000_1_0_0_1_n_n none l r (ix2 s t)
      = ∑ k : Fin 64, l (ix2 s k) * r (ix2 k t) := by
  simp only [Host.dotGeneral]
  rw [Ideal.dotGeneral_apply, ← Equiv.sum_comp (contrEquiv1 dot_S10000x64_S64x2000_S10000x2000_1_0_0_1_n_n 64 rfl rfl).symm]
  refine Finset.sum_congr rfl fun k _ => ?_
  have hk := contrEquiv1_symm_val dot_S10000x64_S64x2000_S10000x2000_1_0_0_1_n_n 64 rfl rfl k
  have el : dot_S10000x64_S64x2000_S10000x2000_1_0_0_1_n_n.lhsIdx (ix2 s t)
      ((contrEquiv1 dot_S10000x64_S64x2000_S10000x2000_1_0_0_1_n_n 64 rfl rfl).symm k) = ix2 s k :=
    funext fun a => Fin.ext (by
      match a with
      | ⟨0, _⟩ => exact dot_lhs_0 _ _
      | ⟨1, _⟩ => exact (dot_lhs_1 _ _).trans hk)
  have er : dot_S10000x64_S64x2000_S10000x2000_1_0_0_1_n_n.rhsIdx (ix2 s t)
      ((contrEquiv1 dot_S10000x64_S64x2000_S10000x2000_1_0_0_1_n_n 64 rfl rfl).symm k) = ix2 k t :=
    funext fun a => Fin.ext (by
      match a with
      | ⟨0, _⟩ => exact (dot_rhs_0 _ _).trans hk
      | ⟨1, _⟩ => exact dot_rhs_1 _ _)
  rw [el, er]

/-- The dense table at (s, t) is the head's pre-activation for cell s and gene t. -/
theorem denseTable_apply (cf : FVec Ideal S10000x64 .f32) (gf : FVec Ideal S2000x64 .f32) (W : FVec Ideal S64x1 .f32)
    (b : FVec Ideal S1 .f32) (s : Fin 10000) (t : Fin 2000) : denseTable cf gf W b (ix2 s t) = headK cf gf W b s t := by
  unfold denseTable headK
  rw [addf_apply, dot_apply, bias_apply]
  congr 1
  refine Finset.sum_congr rfl fun k _ => ?_
  rw [scaled_apply, transposed_apply]

/-- ONE HEAD AT ONE EDGE. With the edge's cell word s below 10000 and its gene word t below 2000, the gathered vector at
    the edge is the head's pre-activation for (s, t). -/
theorem tableFn_apply (cf : FVec Ideal S10000x64 .f32) (gf : FVec Ideal S2000x64 .f32) (W : FVec Ideal S64x1 .f32)
    (b : FVec Ideal S1 .f32) (v0 v1 : IVec S4000000 32) (p : Fin 4000000) (s : Fin 10000) (t : Fin 2000)
    (hs : (v0 (ix1 p)).toNat = s.val) (ht : (v1 (ix1 p)).toNat = t.val) :
    tableFn cf gf W b v0 v1 (ix1 p) = headK cf gf W b s t := by
  rw [ix1_eq_ofFin] at hs ht ⊢
  have hsl := s.isLt
  have htl := t.isLt
  have hflat : (flatIdx v0 v1 (Shape.Idx.ofFin p)).toNat = s.val * 2000 + t.val := by
    rw [flatIdx_apply]; exact flat_toNat _ _ _ _ hs ht hsl htl
  have hlt : s.val * 2000 + t.val < 20000000 := by omega
  unfold tableFn
  rw [gather_at _ _ p ⟨s.val * 2000 + t.val, hlt⟩ (by rw [startCol_apply _ _ (by omega)]; exact hflat),
    flatten_at _ s t _ rfl]
  exact denseTable_apply cf gf W b s t

/-! ## The host operations, one at a time

Each buffer is written by one operation, at a known position of the line; what the line leaves there is that operation's
function of what the line leaves in its operands' buffers. -/

/-! ### Shared by the three heads: the transposed gene features and the flat position -/

theorem V_v14 : V m c main_v14 = transpose (s := S2000x64) (α := Ideal .f32) S64x2000 [1, 0] (V m c main_arg1) transposes_S2000x64_S64x2000_1_0 :=
  (preWrites (F := Ideal)).unary (fun b => m (c, b)) 28 (by rfl) (by decide) (by decide)

theorem V_c3 : V m c main_c_3 = constantI S_ 32 2000#32 :=
  (preWrites (F := Ideal)).nullary (fun b => m (c, b)) 41 (by rfl) (by decide)

theorem V_v27 : V m c main_v27 = broadcastInDim (s := S_) (α := BitVec 32) S4000000 ![] bcast_S_S4000000 (V m c main_c_3) :=
  (preWrites (F := Ideal)).unary (fun b => m (c, b)) 42 (by rfl) (by decide) (by decide)

theorem V_v28 : V m c main_v28 = (muli (V m c main_v0) (V m c main_v27) : IVec S4000000 32) :=
  (preWrites (F := Ideal)).binary (fun b => m (c, b)) 43 (by rfl) (by decide) (by decide) (by decide)

theorem V_v29 : V m c main_v29 = (addi (V m c main_v28) (V m c main_v1) : IVec S4000000 32) :=
  (preWrites (F := Ideal)).binary (fun b => m (c, b)) 44 (by rfl) (by decide) (by decide) (by decide)

/-- The flat position vector is cell word times 2000 plus gene word. -/
theorem V_v29_eq : V m c main_v29 = flatIdx (V m c main_v0) (V m c main_v1) := by
  rw [V_v29, V_v28, V_v27, V_c3]
  rfl

/-! ### The mean head -/

theorem V_v2 : V m c main_v2 = shapeCast (s := S64x1) (α := Ideal .f32) S64 (V m c main_arg6) shapeCasts_S64x1_S64 :=
  (preWrites (F := Ideal)).reshape (fun b => m (c, b)) 16 (x := main_arg6) (y := main_v2) (he := rfl) (hn := shapeCasts_S64x1_S64)
    (by rfl) (by decide) (by decide)

theorem V_v3 : V m c main_v3 = broadcastInDim (s := S64) (α := Ideal .f32) S1x64 ![1] bcast_S64_S1x64_1 (V m c main_v2) :=
  (preWrites (F := Ideal)).unary (fun b => m (c, b)) 17 (by rfl) (by decide) (by decide)

theorem V_v4 : V m c main_v4 = broadcastInDim (s := S1x64) (α := Ideal .f32) S10000x64 ![0, 1] bcast_S1x64_S10000x64_0_1 (V m c main_v3) :=
  (preWrites (F := Ideal)).unary (fun b => m (c, b)) 18 (by rfl) (by decide) (by decide)

theorem V_v5 : V m c main_v5 = (mulf (V m c main_arg0) (V m c main_v4) : FVec Ideal S10000x64 .f32) :=
  (preWrites (F := Ideal)).binary (fun b => m (c, b)) 19 (by rfl) (by decide) (by decide) (by decide)

theorem V_v15 : V m c main_v15
    = (Host.dotGeneral (φ₁ := .f32) (φ₂ := .f32) dot_S10000x64_S64x2000_S10000x2000_1_0_0_1_n_n none (V m c main_v5) (V m c main_v14) : FVec Ideal S10000x2000 .f32) :=
  (preWrites (F := Ideal)).binary (fun b => m (c, b)) 29 (by rfl) (by decide) (by decide) (by decide)

theorem V_v16 : V m c main_v16 = shapeCast (s := S1) (α := Ideal .f32) S_ (V m c main_arg7) shapeCasts_S1_S_ :=
  (preWrites (F := Ideal)).reshape (fun b => m (c, b)) 30 (x := main_arg7) (y := main_v16) (he := rfl) (hn := shapeCasts_S1_S_)
    (by rfl) (by decide) (by decide)

theorem V_v17 : V m c main_v17 = broadcastInDim (s := S_) (α := Ideal .f32) S10000x2000 ![] bcast_S_S10000x2000 (V m c main_v16) :=
  (preWrites (F := Ideal)).unary (fun b => m (c, b)) 31 (by rfl) (by decide) (by decide)

theorem V_v18 : V m c main_v18 = (addf (V m c main_v15) (V m c main_v17) : FVec Ideal S10000x2000 .f32) :=
  (preWrites (F := Ideal)).binary (fun b => m (c, b)) 32 (by rfl) (by decide) (by decide) (by decide)

theorem V_v30 : V m c main_v30 = shapeCast (s := S10000x2000) (α := Ideal .f32) S20000000 (V m c main_v18) shapeCasts_S10000x2000_S20000000 :=
  (preWrites (F := Ideal)).reshape (fun b => m (c, b)) 45 (x := main_v18) (y := main_v30) (he := rfl)
    (hn := shapeCasts_S10000x2000_S20000000) (by rfl) (by decide) (by decide)

theorem V_c4 : V m c main_c_4 = constantI S_ 32 0#32 :=
  (preWrites (F := Ideal)).nullary (fun b => m (c, b)) 46 (by rfl) (by decide)

theorem V_v31 : V m c main_v31 = broadcastInDim (s := S_) (α := BitVec 32) S4000000 ![] bcast_S_S4000000 (V m c main_c_4) :=
  (preWrites (F := Ideal)).unary (fun b => m (c, b)) 47 (by rfl) (by decide) (by decide)

theorem V_v32 : V m c main_v32 = (cmpi .slt (V m c main_v29) (V m c main_v31) : IVec S4000000 1) :=
  (preWrites (F := Ideal)).binary (fun b => m (c, b)) 48 (by rfl) (by decide) (by decide) (by decide)

theorem V_c5 : V m c main_c_5 = constantI S_ 32 20000000#32 :=
  (preWrites (F := Ideal)).nullary (fun b => m (c, b)) 49 (by rfl) (by decide)

theorem V_v33 : V m c main_v33 = broadcastInDim (s := S_) (α := BitVec 32) S4000000 ![] bcast_S_S4000000 (V m c main_c_5) :=
  (preWrites (F := Ideal)).unary (fun b => m (c, b)) 50 (by rfl) (by decide) (by decide)

theorem V_v34 : V m c main_v34 = (addi (V m c main_v29) (V m c main_v33) : IVec S4000000 32) :=
  (preWrites (F := Ideal)).binary (fun b => m (c, b)) 51 (by rfl) (by decide) (by decide) (by decide)

theorem V_v35 : V m c main_v35 = select (s := S4000000) (α := BitVec 32) (V m c main_v32) (V m c main_v34) (V m c main_v29) :=
  (preWrites (F := Ideal)).ternary (fun b => m (c, b)) 52 (by rfl) (by decide) (by decide) (by decide) (by decide)

theorem V_v36 : V m c main_v36 = broadcastInDim (s := S4000000) (α := BitVec 32) S4000000x1 ![0] bcast_S4000000_S4000000x1_0 (V m c main_v35) :=
  (preWrites (F := Ideal)).unary (fun b => m (c, b)) 53 (by rfl) (by decide) (by decide)

theorem V_v37 : V m c main_v37
    = (Host.gather gather_S20000000_S4000000x1_S4000000_n_0_n_n_0_1_1 (V m c main_v30) (V m c main_v36) : FVec Ideal S4000000 .f32) :=
  (preWrites (F := Ideal)).binary (fun b => m (c, b)) 54 (by rfl) (by decide) (by decide) (by decide)

/-- The mean head's gathered vector is the head function of the launched arrays and the two clamped index vectors. -/
theorem V_v37_eq : V m c main_v37
    = tableFn (V m c main_arg0) (V m c main_arg1) (V m c main_arg6) (V m c main_arg7) (V m c main_v0) (V m c main_v1) := by
  rw [V_v37, V_v36, V_v35, V_v34, V_v33, V_c5, V_v32, V_v31, V_c4, V_v29_eq, V_v30, V_v18, V_v17, V_v16, V_v15, V_v14, V_v5, V_v4,
    V_v3, V_v2]
  unfold tableFn denseTable scaled startCol
  rfl

/-! ### The dispersion head -/

theorem V_v6 : V m c main_v6 = shapeCast (s := S64x1) (α := Ideal .f32) S64 (V m c main_arg8) shapeCasts_S64x1_S64 :=
  (preWrites (F := Ideal)).reshape (fun b => m (c, b)) 20 (x := main_arg8) (y := main_v6) (he := rfl) (hn := shapeCasts_S64x1_S64)
    (by rfl) (by decide) (by decide)

theorem V_v7 : V m c main_v7 = broadcastInDim (s := S64) (α := Ideal .f32) S1x64 ![1] bcast_S64_S1x64_1 (V m c main_v6) :=
  (preWrites (F := Ideal)).unary (fun b => m (c, b)) 21 (by rfl) (by decide) (by decide)

theorem V_v8 : V m c main_v8 = broadcastInDim (s := S1x64) (α := Ideal .f32) S10000x64 ![0, 1] bcast_S1x64_S10000x64_0_1 (V m c main_v7) :=
  (preWrites (F := Ideal)).unary (fun b => m (c, b)) 22 (by rfl) (by decide) (by decide)

theorem V_v9 : V m c main_v9 = (mulf (V m c main_arg0) (V m c main_v8) : FVec Ideal S10000x64 .f32) :=
  (preWrites (F := Ideal)).binary (fun b => m (c, b)) 23 (by rfl) (by decide) (by decide) (by decide)

theorem V_v19 : V m c main_v19
    = (Host.dotGeneral (φ₁ := .f32) (φ₂ := .f32) dot_S10000x64_S64x2000_S10000x2000_1_0_0_1_n_n none (V m c main_v9) (V m c main_v14) : FVec Ideal S10000x2000 .f32) :=
  (preWrites (F := Ideal)).binary (fun b => m (c, b)) 33 (by rfl) (by decide) (by decide) (by decide)

theorem V_v20 : V m c main_v20 = shapeCast (s := S1) (α := Ideal .f32) S_ (V m c main_arg9) shapeCasts_S1_S_ :=
  (preWrites (F := Ideal)).reshape (fun b => m (c, b)) 34 (x := main_arg9) (y := main_v20) (he := rfl) (hn := shapeCasts_S1_S_)
    (by rfl) (by decide) (by decide)

theorem V_v21 : V m c main_v21 = broadcastInDim (s := S_) (α := Ideal .f32) S10000x2000 ![] bcast_S_S10000x2000 (V m c main_v20) :=
  (preWrites (F := Ideal)).unary (fun b => m (c, b)) 35 (by rfl) (by decide) (by decide)

theorem V_v22 : V m c main_v22 = (addf (V m c main_v19) (V m c main_v21) : FVec Ideal S10000x2000 .f32) :=
  (preWrites (F := Ideal)).binary (fun b => m (c, b)) 36 (by rfl) (by decide) (by decide) (by decide)

theorem V_v38 : V m c main_v38 = shapeCast (s := S10000x2000) (α := Ideal .f32) S20000000 (V m c main_v22) shapeCasts_S10000x2000_S20000000 :=
  (preWrites (F := Ideal)).reshape (fun b => m (c, b)) 55 (x := main_v22) (y := main_v38) (he := rfl)
    (hn := shapeCasts_S10000x2000_S20000000) (by rfl) (by decide) (by decide)

theorem V_c6 : V m c main_c_6 = constantI S_ 32 0#32 :=
  (preWrites (F := Ideal)).nullary (fun b => m (c, b)) 56 (by rfl) (by decide)

theorem V_v39 : V m c main_v39 = broadcastInDim (s := S_) (α := BitVec 32) S4000000 ![] bcast_S_S4000000 (V m c main_c_6) :=
  (preWrites (F := Ideal)).unary (fun b => m (c, b)) 57 (by rfl) (by decide) (by decide)

theorem V_v40 : V m c main_v40 = (cmpi .slt (V m c main_v29) (V m c main_v39) : IVec S4000000 1) :=
  (preWrites (F := Ideal)).binary (fun b => m (c, b)) 58 (by rfl) (by decide) (by decide) (by decide)

theorem V_c7 : V m c main_c_7 = constantI S_ 32 20000000#32 :=
  (preWrites (F := Ideal)).nullary (fun b => m (c, b)) 59 (by rfl) (by decide)

theorem V_v41 : V m c main_v41 = broadcastInDim (s := S_) (α := BitVec 32) S4000000 ![] bcast_S_S4000000 (V m c main_c_7) :=
  (preWrites (F := Ideal)).unary (fun b => m (c, b)) 60 (by rfl) (by decide) (by decide)

theorem V_v42 : V m c main_v42 = (addi (V m c main_v29) (V m c main_v41) : IVec S4000000 32) :=
  (preWrites (F := Ideal)).binary (fun b => m (c, b)) 61 (by rfl) (by decide) (by decide) (by decide)

theorem V_v43 : V m c main_v43 = select (s := S4000000) (α := BitVec 32) (V m c main_v40) (V m c main_v42) (V m c main_v29) :=
  (preWrites (F := Ideal)).ternary (fun b => m (c, b)) 62 (by rfl) (by decide) (by decide) (by decide) (by decide)

theorem V_v44 : V m c main_v44 = broadcastInDim (s := S4000000) (α := BitVec 32) S4000000x1 ![0] bcast_S4000000_S4000000x1_0 (V m c main_v43) :=
  (preWrites (F := Ideal)).unary (fun b => m (c, b)) 63 (by rfl) (by decide) (by decide)

theorem V_v45 : V m c main_v45
    = (Host.gather gather_S20000000_S4000000x1_S4000000_n_0_n_n_0_1_1 (V m c main_v38) (V m c main_v44) : FVec Ideal S4000000 .f32) :=
  (preWrites (F := Ideal)).binary (fun b => m (c, b)) 64 (by rfl) (by decide) (by decide) (by decide)

/-- The dispersion head's gathered vector is the head function of the launched arrays and the two clamped index vectors. -/
theorem V_v45_eq : V m c main_v45
    = tableFn (V m c main_arg0) (V m c main_arg1) (V m c main_arg8) (V m c main_arg9) (V m c main_v0) (V m c main_v1) := by
  rw [V_v45, V_v44, V_v43, V_v42, V_v41, V_c7, V_v40, V_v39, V_c6, V_v29_eq, V_v38, V_v22, V_v21, V_v20, V_v19, V_v14, V_v9, V_v8,
    V_v7, V_v6]
  unfold tableFn denseTable scaled startCol
  rfl

/-! ### The dropout head -/

theorem V_v10 : V m c main_v10 = shapeCast (s := S64x1) (α := Ideal .f32) S64 (V m c main_arg10) shapeCasts_S64x1_S64 :=
  (preWrites (F := Ideal)).reshape (fun b => m (c, b)) 24 (x := main_arg10) (y := main_v10) (he := rfl) (hn := shapeCasts_S64x1_S64)
    (by rfl) (by decide) (by decide)

theorem V_v11 : V m c main_v11 = broadcastInDim (s := S64) (α := Ideal .f32) S1x64 ![1] bcast_S64_S1x64_1 (V m c main_v10) :=
  (preWrites (F := Ideal)).unary (fun b => m (c, b)) 25 (by rfl) (by decide) (by decide)

theorem V_v12 : V m c main_v12 = broadcastInDim (s := S1x64) (α := Ideal .f32) S10000x64 ![0, 1] bcast_S1x64_S10000x64_0_1 (V m c main_v11) :=
  (preWrites (F := Ideal)).unary (fun b => m (c, b)) 26 (by rfl) (by decide) (by decide)

theorem V_v13 : V m c main_v13 = (mulf (V m c main_arg0) (V m c main_v12) : FVec Ideal S10000x64 .f32) :=
  (preWrites (F := Ideal)).binary (fun b => m (c, b)) 27 (by rfl) (by decide) (by decide) (by decide)

theorem V_v23 : V m c main_v23
    = (Host.dotGeneral (φ₁ := .f32) (φ₂ := .f32) dot_S10000x64_S64x2000_S10000x2000_1_0_0_1_n_n none (V m c main_v13) (V m c main_v14) : FVec Ideal S10000x2000 .f32) :=
  (preWrites (F := Ideal)).binary (fun b => m (c, b)) 37 (by rfl) (by decide) (by decide) (by decide)

theorem V_v24 : V m c main_v24 = shapeCast (s := S1) (α := Ideal .f32) S_ (V m c main_arg11) shapeCasts_S1_S_ :=
  (preWrites (F := Ideal)).reshape (fun b => m (c, b)) 38 (x := main_arg11) (y := main_v24) (he := rfl) (hn := shapeCasts_S1_S_)
    (by rfl) (by decide) (by decide)

theorem V_v25 : V m c main_v25 = broadcastInDim (s := S_) (α := Ideal .f32) S10000x2000 ![] bcast_S_S10000x2000 (V m c main_v24) :=
  (preWrites (F := Ideal)).unary (fun b => m (c, b)) 39 (by rfl) (by decide) (by decide)

theorem V_v26 : V m c main_v26 = (addf (V m c main_v23) (V m c main_v25) : FVec Ideal S10000x2000 .f32) :=
  (preWrites (F := Ideal)).binary (fun b => m (c, b)) 40 (by rfl) (by decide) (by decide) (by decide)

theorem V_v46 : V m c main_v46 = shapeCast (s := S10000x2000) (α := Ideal .f32) S20000000 (V m c main_v26) shapeCasts_S10000x2000_S20000000 :=
  (preWrites (F := Ideal)).reshape (fun b => m (c, b)) 65 (x := main_v26) (y := main_v46) (he := rfl)
    (hn := shapeCasts_S10000x2000_S20000000) (by rfl) (by decide) (by decide)

theorem V_c8 : V m c main_c_8 = constantI S_ 32 0#32 :=
  (preWrites (F := Ideal)).nullary (fun b => m (c, b)) 66 (by rfl) (by decide)

theorem V_v47 : V m c main_v47 = broadcastInDim (s := S_) (α := BitVec 32) S4000000 ![] bcast_S_S4000000 (V m c main_c_8) :=
  (preWrites (F := Ideal)).unary (fun b => m (c, b)) 67 (by rfl) (by decide) (by decide)

theorem V_v48 : V m c main_v48 = (cmpi .slt (V m c main_v29) (V m c main_v47) : IVec S4000000 1) :=
  (preWrites (F := Ideal)).binary (fun b => m (c, b)) 68 (by rfl) (by decide) (by decide) (by decide)

theorem V_c9 : V m c main_c_9 = constantI S_ 32 20000000#32 :=
  (preWrites (F := Ideal)).nullary (fun b => m (c, b)) 69 (by rfl) (by decide)

theorem V_v49 : V m c main_v49 = broadcastInDim (s := S_) (α := BitVec 32) S4000000 ![] bcast_S_S4000000 (V m c main_c_9) :=
  (preWrites (F := Ideal)).unary (fun b => m (c, b)) 70 (by rfl) (by decide) (by decide)

theorem V_v50 : V m c main_v50 = (addi (V m c main_v29) (V m c main_v49) : IVec S4000000 32) :=
  (preWrites (F := Ideal)).binary (fun b => m (c, b)) 71 (by rfl) (by decide) (by decide) (by decide)

theorem V_v51 : V m c main_v51 = select (s := S4000000) (α := BitVec 32) (V m c main_v48) (V m c main_v50) (V m c main_v29) :=
  (preWrites (F := Ideal)).ternary (fun b => m (c, b)) 72 (by rfl) (by decide) (by decide) (by decide) (by decide)

theorem V_v52 : V m c main_v52 = broadcastInDim (s := S4000000) (α := BitVec 32) S4000000x1 ![0] bcast_S4000000_S4000000x1_0 (V m c main_v51) :=
  (preWrites (F := Ideal)).unary (fun b => m (c, b)) 73 (by rfl) (by decide) (by decide)

theorem V_v53 : V m c main_v53
    = (Host.gather gather_S20000000_S4000000x1_S4000000_n_0_n_n_0_1_1 (V m c main_v46) (V m c main_v52) : FVec Ideal S4000000 .f32) :=
  (preWrites (F := Ideal)).binary (fun b => m (c, b)) 74 (by rfl) (by decide) (by decide) (by decide)

/-- The dropout head's gathered vector is the head function of the launched arrays and the two clamped index vectors. -/
theorem V_v53_eq : V m c main_v53
    = tableFn (V m c main_arg0) (V m c main_arg1) (V m c main_arg10) (V m c main_arg11) (V m c main_v0) (V m c main_v1) := by
  rw [V_v53, V_v52, V_v51, V_v50, V_v49, V_c9, V_v48, V_v47, V_c8, V_v29_eq, V_v46, V_v26, V_v25, V_v24, V_v23, V_v14, V_v13, V_v12,
    V_v11, V_v10]
  unfold tableFn denseTable scaled startCol
  rfl

end Tables

open Tables

/-! ## The three heads at one edge -/

/-- The mean head's gathered pre-activation at edge e, for the edge's cell s and gene t. -/
theorem table_m (s : Fin 10000) (t : Fin 2000)
    (hs : (m ((c : Thread nD τ).loc main_arg4) (ix1 e)).toNat = s.val)
    (ht : (m ((c : Thread nD τ).loc main_arg5) (ix1 e)).toNat = t.val)
    (h0 : V m c main_v0 (ix1 e) = m ((c : Thread nD τ).loc main_arg4) (ix1 e))
    (h1 : V m c main_v1 (ix1 e) = m ((c : Thread nD τ).loc main_arg5) (ix1 e)) :
    V m c main_v37 (ix1 e) = headK (m ((c : Thread nD τ).loc main_arg0)) (m ((c : Thread nD τ).loc main_arg1))
      (m ((c : Thread nD τ).loc main_arg6)) (m ((c : Thread nD τ).loc main_arg7)) s t := by
  rw [V_v37_eq, V_main_arg0 m c, V_main_arg1 m c, V_main_arg6 m c, V_main_arg7 m c]
  exact tableFn_apply _ _ _ _ _ _ e s t (by rw [h0]; exact hs) (by rw [h1]; exact ht)

/-- The dispersion head's gathered pre-activation at edge e. -/
theorem table_d (s : Fin 10000) (t : Fin 2000)
    (hs : (m ((c : Thread nD τ).loc main_arg4) (ix1 e)).toNat = s.val)
    (ht : (m ((c : Thread nD τ).loc main_arg5) (ix1 e)).toNat = t.val)
    (h0 : V m c main_v0 (ix1 e) = m ((c : Thread nD τ).loc main_arg4) (ix1 e))
    (h1 : V m c main_v1 (ix1 e) = m ((c : Thread nD τ).loc main_arg5) (ix1 e)) :
    V m c main_v45 (ix1 e) = headK (m ((c : Thread nD τ).loc main_arg0)) (m ((c : Thread nD τ).loc main_arg1))
      (m ((c : Thread nD τ).loc main_arg8)) (m ((c : Thread nD τ).loc main_arg9)) s t := by
  rw [V_v45_eq, V_main_arg0 m c, V_main_arg1 m c, V_main_arg8 m c, V_main_arg9 m c]
  exact tableFn_apply _ _ _ _ _ _ e s t (by rw [h0]; exact hs) (by rw [h1]; exact ht)

/-- The dropout head's gathered pre-activation at edge e. -/
theorem table_p (s : Fin 10000) (t : Fin 2000)
    (hs : (m ((c : Thread nD τ).loc main_arg4) (ix1 e)).toNat = s.val)
    (ht : (m ((c : Thread nD τ).loc main_arg5) (ix1 e)).toNat = t.val)
    (h0 : V m c main_v0 (ix1 e) = m ((c : Thread nD τ).loc main_arg4) (ix1 e))
    (h1 : V m c main_v1 (ix1 e) = m ((c : Thread nD τ).loc main_arg5) (ix1 e)) :
    V m c main_v53 (ix1 e) = headK (m ((c : Thread nD τ).loc main_arg0)) (m ((c : Thread nD τ).loc main_arg1))
      (m ((c : Thread nD τ).loc main_arg10)) (m ((c : Thread nD τ).loc main_arg11)) s t := by
  rw [V_v53_eq, V_main_arg0 m c, V_main_arg1 m c, V_main_arg10 m c, V_main_arg11 m c]
  exact tableFn_apply _ _ _ _ _ _ e s t (by rw [h0]; exact hs) (by rw [h1]; exact ht)

end Cert.KernelIdeal.Hand

end
-- ==== Proof.Range.lean ====
/-
  The index ranges the precondition states, read at one edge.

  The precondition is one conjunction of twelve scalar tests: ten say that every entry of a float input is finite, and the
  last two say, of the two integer tables of 4000000 edge endpoints, that every source word s has 0 ≤ s < 10000 and every
  destination word d has 0 ≤ d < 2000, both read as signed 32-bit integers. The conjunction is nested to the left, so the two
  integer tests are its two outermost right-hand conjuncts; the ten float tests are not needed here and are dropped.

  Each integer test is a reduction by "and", from the constant 1, of a mask over all edges into a single bit. If that bit is
  1 then every bit of the mask is 1. The mask bit at edge e is the "and" of the two comparisons 0 ≤ w and w < n of the word
  w at edge e, against broadcast scalars, so both comparisons hold at every edge.

  Finally a 32-bit word whose signed value v satisfies 0 ≤ v has its sign bit clear, so its unsigned value equals v; with
  v < n this gives an unsigned value below n.
-/
import proofs.«416161_j30889404793298_2_alg».proof.Pre_finite_inputs
import proofs.«416161_j30889404793298_2_alg».proof.Proof.Gen.Pre_finite_inputs
import Idealize.ShloMosaic.Lib.StableHlo.Predicate
import Idealize.ShloMosaic.Lib.ReduceAll
import Idealize.ShloMosaic.Lib.ValueIdx

noncomputable section

namespace Cert.Zinb.Range

open Idealize.ShloMosaic Idealize.ShloMosaic.ValueIdx Cert.Pre_finite_inputs

/-- The rank-0 shape has one index. -/
instance : Subsingleton S_.Idx := ⟨fun a b => funext fun d => d.elim0⟩

/-- A word w with 0 ≤ w and w < n as signed integers (n below 2³¹) is below n as a natural number. -/
theorem word_lt (w : BitVec 32) (n : Nat) (hn : n < 2 ^ 31)
    (h : IntOp.andi (IntOp.cmpi .sge w 0#32) (IntOp.cmpi .slt w (BitVec.ofNat 32 n)) = 1#1) : w.toNat < n := by
  obtain ⟨h0, h1⟩ := IntOp.andi_eq_one.1 h
  rw [IntOp.cmpi_sge] at h0
  rw [IntOp.cmpi_slt, StableHlo.Predicate.toInt_ofNat_small n hn] at h1
  have hz : (0#32 : BitVec 32).toInt = 0 := by decide
  rw [hz] at h0
  have hw := w.isLt
  rw [BitVec.toInt_eq_toNat_cond] at h0 h1
  split at h0 <;> omega

/-- Both integer masks of the precondition are 1 at every edge. -/
theorem masks {F : FTy → Type} [FloatOps F]
    (a0 : FVec F S10000x64 .f32) (a1 : FVec F S2000x64 .f32) (a2 : FVec F S10000x1 .f32) (a3 : FVec F S2000x1 .f32)
    (a4 : IVec S4000000 32) (a5 : IVec S4000000 32) (a6 : FVec F S64x1 .f32) (a7 : FVec F S1 .f32)
    (a8 : FVec F S64x1 .f32) (a9 : FVec F S1 .f32) (a10 : FVec F S64x1 .f32) (a11 : FVec F S1 .f32)
    (h : Cert.Pre_finite_inputs.fn (F := F) a0 a1 a2 a3 a4 a5 a6 a7 a8 a9 a10 a11 = fun _ => 1#1) (e : Fin 4000000) :
    IntOp.andi (IntOp.cmpi .sge (a4 (ix1 e)) 0#32) (IntOp.cmpi .slt (a4 (ix1 e)) 10000#32) = 1#1 ∧
    IntOp.andi (IntOp.cmpi .sge (a5 (ix1 e)) 0#32) (IntOp.cmpi .slt (a5 (ix1 e)) 2000#32) = 1#1 := by
  have e0 := congrFun h ix0
  dsimp only [fn, fn_part1, fn_part2, fn_part3] at e0
  -- the outermost conjunction: (… ∧ all-edges test of the sources) ∧ all-edges test of the destinations
  obtain ⟨e1, hd⟩ := IntOp.andi_eq_one.1 e0
  obtain ⟨-, hs⟩ := IntOp.andi_eq_one.1 e1
  exact ⟨Host.reduce_andi_all _ _ _ _ ix0 hs (ix1 e), Host.reduce_andi_all _ _ _ _ ix0 hd (ix1 e)⟩

/-- Every source word, read as a natural number, is below 10000. -/
theorem src_lt {F : FTy → Type} [FloatOps F]
    (a0 : FVec F S10000x64 .f32) (a1 : FVec F S2000x64 .f32) (a2 : FVec F S10000x1 .f32) (a3 : FVec F S2000x1 .f32)
    (a4 : IVec S4000000 32) (a5 : IVec S4000000 32) (a6 : FVec F S64x1 .f32) (a7 : FVec F S1 .f32)
    (a8 : FVec F S64x1 .f32) (a9 : FVec F S1 .f32) (a10 : FVec F S64x1 .f32) (a11 : FVec F S1 .f32)
    (h : Cert.Pre_finite_inputs.fn (F := F) a0 a1 a2 a3 a4 a5 a6 a7 a8 a9 a10 a11 = fun _ => 1#1) (e : Fin 4000000) :
    (a4 (Idealize.ShloMosaic.ValueIdx.ix1 e)).toNat < 10000 :=
  word_lt _ 10000 (by decide) (masks a0 a1 a2 a3 a4 a5 a6 a7 a8 a9 a10 a11 h e).1

/-- Every destination word, read as a natural number, is below 2000. -/
theorem dst_lt {F : FTy → Type} [FloatOps F]
    (a0 : FVec F S10000x64 .f32) (a1 : FVec F S2000x64 .f32) (a2 : FVec F S10000x1 .f32) (a3 : FVec F S2000x1 .f32)
    (a4 : IVec S4000000 32) (a5 : IVec S4000000 32) (a6 : FVec F S64x1 .f32) (a7 : FVec F S1 .f32)
    (a8 : FVec F S64x1 .f32) (a9 : FVec F S1 .f32) (a10 : FVec F S64x1 .f32) (a11 : FVec F S1 .f32)
    (h : Cert.Pre_finite_inputs.fn (F := F) a0 a1 a2 a3 a4 a5 a6 a7 a8 a9 a10 a11 = fun _ => 1#1) (e : Fin 4000000) :
    (a5 (Idealize.ShloMosaic.ValueIdx.ix1 e)).toNat < 2000 :=
  word_lt _ 2000 (by decide) (masks a0 a1 a2 a3 a4 a5 a6 a7 a8 a9 a10 a11 h e).2

end Cert.Zinb.Range

end
-- ==== Proof.LibRowGather.lean ====
/-
  A `stablehlo.gather` of WHOLE ROWS of a rank-2 operand, read at an index.

  What `x[idx]` of a table `x : [N, C]` at an integer vector `idx : [R]` lowers to: start indices `[R, 1]`, offset_dims
  `[1]`, collapsed_slice_dims `[0]`, start_index_map `[0]`, index_vector_dim `1`, slice sizes `[1, C]`. Result element
  `(r, j)` is the operand at row `idx[r, 0]` — read as a signed integer and clamped into `[0, N − 1]`, as the host gather
  clamps every start index — and column `j`.
-/
import Idealize.ShloMosaic.PureOps.Ideal
import Idealize.ShloMosaic.Lib.ValueIdx

noncomputable section

namespace Cert.LibRowGather

open Idealize.ShloMosaic Idealize.ShloMosaic.ValueIdx

variable {α : Type}

/-- Those dimension numbers for an operand `[N, C]`, start indices `[R, 1]` and result `[R, C]`; their conditions `wf`
    are decided on a program's literal shapes. -/
abbrev rowDims (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(r, j)`: the operand at the start index `idx[r, 0]`, read signed and clamped into
    `[0, N − 1]`, and at column `j`. -/
theorem gather_rows_apply {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (y : (⟨2, ![R, C]⟩ : Shape).Idx) :
    Host.gather (rowDims N C R wf) x idx y
      = x (ix2 (⟨min (idx (ix2 (⟨(y 0).val, idx2_lt0 y⟩ : Fin R) (0 : Fin 1))).toInt.toNat (N - 1), by omega⟩ : Fin N)
            (⟨(y 1).val, idx2_lt1 y⟩ : Fin C)) := by
  unfold Host.gather
  congr 1
  funext a
  refine Fin.ext ?_
  show (rowDims N C R wf).start y idx a + (rowDims N C R wf).batchCoord y a + (rowDims N C R wf).offCoord y a = _
  rw [GatherDims.batchCoord_eq_zero _ _ _ List.not_mem_nil]
  simp only [Nat.add_zero]
  match a with
  | ⟨0, _⟩ =>
    -- operand axis 0 (rows): in the start index map and collapsed, so the coordinate is the clamped start alone
    rw [GatherDims.offCoord_eq_zero _ _ _ (fun h => ((GatherDims.mem_sKept _ _).mp h).1 (List.mem_singleton.mpr rfl))]
    simp only [Nat.add_zero]
    unfold GatherDims.start
    rw [dif_pos (show (⟨0, by omega⟩ : Fin 2) ∈ (rowDims N C R wf).startIndexMap from List.mem_singleton.mpr rfl)]
    have hsi : (rowDims N C R wf).siIdx y ⟨List.idxOf (⟨0, by omega⟩ : Fin 2) (rowDims N C R wf).startIndexMap,
        List.idxOf_lt_length_iff.2 (List.mem_singleton.mpr rfl)⟩
          = ix2 (⟨(y 0).val, idx2_lt0 y⟩ : Fin R) (0 : Fin 1) := by
      funext b; refine Fin.ext ?_
      match b with
      | ⟨0, _⟩ => rfl
      | ⟨1, _⟩ => rfl
    rw [hsi]
    rfl
  | ⟨1, h1⟩ =>
    -- operand axis 1 (columns): not in the start index map, so the start is 0; it is the one kept axis, read by the
    -- result's offset axis 1
    have hne : (⟨1, h1⟩ : Fin 2) ≠ 0 := fun h => Nat.one_ne_zero (congrArg Fin.val h)
    have hst : (rowDims N C R wf).start y idx ⟨1, h1⟩ = 0 := by
      unfold GatherDims.start
      rw [dif_neg (fun h => hne (List.mem_singleton.mp h))]
    have hk : (⟨1, h1⟩ : Fin 2) ∈ (rowDims N C R wf).sKept :=
      (GatherDims.mem_sKept _ _).mpr ⟨fun h => hne (List.mem_singleton.mp h), List.not_mem_nil⟩
    rw [hst, Nat.zero_add]
    unfold GatherDims.offCoord
    rw [dif_pos hk]
    rfl

end Cert.LibRowGather

end
-- ==== Proof.LibTake.lean ====
/-
  jnp.take along axis 0 with in-range indices.

  The default-mode take wraps negative indices once, gathers with the wrapped indices as start
  indices, and replaces by a fill value every row whose wrapped index lies outside the table.
  When every index is already a natural number below the table's row count N (with N below 2³¹,
  so that each word is non-negative as a signed integer), nothing wraps, every row passes the
  range test, and the whole composite is the plain gather at the given indices.

  Also here: a concatenation of in-range indices with an iota stays in range.
-/
import Idealize.ShloMosaic.PureOps
import Idealize.ShloMosaic.Lib.StableHlo.Predicate
import Idealize.ShloMosaic.Lib.ReduceAll
import Idealize.ShloMosaic.Lib.Pipeline.Value

namespace Cert.LibTake

open Idealize.ShloMosaic
open Idealize.ShloMosaic.StableHlo.Predicate

variable {α : Type}

/-! ## A select whose condition is all ones -/

/-- A select under a mask that is 1 at every index returns its first branch. -/
theorem select_ones {s : Shape} (mask : IVec s 1) (a b : s.Idx → α) (h : ∀ i, mask i = 1#1) :
    select mask a b = a := by
  funext i
  show Scalar.select (mask i) (a i) (b i) = a i
  unfold Scalar.select
  rw [h i]
  exact if_pos rfl

/-- A select under a mask that is 1 nowhere returns its second branch. -/
theorem select_none {s : Shape} (mask : IVec s 1) (a b : s.Idx → α) (h : ∀ i, ¬ mask i = 1#1) :
    select mask a b = b := by
  funext i
  show Scalar.select (mask i) (a i) (b i) = b i
  unfold Scalar.select
  exact if_neg (h i)

/-! ## The wrap of negative indices -/

/-- With every index a natural number below N < 2³¹, no index is negative as a signed word, so the
    select that adds N to the negative ones returns the index vector itself. -/
theorem wrap_id {R N : Nat} (hN : N < 2 ^ 31) (idx : IVec ⟨1, ![R]⟩ 32) (hidx : ∀ r, (idx r).toNat < N)
    (hz hn : (⟨0, ![]⟩ : Shape).BroadcastsInDim ⟨1, ![R]⟩ ![]) :
    select (cmpi .slt idx (broadcastInDim ⟨1, ![R]⟩ ![] hz (constantI ⟨0, ![]⟩ 32 0#32)))
      (addi idx (broadcastInDim ⟨1, ![R]⟩ ![] hn (constantI ⟨0, ![]⟩ 32 (BitVec.ofNat 32 N)))) idx = idx := by
  apply select_none
  intro r
  show ¬ IntOp.cmpi .slt (idx r) 0#32 = 1#1
  have hr := hidx r
  rw [slt_iff_toNat (by omega) (by decide)]
  simp

/-! ## The range mask -/

/-- A left fold by `and` from 1 over words that are all 1 is 1. -/
theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = (1#1 : BitVec 1) from by decide]
    exact foldl_andi_ones f hf l

/-- A reduction by `and` from an initial value 1 of an array that is 1 everywhere is 1 at every result index. -/
theorem reduce_andi_ones {s t u : Shape} {axes : List (Fin s.rank)} (x : s.Idx → BitVec 1) (init : u.Idx → BitVec 1)
    (h : s.ReducesTo axes t) (hu : 0 < u.numel) (hx : ∀ i, x i = 1#1) (hinit : init (Shape.Idx.first hu) = 1#1)
    (j : t.Idx) : Host.reduce IntOp.andi x init h hu j = 1#1 := by
  rw [Host.reduce_eq_foldl, hinit]
  exact foldl_andi_ones x hx _

/-- With every index a natural number below N < 2³¹, the start-index column passes both range tests
    (0 ≤ index, index ≤ N − 1) in every row, so the row mask — their conjunction reduced by `and` along the
    column axis — is 1 at every row. -/
theorem mask_ones {R N : Nat} (hN : N < 2 ^ 31) (idx : IVec ⟨1, ![R]⟩ 32) (hidx : ∀ r, (idx r).toNat < N)
    (hI : (⟨1, ![R]⟩ : Shape).BroadcastsInDim ⟨2, ![R, 1]⟩ ![0])
    (h0 : (⟨0, ![]⟩ : Shape).BroadcastsInDim ⟨2, ![R, 1]⟩ ![])
    (h1 : (⟨1, ![1]⟩ : Shape).BroadcastsInDim ⟨2, ![1, 1]⟩ ![1])
    (h2 : (⟨2, ![1, 1]⟩ : Shape).BroadcastsInDim ⟨2, ![R, 1]⟩ ![0, 1])
    (hr : (⟨2, ![R, 1]⟩ : Shape).ReducesTo [1] ⟨1, ![R]⟩) (hu : 0 < (⟨0, ![]⟩ : Shape).numel)
    (j : (⟨1, ![R]⟩ : Shape).Idx) :
    Host.reduce IntOp.andi
      (andi
        (cmpi .sge (broadcastInDim ⟨2, ![R, 1]⟩ ![0] hI idx)
          (broadcastInDim ⟨2, ![R, 1]⟩ ![] h0 (constantI ⟨0, ![]⟩ 32 0#32)))
        (cmpi .sle (broadcastInDim ⟨2, ![R, 1]⟩ ![0] hI idx)
          (broadcastInDim ⟨2, ![R, 1]⟩ ![0, 1] h2
            (broadcastInDim ⟨2, ![1, 1]⟩ ![1] h1 (constantI ⟨1, ![1]⟩ 32 (BitVec.ofNat 32 (N - 1)))))))
      (constantI ⟨0, ![]⟩ 1 1#1) hr hu j = 1#1 := by
  apply reduce_andi_ones _ _ hr hu _ rfl
  intro i
  -- the start index at i is one of the given indices
  obtain ⟨r, hIr⟩ : ∃ r, broadcastInDim ⟨2, ![R, 1]⟩ ![0] hI idx i = idx r := ⟨_, rfl⟩
  have hlt := hidx r
  have hM : (BitVec.ofNat 32 (N - 1)).toNat = N - 1 := by
    rw [BitVec.toNat_ofNat]; exact Nat.mod_eq_of_lt (by omega)
  show IntOp.andi (IntOp.cmpi .sge (broadcastInDim ⟨2, ![R, 1]⟩ ![0] hI idx i) 0#32)
      (IntOp.cmpi .sle (broadcastInDim ⟨2, ![R, 1]⟩ ![0] hI idx i) (BitVec.ofNat 32 (N - 1))) = 1#1
  rw [hIr, IntOp.andi_eq_one, sge_iff_toNat (by omega) (by decide), sle_iff_toNat (by omega) (by rw [hM]; omega), hM]
  exact ⟨Nat.zero_le _, by omega⟩

/-! ## The take composite is the plain gather -/

/-- THE TAKE OF ROWS (a table whose gathered slices have C entries each; result [R, C]). With every index a natural number
    below N < 2³¹: the wrap of negative indices does nothing, the row mask — broadcast along the rows of the result — is
    all ones, and so the select between the gathered rows and the fill array is the gather at the given indices kept
    as an [R, 1] column. The table's shape, the gather's dimension numbers and the fill array are arbitrary. -/
theorem take_rows_eq {R N C : Nat} {s : Shape} (hN : N < 2 ^ 31) (idx : IVec ⟨1, ![R]⟩ 32)
    (hidx : ∀ r, (idx r).toNat < N) (d : GatherDims s ⟨2, ![R, 1]⟩ ⟨2, ![R, C]⟩) (x : s.Idx → α)
    (fill : (⟨2, ![R, C]⟩ : Shape).Idx → α)
    (hz hn : (⟨0, ![]⟩ : Shape).BroadcastsInDim ⟨1, ![R]⟩ ![])
    (hI : (⟨1, ![R]⟩ : Shape).BroadcastsInDim ⟨2, ![R, 1]⟩ ![0])
    (h0 : (⟨0, ![]⟩ : Shape).BroadcastsInDim ⟨2, ![R, 1]⟩ ![])
    (h1 : (⟨1, ![1]⟩ : Shape).BroadcastsInDim ⟨2, ![1, 1]⟩ ![1])
    (h2 : (⟨2, ![1, 1]⟩ : Shape).BroadcastsInDim ⟨2, ![R, 1]⟩ ![0, 1])
    (hr : (⟨2, ![R, 1]⟩ : Shape).ReducesTo [1] ⟨1, ![R]⟩) (hu : 0 < (⟨0, ![]⟩ : Shape).numel)
    (hm : (⟨1, ![R]⟩ : Shape).BroadcastsInDim ⟨2, ![R, C]⟩ ![0]) :
    select
      (broadcastInDim ⟨2, ![R, C]⟩ ![0] hm
        (Host.reduce IntOp.andi
          (andi
            (cmpi .sge
              (broadcastInDim ⟨2, ![R, 1]⟩ ![0] hI
                (select (cmpi .slt idx (broadcastInDim ⟨1, ![R]⟩ ![] hz (constantI ⟨0, ![]⟩ 32 0#32)))
                  (addi idx (broadcastInDim ⟨1, ![R]⟩ ![] hn (constantI ⟨0, ![]⟩ 32 (BitVec.ofNat 32 N)))) idx))
              (broadcastInDim ⟨2, ![R, 1]⟩ ![] h0 (constantI ⟨0, ![]⟩ 32 0#32)))
            (cmpi .sle
              (broadcastInDim ⟨2, ![R, 1]⟩ ![0] hI
                (select (cmpi .slt idx (broadcastInDim ⟨1, ![R]⟩ ![] hz (constantI ⟨0, ![]⟩ 32 0#32)))
                  (addi idx (broadcastInDim ⟨1, ![R]⟩ ![] hn (constantI ⟨0, ![]⟩ 32 (BitVec.ofNat 32 N)))) idx))
              (broadcastInDim ⟨2, ![R, 1]⟩ ![0, 1] h2
                (broadcastInDim ⟨2, ![1, 1]⟩ ![1] h1 (constantI ⟨1, ![1]⟩ 32 (BitVec.ofNat 32 (N - 1)))))))
          (constantI ⟨0, ![]⟩ 1 1#1) hr hu))
      (Host.gather d x
        (broadcastInDim ⟨2, ![R, 1]⟩ ![0] hI
          (select (cmpi .slt idx (broadcastInDim ⟨1, ![R]⟩ ![] hz (constantI ⟨0, ![]⟩ 32 0#32)))
            (addi idx (broadcastInDim ⟨1, ![R]⟩ ![] hn (constantI ⟨0, ![]⟩ 32 (BitVec.ofNat 32 N)))) idx)))
      fill
    = Host.gather d x (broadcastInDim ⟨2, ![R, 1]⟩ ![0] hI idx) := by
  rw [wrap_id hN idx hidx hz hn]
  apply select_ones
  intro i
  exact mask_ones hN idx hidx hI h0 h1 h2 hr hu _

/-- THE TAKE OF ENTRIES (a table whose gathered slices are single entries; result [R]). As `take_rows_eq`, the row
    mask used as it is. -/
theorem take_vec_eq {R N : Nat} {s : Shape} (hN : N < 2 ^ 31) (idx : IVec ⟨1, ![R]⟩ 32)
    (hidx : ∀ r, (idx r).toNat < N) (d : GatherDims s ⟨2, ![R, 1]⟩ ⟨1, ![R]⟩) (x : s.Idx → α)
    (fill : (⟨1, ![R]⟩ : Shape).Idx → α)
    (hz hn : (⟨0, ![]⟩ : Shape).BroadcastsInDim ⟨1, ![R]⟩ ![])
    (hI : (⟨1, ![R]⟩ : Shape).BroadcastsInDim ⟨2, ![R, 1]⟩ ![0])
    (h0 : (⟨0, ![]⟩ : Shape).BroadcastsInDim ⟨2, ![R, 1]⟩ ![])
    (h1 : (⟨1, ![1]⟩ : Shape).BroadcastsInDim ⟨2, ![1, 1]⟩ ![1])
    (h2 : (⟨2, ![1, 1]⟩ : Shape).BroadcastsInDim ⟨2, ![R, 1]⟩ ![0, 1])
    (hr : (⟨2, ![R, 1]⟩ : Shape).ReducesTo [1] ⟨1, ![R]⟩) (hu : 0 < (⟨0, ![]⟩ : Shape).numel) :
    select
      (Host.reduce IntOp.andi
        (andi
          (cmpi .sge
            (broadcastInDim ⟨2, ![R, 1]⟩ ![0] hI
              (select (cmpi .slt idx (broadcastInDim ⟨1, ![R]⟩ ![] hz (constantI ⟨0, ![]⟩ 32 0#32)))
                (addi idx (broadcastInDim ⟨1, ![R]⟩ ![] hn (constantI ⟨0, ![]⟩ 32 (BitVec.ofNat 32 N)))) idx))
            (broadcastInDim ⟨2, ![R, 1]⟩ ![] h0 (constantI ⟨0, ![]⟩ 32 0#32)))
          (cmpi .sle
            (broadcastInDim ⟨2, ![R, 1]⟩ ![0] hI
              (select (cmpi .slt idx (broadcastInDim ⟨1, ![R]⟩ ![] hz (constantI ⟨0, ![]⟩ 32 0#32)))
                (addi idx (broadcastInDim ⟨1, ![R]⟩ ![] hn (constantI ⟨0, ![]⟩ 32 (BitVec.ofNat 32 N)))) idx))
            (broadcastInDim ⟨2, ![R, 1]⟩ ![0, 1] h2
              (broadcastInDim ⟨2, ![1, 1]⟩ ![1] h1 (constantI ⟨1, ![1]⟩ 32 (BitVec.ofNat 32 (N - 1)))))))
        (constantI ⟨0, ![]⟩ 1 1#1) hr hu)
      (Host.gather d x
        (broadcastInDim ⟨2, ![R, 1]⟩ ![0] hI
          (select (cmpi .slt idx (broadcastInDim ⟨1, ![R]⟩ ![] hz (constantI ⟨0, ![]⟩ 32 0#32)))
            (addi idx (broadcastInDim ⟨1, ![R]⟩ ![] hn (constantI ⟨0, ![]⟩ 32 (BitVec.ofNat 32 N)))) idx)))
      fill
    = Host.gather d x (broadcastInDim ⟨2, ![R, 1]⟩ ![0] hI idx) := by
  rw [wrap_id hN idx hidx hz hn]
  apply select_ones
  intro i
  exact mask_ones hN idx hidx hI h0 h1 h2 hr hu i

/-! ## Indices followed by an iota -/

/-- A vector of n words each below B as a natural number, followed by the positions 0, 1, …, m − 1 with m ≤ B, has
    every entry below B. -/
theorem concat_iota_lt {n m T B : Nat} (hmB : m ≤ B) (v : IVec ⟨1, ![n]⟩ 32) (hv : ∀ i, (v i).toNat < B)
    (hc : Shape.Concatenates [(⟨1, ![n]⟩ : Shape), ⟨1, ![m]⟩] ⟨1, ![T]⟩ 0) (j : (⟨1, ![T]⟩ : Shape).Idx) :
    (concatenate ⟨1, ![T]⟩ 0 [⟨⟨1, ![n]⟩, v⟩, ⟨⟨1, ![m]⟩, iotaInDim ⟨1, ![m]⟩ 32 0⟩] hc j).toNat < B := by
  have hT : n + (m + 0) = T := hc.2.2
  have hj : (j 0).val < T := (j 0).isLt
  by_cases hlt : (j 0).val < n
  · rw [concatenate_pair_apply_left (t := ⟨1, ![T]⟩) (s₁ := ⟨1, ![n]⟩) (s₂ := ⟨1, ![m]⟩) (0 : Fin 1) v _ hc j rfl (Shape.Idx.ofFin ⟨(j 0).val, hlt⟩) (fun b => by
      have hb : b = 0 := Subsingleton.elim _ _
      subst hb; rfl)]
    exact hv _
  · have hm' : (j 0).val - n < m := by omega
    rw [concatenate_pair_apply_right (t := ⟨1, ![T]⟩) (s₁ := ⟨1, ![n]⟩) (s₂ := ⟨1, ![m]⟩) (0 : Fin 1) v _ hc j rfl rfl (Shape.Idx.ofFin ⟨(j 0).val - n, hm'⟩)
      (fun b hb => absurd (Subsingleton.elim _ _) hb) (by show (j 0).val - n + n = (j 0).val; omega)]
    show (BitVec.ofNat 32 ((j 0).val - n)).toNat < B
    rw [BitVec.toNat_ofNat]
    exact lt_of_le_of_lt (Nat.mod_le _ _) (by omega)

end Cert.LibTake
-- ==== Proof.RefValue.lean ====
/-
  The reference's three results read at one edge, over the extended reals.

  Edge e joins the cell s = src[e] and the gene t = dst[e], both given as natural numbers below the row counts of
  their tables. The reference first wraps negative indices (adds the row count where the index is negative as a
  signed word); a word below 2³¹ is not negative, so the wrap returns the index itself. Each of the four gathers
  of whole rows then reads its table at row s or t: the start index, read signed and clamped into the table, is
  the index itself.

  A head's pre-activation at e is the sum over the 64 features k of (c[s,k] · g[t,k]) · W[k] plus the bias: the
  product of the two gathered rows contracted with the weight column, plus the broadcast bias.

  On top sit the three pointwise chains. They are the chains of the specification except in three spellings, each
  an identity on the extended reals: the logistic is written out as 1 / (1 + exp(−a)) with the f32 word of 1.0,
  which denotes the extended real 1; inside the softplus the reference negates |d| where the specification
  subtracts it from the word of 0.0, which denotes 0; and the guard "d is not equal to itself" is an unordered
  comparison in the reference and an ordered one in the specification, the same bit since nothing is unordered.
-/
import proofs.«416161_j30889404793298_2_alg».proof.Proof.Gen.ReferenceIdeal.Read
import proofs.«416161_j30889404793298_2_alg».proof.Proof.Spec
import proofs.«416161_j30889404793298_2_alg».proof.Proof.LibRowGather
import proofs.«416161_j30889404793298_2_alg».proof.Proof.LibTake
import Idealize.ShloMosaic.Lib.StableHlo.Predicate
import Idealize.ShloMosaic.Lib.ValueIdx
import Idealize.ShloMosaic.PureOps.Ideal.Laws

noncomputable section

namespace Cert.Zinb.Ref

open Cert.ReferenceIdeal Cert.ReferenceIdeal.Read Idealize.ShloMosaic Idealize.ShloMosaic.ValueIdx Cert.Zinb

/-- A word below 2³¹ is not negative as a signed word, so the select that adds the row count to negative
    indices returns the word itself. -/
theorem wrap_word (a n : BitVec 32) (ha : a.toNat < 2 ^ 31) :
    Scalar.select (IntOp.cmpi .slt a 0#32) (IntOp.addi a n) a = a := by
  unfold Scalar.select
  refine if_neg ?_
  show ¬ IntOp.cmpi .slt a 0#32 = 1#1
  rw [StableHlo.Predicate.slt_iff_toNat ha (by decide)]
  simp

/-- A gather of whole rows read at (r, j), when the start index of row r is the natural number n below the
    table's row count: the table at (n, j). -/
theorem gather_row_at {α : Type} {N C R : Nat} (hN : 0 < N) (hN' : N ≤ 2 ^ 31)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ 32) (r : Fin R) (j : Fin C) (n : Fin N)
    (h : (idx (ix2 r (0 : Fin 1))).toNat = n.val) :
    Host.gather (LibRowGather.rowDims N C R wf) x idx (ix2 r j) = x (ix2 n j) := by
  rw [LibRowGather.gather_rows_apply hN wf x idx (ix2 r j)]
  have hlt : (idx (ix2 r (0 : Fin 1))).toNat < 2 ^ 31 := by have := n.isLt; omega
  have hi : (idx (ix2 r (0 : Fin 1))).toInt.toNat = n.val := by
    rw [StableHlo.Predicate.toInt_eq_toNat_of_lt hlt, Int.toNat_natCast, h]
  congr 1
  funext a
  match a with
  | ⟨0, _⟩ =>
    refine Fin.ext ?_
    show min (idx (ix2 r (0 : Fin 1))).toInt.toNat (N - 1) = n.val
    rw [hi]
    have := n.isLt
    omega
  | ⟨1, _⟩ => rfl

section
variable (x0 : (⟨S10000x64, .f32⟩ : BufTy).Contents (Elt Ideal)) (x1 : (⟨S2000x64, .f32⟩ : BufTy).Contents (Elt Ideal))
  (x2 : (⟨S10000x1, .f32⟩ : BufTy).Contents (Elt Ideal)) (x3 : (⟨S2000x1, .f32⟩ : BufTy).Contents (Elt Ideal))
  (x4 x5 : (⟨S4000000, .i32⟩ : BufTy).Contents (Elt Ideal))
  (e : Fin 4000000) (s : Fin 10000) (t : Fin 2000)

/-- The column of start indices [R, 1] at (i, 0) reads the index vector at i (one lemma per wrapped copy of the
    indices: the reference wraps src twice and dst twice). -/
theorem idx_col (i : Fin 4000000) : idx_main_v5 (ix2 i (0 : Fin 1)) = ix1 i := by
  funext a; match a with | ⟨0, _⟩ => rfl

/-- The wrapped src, as the start-index column of the cell-feature gather, is s at row e. -/
theorem v5_at (hs : (x4 (ix1 e)).toNat = s.val) : (val_main_v5 (F := Ideal) x4 (ix2 e (0 : Fin 1))).toNat = s.val := by
  rw [val_main_v5_apply, idx_col, val_main_v4_apply, val_main_v1_apply, val_main_v0_apply, val_main_c_apply,
    val_main_v3_apply, wrap_word _ _ (by have := s.isLt; omega)]
  exact hs

/-- The gathered cell features at (e, k) are c[s, k]. -/
theorem v6_at (hs : (x4 (ix1 e)).toNat = s.val) (k : Fin 64) :
    val_main_v6 (F := Ideal) x0 x4 (ix2 e k) = x0 (ix2 s k) :=
  gather_row_at (by decide) (by decide) _ x0 (val_main_v5 (F := Ideal) x4) e k s (v5_at x4 e s hs)

theorem idx_col12 (i : Fin 4000000) : idx_main_v12 (ix2 i (0 : Fin 1)) = ix1 i := by
  funext a; match a with | ⟨0, _⟩ => rfl
theorem idx_col20 (i : Fin 4000000) : idx_main_v20 (ix2 i (0 : Fin 1)) = ix1 i := by
  funext a; match a with | ⟨0, _⟩ => rfl
theorem idx_col27 (i : Fin 4000000) : idx_main_v27 (ix2 i (0 : Fin 1)) = ix1 i := by
  funext a; match a with | ⟨0, _⟩ => rfl

/-- The wrapped dst, as the start-index column of the gene-feature gather, is t at row e. -/
theorem v12_at (ht : (x5 (ix1 e)).toNat = t.val) : (val_main_v12 (F := Ideal) x5 (ix2 e (0 : Fin 1))).toNat = t.val := by
  rw [val_main_v12_apply, idx_col12, val_main_v11_apply, val_main_v8_apply, val_main_v7_apply, val_main_c_1_apply,
    val_main_v10_apply, wrap_word _ _ (by have := t.isLt; omega)]
  exact ht

/-- The wrapped dst, as the start-index column of the gene-factor gather, is t at row e. -/
theorem v20_at (ht : (x5 (ix1 e)).toNat = t.val) : (val_main_v20 (F := Ideal) x5 (ix2 e (0 : Fin 1))).toNat = t.val := by
  rw [val_main_v20_apply, idx_col20, val_main_v19_apply, val_main_v16_apply, val_main_v15_apply, val_main_c_3_apply,
    val_main_v18_apply, wrap_word _ _ (by have := t.isLt; omega)]
  exact ht

/-- The wrapped src, as the start-index column of the cell-factor gather, is s at row e. -/
theorem v27_at (hs : (x4 (ix1 e)).toNat = s.val) : (val_main_v27 (F := Ideal) x4 (ix2 e (0 : Fin 1))).toNat = s.val := by
  rw [val_main_v27_apply, idx_col27, val_main_v26_apply, val_main_v23_apply, val_main_v22_apply, val_main_c_5_apply,
    val_main_v25_apply, wrap_word _ _ (by have := s.isLt; omega)]
  exact hs

/-- The gathered gene features at (e, k) are g[t, k]. -/
theorem v13_at (ht : (x5 (ix1 e)).toNat = t.val) (k : Fin 64) :
    val_main_v13 (F := Ideal) x1 x5 (ix2 e k) = x1 (ix2 t k) :=
  gather_row_at (by decide) (by decide) _ x1 (val_main_v12 (F := Ideal) x5) e k t (v12_at x5 e t ht)

/-- The gathered gene factor at (e, 0) is the gene factor of t. -/
theorem v21_at (ht : (x5 (ix1 e)).toNat = t.val) :
    val_main_v21 (F := Ideal) x3 x5 (ix2 e (0 : Fin 1)) = x3 (ix2 t (0 : Fin 1)) :=
  gather_row_at (by decide) (by decide) _ x3 (val_main_v20 (F := Ideal) x5) e 0 t (v20_at x5 e t ht)

/-- The gathered cell factor at (e, 0) is the cell factor of s. -/
theorem v28_at (hs : (x4 (ix1 e)).toNat = s.val) :
    val_main_v28 (F := Ideal) x2 x4 (ix2 e (0 : Fin 1)) = x2 (ix2 s (0 : Fin 1)) :=
  gather_row_at (by decide) (by decide) _ x2 (val_main_v27 (F := Ideal) x4) e 0 s (v27_at x4 e s hs)

/-- The contraction's operand indices at result index (i, 0) and feature k: (i, k) on the left, (k, 0) on the right;
    the bias is read at its one entry. -/
theorem lidx_eq (i : Fin 4000000) (k : Fin 64) : lidx_main_v29 (ix2 i (0 : Fin 1)) k = ix2 i k := by
  funext a; match a with | ⟨0, _⟩ => rfl | ⟨1, _⟩ => rfl
theorem ridx_eq (i : Fin 4000000) (k : Fin 64) : ridx_main_v29 (ix2 i (0 : Fin 1)) k = ix2 k (0 : Fin 1) := by
  funext a; match a with | ⟨0, _⟩ => rfl | ⟨1, _⟩ => rfl
theorem bias_idx (i : S4000000x1.Idx) : idx_main_v30 (idx_main_v31 i) = ix1 (0 : Fin 1) := by
  funext a; match a with | ⟨0, _⟩ => rfl

/-- A head's pre-activation at edge e (the three heads are one term in the weight column W and the bias b):
    the sum over k of (c[s,k] · g[t,k]) · W[k], plus the bias. -/
theorem head_at (W : (⟨S64x1, .f32⟩ : BufTy).Contents (Elt Ideal)) (b : (⟨S1, .f32⟩ : BufTy).Contents (Elt Ideal))
    (hs : (x4 (ix1 e)).toNat = s.val) (ht : (x5 (ix1 e)).toNat = t.val) :
    val_main_v32 (F := Ideal) x0 x1 x4 x5 W b (ix2 e (0 : Fin 1)) = headR x0 x1 W b s t := by
  rw [val_main_v32_apply, val_main_v29_apply, val_main_v31_apply, val_main_v30_apply, bias_idx]
  unfold headR
  show (∑ k : Fin 64, _) + _ = _
  congr 1
  refine Finset.sum_congr rfl fun k _ => ?_
  rw [lidx_eq, ridx_eq, val_main_v14_apply, v6_at x0 x4 e s hs k, v13_at x1 x5 e t ht k]
  rfl

end

/-! ## The three identities between the two spellings -/

/-- The f32 word of 1.0 is the extended real 1. -/
theorem one_word : Ideal.ofBits .f32 0x3F800000#32 = 1 := by
  simp [Ideal.ofBits, Ideal.ieee, -EReal.coe_mul]; norm_num

/-- The logistic written out with the word of 1.0, 1 / (1 + exp (−a)), is the logistic. -/
theorem logistic_written_out (a : EReal) :
    Ideal.div (Ideal.ofBits .f32 0x3F800000#32) (Ideal.ofBits .f32 0x3F800000#32 + Ideal.exp (-a)) = Ideal.logistic a := by
  rw [one_word]; rfl

/-- Zero minus y is the negation of y. -/
theorem zero_word_sub (y : EReal) : Ideal.ofBits .f32 0x00000000#32 - y = -y := by
  rw [Ideal.ofBits_zero_f32, zero_sub]

/-- "d is not equal to itself", unordered or ordered, is the same bit (there is nothing unordered). -/
theorem cmp_une_self (d : EReal) : Ideal.cmp .une d d = Ideal.cmp .one d d := rfl

/-! ## The three results at one edge -/

/-- The dropout result at edge e: the logistic of the dropout head at (s, t). -/
theorem drop_at (x0 : (⟨S10000x64, .f32⟩ : BufTy).Contents (Elt Ideal)) (x1 : (⟨S2000x64, .f32⟩ : BufTy).Contents (Elt Ideal))
    (x4 x5 : (⟨S4000000, .i32⟩ : BufTy).Contents (Elt Ideal))
    (x10 : (⟨S64x1, .f32⟩ : BufTy).Contents (Elt Ideal)) (x11 : (⟨S1, .f32⟩ : BufTy).Contents (Elt Ideal))
    (e : Fin 4000000) (s : Fin 10000) (t : Fin 2000)
    (hs : (x4 (ix1 e)).toNat = s.val) (ht : (x5 (ix1 e)).toNat = t.val) :
    val_main_v52 (F := Ideal) x0 x1 x4 x5 x10 x11 (ix2 e (0 : Fin 1)) = dropK (headR x0 x1 x10 x11 s t) := by
  have h : val_main_v46 (F := Ideal) x0 x1 x4 x5 x10 x11 (ix2 e (0 : Fin 1)) = headR x0 x1 x10 x11 s t :=
    head_at x0 x1 x4 x5 e s t x10 x11 hs ht
  rw [val_main_v52_apply, val_main_v51_apply, val_main_cst_9_apply, val_main_v50_apply, val_main_v49_apply,
    val_main_cst_8_apply, val_main_v48_apply, val_main_v47_apply, h]
  exact logistic_written_out _

/-- The mean result at edge e: the cell factor of s times the clamped exp(gene factor of t × logistic(mean head)) − 1. -/
theorem mean_at (x0 : (⟨S10000x64, .f32⟩ : BufTy).Contents (Elt Ideal)) (x1 : (⟨S2000x64, .f32⟩ : BufTy).Contents (Elt Ideal))
    (x2 : (⟨S10000x1, .f32⟩ : BufTy).Contents (Elt Ideal)) (x3 : (⟨S2000x1, .f32⟩ : BufTy).Contents (Elt Ideal))
    (x4 x5 : (⟨S4000000, .i32⟩ : BufTy).Contents (Elt Ideal))
    (x6 : (⟨S64x1, .f32⟩ : BufTy).Contents (Elt Ideal)) (x7 : (⟨S1, .f32⟩ : BufTy).Contents (Elt Ideal))
    (e : Fin 4000000) (s : Fin 10000) (t : Fin 2000)
    (hs : (x4 (ix1 e)).toNat = s.val) (ht : (x5 (ix1 e)).toNat = t.val) :
    val_main_v61 (F := Ideal) x0 x1 x2 x3 x4 x5 x6 x7 (ix2 e (0 : Fin 1))
      = meanK (headR x0 x1 x6 x7 s t) (x3 (ix2 t (0 : Fin 1))) (x2 (ix2 s (0 : Fin 1))) := by
  rw [val_main_v61_apply, v28_at x2 x4 e s hs, val_main_v60_apply, val_main_call2_v4_apply, val_main_call2_v3_apply,
    val_main_cst_14_apply, val_main_call2_v2_apply, val_main_call2_v1_apply, val_main_call2_v0_apply,
    val_main_cst_13_apply, val_main_v59_apply, val_main_v58_apply, val_main_cst_12_apply, val_main_v57_apply,
    val_main_v56_apply, v21_at x3 x5 e t ht, val_main_v38_apply, val_main_v37_apply, val_main_cst_7_apply,
    val_main_v36_apply, val_main_v35_apply, val_main_cst_apply, val_main_v34_apply, val_main_v33_apply,
    head_at x0 x1 x4 x5 e s t x6 x7 hs ht]
  simp only [Ideal.ofBits_def, Ideal.hostDivf_def, Ideal.addf_def, Ideal.hostUnary_exp_def, Ideal.hostNegf_def,
    Ideal.negf_def, Ideal.mulf_def, Ideal.subf_def, Ideal.maximumf_def, Ideal.minimumf_def]
  rw [logistic_written_out]
  rfl

/-- The dispersion result at edge e: the clamped softplus of (gene factor of t × dispersion head). -/
theorem disp_at (x0 : (⟨S10000x64, .f32⟩ : BufTy).Contents (Elt Ideal)) (x1 : (⟨S2000x64, .f32⟩ : BufTy).Contents (Elt Ideal))
    (x3 : (⟨S2000x1, .f32⟩ : BufTy).Contents (Elt Ideal))
    (x4 x5 : (⟨S4000000, .i32⟩ : BufTy).Contents (Elt Ideal))
    (x8 : (⟨S64x1, .f32⟩ : BufTy).Contents (Elt Ideal)) (x9 : (⟨S1, .f32⟩ : BufTy).Contents (Elt Ideal))
    (e : Fin 4000000) (s : Fin 10000) (t : Fin 2000)
    (hs : (x4 (ix1 e)).toNat = s.val) (ht : (x5 (ix1 e)).toNat = t.val) :
    val_main_v55 (F := Ideal) x0 x1 x3 x4 x5 x8 x9 (ix2 e (0 : Fin 1))
      = dispK (headR x0 x1 x8 x9 s t) (x3 (ix2 t (0 : Fin 1))) := by
  have h : val_main_v42 (F := Ideal) x0 x1 x4 x5 x8 x9 (ix2 e (0 : Fin 1)) = headR x0 x1 x8 x9 s t :=
    head_at x0 x1 x4 x5 e s t x8 x9 hs ht
  have hz : val_main_v53 (F := Ideal) x0 x1 x3 x4 x5 x8 x9 (ix2 e (0 : Fin 1))
      = x3 (ix2 t (0 : Fin 1)) * headR x0 x1 x8 x9 s t := by
    rw [val_main_v53_apply, v21_at x3 x5 e t ht, h]; rfl
  rw [val_main_v55_apply, val_main_call1_v4_apply, val_main_call1_v3_apply, val_main_cst_11_apply,
    val_main_call1_v2_apply, val_main_call1_v1_apply, val_main_call1_v0_apply, val_main_cst_10_apply,
    val_main_v54_apply, val_main_call0_v4_apply, val_main_call0_v3_apply, val_main_call0_v2_apply,
    val_main_call0_cst_apply, val_main_call0_v6_apply, val_main_call0_v5_apply, val_main_call0_cst_apply,
    val_main_call0_v11_apply, val_main_call0_v1_apply, val_main_call0_v0_apply, val_main_call0_cst_apply,
    val_main_call0_v10_apply, val_main_call0_v9_apply, val_main_call0_v8_apply, val_main_call0_v7_apply,
    val_main_call0_v3_apply, val_main_call0_v2_apply, val_main_call0_cst_apply, hz]
  unfold dispK
  simp only [Ideal.ofBits_def, Ideal.addf_def, Ideal.hostUnary_exp_def, Ideal.hostUnary_log1p_def, Ideal.hostNegf_def,
    Ideal.hostAbsf_def, Ideal.absf_def, Ideal.negf_def, Ideal.subf_def, Ideal.maximumf_def, Ideal.minimumf_def,
    Ideal.cmpf_def, zero_word_sub, cmp_une_self]

end Cert.Zinb.Ref

end
-- ==== Proof.Bridge.lean ====
/-
  The kernel's three result columns are the reference's, entry by entry, at the ideal instance and under the
  precondition.

  Fix an edge e. The precondition says its two endpoint words are a cell s < 10000 and a gene t < 2000. On the kernel's
  side the entry (e, 0) of each result column is a row of the region's result array at column e, which is the pointwise
  map of the stacked array's column e; the stacked array's five rows at e are the three gathered table entries
  (the heads of (s, t) in the kernel's grouping) and the two gathered factors of t and s. On the reference's side the
  same entry is the same chain of the heads of (s, t) in the reference's grouping and the same two factors. The two
  groupings of a head agree. So the columns agree at every entry, hence as arrays.
-/
import proofs.«416161_j30889404793298_2_alg».proof.Proof.KernelTail
import proofs.«416161_j30889404793298_2_alg».proof.Proof.KernelStack
import proofs.«416161_j30889404793298_2_alg».proof.Proof.KernelTables
import proofs.«416161_j30889404793298_2_alg».proof.Proof.Range
import proofs.«416161_j30889404793298_2_alg».proof.Proof.RefValue
import proofs.«416161_j30889404793298_2_alg».proof.Defs

set_option maxRecDepth 16384

noncomputable section

namespace Cert.Bridge

open Idealize.ShloMosaic Idealize.ShloMosaic.TcCoe Idealize.ShloMosaic.ValueIdx Idealize.SL.Sem
open Cert.KernelIdeal Cert.KernelIdeal.Gen Cert.KernelIdeal.Hand Cert.Zinb

/-! ## The pointwise map at a column whose five entries are known -/

theorem mean_of {n : Nat} (X : (⟨2, ![5, n]⟩ : Shape).Idx → EReal) (e : Fin n) (a g f : EReal)
    (h0 : X (ix2 (0 : Fin 5) e) = a) (h3 : X (ix2 (3 : Fin 5) e) = g) (h4 : X (ix2 (4 : Fin 5) e) = f) :
    actAt X 0 e = meanK a g f := by
  unfold actAt; rw [if_pos rfl, h0, h3, h4]

theorem disp_of {n : Nat} (X : (⟨2, ![5, n]⟩ : Shape).Idx → EReal) (e : Fin n) (a g : EReal)
    (h1 : X (ix2 (1 : Fin 5) e) = a) (h3 : X (ix2 (3 : Fin 5) e) = g) : actAt X 1 e = dispK a g := by
  unfold actAt; rw [if_neg (by decide), if_pos rfl, h1, h3]

theorem drop_of {n : Nat} (X : (⟨2, ![5, n]⟩ : Shape).Idx → EReal) (e : Fin n) (a : EReal)
    (h2 : X (ix2 (2 : Fin 5) e) = a) : actAt X 2 e = dropK a := by
  unfold actAt; rw [if_neg (by decide), if_neg (by decide), h2]

variable (m : (ℓ : Loc nD τ sig) → Buf (Elt Ideal) ℓ) (hpre : Cert.Pre_KernelIdeal m) (c : Dev nD) (e : Fin 4000000)

/-- The cell of edge e: its source word, which the precondition bounds. -/
def cell : Fin 10000 := ⟨((m ((c : Thread nD τ).loc main_arg4)) (ix1 e)).toNat, Cert.Zinb.Range.src_lt _ _ _ _ _ _ _ _ _ _ _ _ (hpre c) e⟩
/-- The gene of edge e: its destination word. -/
def gene : Fin 2000 := ⟨((m ((c : Thread nD τ).loc main_arg5)) (ix1 e)).toNat, Cert.Zinb.Range.dst_lt _ _ _ _ _ _ _ _ _ _ _ _ (hpre c) e⟩

theorem cell_val : ((m ((c : Thread nD τ).loc main_arg4)) (ix1 e)).toNat = (cell m hpre c e).val := rfl
theorem gene_val : ((m ((c : Thread nD τ).loc main_arg5)) (ix1 e)).toNat = (gene m hpre c e).val := rfl

/-! ## The kernel's entries -/

theorem kernel_mean : Pipeline.afterTail₀ cfgs (dats m) 0 (V0 m) [hostOps1] c main_v79 (ix2 e (0 : Fin 1))
    = meanK (headR (m ((c : Thread nD τ).loc main_arg0)) (m ((c : Thread nD τ).loc main_arg1)) (m ((c : Thread nD τ).loc main_arg6)) (m ((c : Thread nD τ).loc main_arg7)) (cell m hpre c e) (gene m hpre c e))
        ((m ((c : Thread nD τ).loc main_arg3)) (ix2 (gene m hpre c e) (0 : Fin 1))) ((m ((c : Thread nD τ).loc main_arg2)) (ix2 (cell m hpre c e) (0 : Fin 1))) :=
  (result_mean m c e).trans (mean_of _ e _ _ _
    (((stack0 m c e).trans (table_m m c e (cell m hpre c e) (gene m hpre c e) (cell_val m hpre c e) (gene_val m hpre c e)
        (clampSrc m c e (cell m hpre c e) (cell_val m hpre c e)) (clampDst m c e (gene m hpre c e) (gene_val m hpre c e)))).trans (headK_eq_headR _ _ _ _ _ _))
    ((stack3 m c e).trans (geneFactor m c e (gene m hpre c e) (gene_val m hpre c e)))
    ((stack4 m c e).trans (cellFactor m c e (cell m hpre c e) (cell_val m hpre c e))))

theorem kernel_disp : Pipeline.afterTail₀ cfgs (dats m) 0 (V0 m) [hostOps1] c main_v82 (ix2 e (0 : Fin 1))
    = dispK (headR (m ((c : Thread nD τ).loc main_arg0)) (m ((c : Thread nD τ).loc main_arg1)) (m ((c : Thread nD τ).loc main_arg8)) (m ((c : Thread nD τ).loc main_arg9)) (cell m hpre c e) (gene m hpre c e)) ((m ((c : Thread nD τ).loc main_arg3)) (ix2 (gene m hpre c e) (0 : Fin 1))) :=
  (result_disp m c e).trans (disp_of _ e _ _
    (((stack1 m c e).trans (table_d m c e (cell m hpre c e) (gene m hpre c e) (cell_val m hpre c e) (gene_val m hpre c e)
        (clampSrc m c e (cell m hpre c e) (cell_val m hpre c e)) (clampDst m c e (gene m hpre c e) (gene_val m hpre c e)))).trans (headK_eq_headR _ _ _ _ _ _))
    ((stack3 m c e).trans (geneFactor m c e (gene m hpre c e) (gene_val m hpre c e))))

theorem kernel_drop : Pipeline.afterTail₀ cfgs (dats m) 0 (V0 m) [hostOps1] c main_v85 (ix2 e (0 : Fin 1))
    = dropK (headR (m ((c : Thread nD τ).loc main_arg0)) (m ((c : Thread nD τ).loc main_arg1)) (m ((c : Thread nD τ).loc main_arg10)) (m ((c : Thread nD τ).loc main_arg11)) (cell m hpre c e) (gene m hpre c e)) :=
  (result_drop m c e).trans (drop_of _ e _
    (((stack2 m c e).trans (table_p m c e (cell m hpre c e) (gene m hpre c e) (cell_val m hpre c e) (gene_val m hpre c e)
        (clampSrc m c e (cell m hpre c e) (cell_val m hpre c e)) (clampDst m c e (gene m hpre c e) (gene_val m hpre c e)))).trans (headK_eq_headR _ _ _ _ _ _)))

/-! ## The columns as arrays -/

/-- Every index of an [E, 1] column is (e, 0). -/
theorem col_idx (i : (⟨2, ![4000000, 1]⟩ : Shape).Idx) : i = ix2 (⟨(i 0).val, idx2_lt0 i⟩ : Fin 4000000) (0 : Fin 1) := by
  funext a
  have h1 : (i 1).val < 1 := (i 1).isLt
  match a with
  | ⟨0, _⟩ => rfl
  | ⟨1, _⟩ => apply Fin.ext; show (i 1).val = 0; omega

theorem mean_col (hpre : Cert.Pre_KernelIdeal m) : Cert.ReferenceIdeal.Read.val_main_v61 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
    = Pipeline.afterTail₀ cfgs (dats m) 0 (V0 m) [hostOps1] c main_v79 := by
  funext i
  rw [col_idx i]
  exact (Cert.Zinb.Ref.mean_at _ _ _ _ _ _ _ _ _ _ _ (cell_val m hpre c _) (gene_val m hpre c _)).trans (kernel_mean m hpre c _).symm

theorem disp_col (hpre : Cert.Pre_KernelIdeal m) : Cert.ReferenceIdeal.Read.val_main_v55 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg8)) (m ((c : Thread nD τ).loc main_arg9))
    = Pipeline.afterTail₀ cfgs (dats m) 0 (V0 m) [hostOps1] c main_v82 := by
  funext i
  rw [col_idx i]
  exact (Cert.Zinb.Ref.disp_at _ _ _ _ _ _ _ _ _ _ (cell_val m hpre c _) (gene_val m hpre c _)).trans (kernel_disp m hpre c _).symm

theorem drop_col (hpre : Cert.Pre_KernelIdeal m) : Cert.ReferenceIdeal.Read.val_main_v52 (F := Ideal) (m ((c : Thread nD τ).loc main_arg0)) (m ((c : Thread nD τ).loc main_arg1)) (m ((c : Thread nD τ).loc main_arg4)) (m ((c : Thread nD τ).loc main_arg5)) (m ((c : Thread nD τ).loc main_arg10)) (m ((c : Thread nD τ).loc main_arg11))
    = Pipeline.afterTail₀ cfgs (dats m) 0 (V0 m) [hostOps1] c main_v85 := by
  funext i
  rw [col_idx i]
  exact (Cert.Zinb.Ref.drop_at _ _ _ _ _ _ _ _ _ (cell_val m hpre c _) (gene_val m hpre c _)).trans (kernel_drop m hpre c _).symm

end Cert.Bridge

end
-- ==== Proof.lean ====
/-
  The ZINB decoder kernel against its reference.

  The kernel program never gathers the 64-wide feature rows per edge. It scales the cell features by a head's weights,
  multiplies by the transposed gene features to get a dense [10000, 2000] table of that head's pre-activations, and
  gathers ONE number per edge and head from the flattened table at src·2000 + dst; it gathers the gene and cell factors the
  same way, stacks the five gathered vectors into a [5, E] array, and runs a pointwise kernel over 50 tiles of 80000 edges
  that writes the mean, the dispersion and the dropout probability into a [3, E] array, which is then cut into three
  columns. The reference gathers the two feature rows of every edge, multiplies them, contracts with each head's weights,
  and applies the same pointwise chains. Under the precondition every endpoint word is a row of the table it indexes, so
  the kernel's clamps and the reference's wrap of negative indices are both the identity and both programs read the same
  rows. Each head is then the same sum of products of three numbers in two groupings, equal on the extended reals by
  commutativity and associativity alone, and the pointwise chains coincide; no float input needs to be finite for this.

  The three frames: each kernel program is host operations, one region, host operations, and its run comes from the
  launch theorem for that shape with the per-tile fact about the body; the reference is a straight line of host operations
  and its run is the composition of their functions. Nothing was rewritten when the kernel was idealized, so the
  statement that the idealized kernel is the kernel's idealization is the true proposition.
-/
import proofs.«416161_j30889404793298_2_alg».proof.Defs
import proofs.«416161_j30889404793298_2_alg».proof.Proof.Gen.Kernel
import proofs.«416161_j30889404793298_2_alg».proof.Proof.Gen.KernelIdeal
import proofs.«416161_j30889404793298_2_alg».proof.Proof.Gen.ReferenceIdeal
import proofs.«416161_j30889404793298_2_alg».proof.Proof.Gen.Pre_finite_inputs
import proofs.«416161_j30889404793298_2_alg».proof.Proof.Gen.ReferenceIdeal.Run
import proofs.«416161_j30889404793298_2_alg».proof.Proof.Gen.ReferenceIdeal.Read
import proofs.«416161_j30889404793298_2_alg».proof.Proof.BitsBody
import proofs.«416161_j30889404793298_2_alg».proof.Proof.Bridge

set_option maxRecDepth 16384

noncomputable section

namespace Cert.Proof

open Idealize.ShloMosaic Idealize.ShloMosaic.TcCoe Idealize.SL.Sem

/-- The kernel program as printed terminates without a fault and leaves its arguments as launched. -/
theorem frame_kernel : Cert.frame_Kernel := fun m ρ _ => Cert.Kernel.Hand.frame m ρ

/-- So does its idealization. -/
theorem frame_kernelIdeal : Cert.frame_KernelIdeal := fun m ρ _ => Cert.KernelIdeal.Hand.frame m ρ

/-- So does the reference: its run with the results dropped. -/
theorem frame_reference : Cert.frame_ReferenceIdeal := fun m ρ _ =>
  (θ_run Cert.ReferenceIdeal.defs _ _).mono (fun _ h c => (h c).2.2.2) (Cert.ReferenceIdeal.Value.run (F := Ideal) m ρ)

/-- From memories that agree on the twelve arguments the two idealized programs end with the same three result columns. -/
theorem algebraic : Cert.algebraic_KernelIdeal_ReferenceIdeal := by
  intro m ρ m' ρ' hpre hagree
  refine ⟨fun c => Pipeline.afterTail₀ Cert.KernelIdeal.cfgs (Cert.KernelIdeal.Hand.dats m) 0 (Cert.KernelIdeal.Hand.V0 m) [Cert.KernelIdeal.Gen.hostOps1] c Cert.KernelIdeal.main_v79,
    fun c => Pipeline.afterTail₀ Cert.KernelIdeal.cfgs (Cert.KernelIdeal.Hand.dats m) 0 (Cert.KernelIdeal.Hand.V0 m) [Cert.KernelIdeal.Gen.hostOps1] c Cert.KernelIdeal.main_v82,
    fun c => Pipeline.afterTail₀ Cert.KernelIdeal.cfgs (Cert.KernelIdeal.Hand.dats m) 0 (Cert.KernelIdeal.Hand.V0 m) [Cert.KernelIdeal.Gen.hostOps1] c Cert.KernelIdeal.main_v85, ?_, ?_⟩
  · refine (θ_run Cert.KernelIdeal.defs _ _).mono (fun r h c => ⟨
      (h c).2 Cert.KernelIdeal.main_v79 (Pipeline.mem_restRefs_of Cert.KernelIdeal.main_v79 (by decide) (by decide)),
      (h c).2 Cert.KernelIdeal.main_v82 (Pipeline.mem_restRefs_of Cert.KernelIdeal.main_v82 (by decide) (by decide)),
      (h c).2 Cert.KernelIdeal.main_v85 (Pipeline.mem_restRefs_of Cert.KernelIdeal.main_v85 (by decide) (by decide)),
      ((h c).2 Cert.KernelIdeal.main_arg0 (Pipeline.mem_restRefs_of Cert.KernelIdeal.main_arg0 (by decide) (by decide))).trans (Cert.KernelIdeal.Hand.W_main_arg0 m (Cert.KernelIdeal.Hand.dats m) c),
      ((h c).2 Cert.KernelIdeal.main_arg1 (Pipeline.mem_restRefs_of Cert.KernelIdeal.main_arg1 (by decide) (by decide))).trans (Cert.KernelIdeal.Hand.W_main_arg1 m (Cert.KernelIdeal.Hand.dats m) c),
      ((h c).2 Cert.KernelIdeal.main_arg2 (Pipeline.mem_restRefs_of Cert.KernelIdeal.main_arg2 (by decide) (by decide))).trans (Cert.KernelIdeal.Hand.W_main_arg2 m (Cert.KernelIdeal.Hand.dats m) c),
      ((h c).2 Cert.KernelIdeal.main_arg3 (Pipeline.mem_restRefs_of Cert.KernelIdeal.main_arg3 (by decide) (by decide))).trans (Cert.KernelIdeal.Hand.W_main_arg3 m (Cert.KernelIdeal.Hand.dats m) c),
      ((h c).2 Cert.KernelIdeal.main_arg4 (Pipeline.mem_restRefs_of Cert.KernelIdeal.main_arg4 (by decide) (by decide))).trans (Cert.KernelIdeal.Hand.W_main_arg4 m (Cert.KernelIdeal.Hand.dats m) c),
      ((h c).2 Cert.KernelIdeal.main_arg5 (Pipeline.mem_restRefs_of Cert.KernelIdeal.main_arg5 (by decide) (by decide))).trans (Cert.KernelIdeal.Hand.W_main_arg5 m (Cert.KernelIdeal.Hand.dats m) c),
      ((h c).2 Cert.KernelIdeal.main_arg6 (Pipeline.mem_restRefs_of Cert.KernelIdeal.main_arg6 (by decide) (by decide))).trans (Cert.KernelIdeal.Hand.W_main_arg6 m (Cert.KernelIdeal.Hand.dats m) c),
      ((h c).2 Cert.KernelIdeal.main_arg7 (Pipeline.mem_restRefs_of Cert.KernelIdeal.main_arg7 (by decide) (by decide))).trans (Cert.KernelIdeal.Hand.W_main_arg7 m (Cert.KernelIdeal.Hand.dats m) c),
      ((h c).2 Cert.KernelIdeal.main_arg8 (Pipeline.mem_restRefs_of Cert.KernelIdeal.main_arg8 (by decide) (by decide))).trans (Cert.KernelIdeal.Hand.W_main_arg8 m (Cert.KernelIdeal.Hand.dats m) c),
      ((h c).2 Cert.KernelIdeal.main_arg9 (Pipeline.mem_restRefs_of Cert.KernelIdeal.main_arg9 (by decide) (by decide))).trans (Cert.KernelIdeal.Hand.W_main_arg9 m (Cert.KernelIdeal.Hand.dats m) c),
      ((h c).2 Cert.KernelIdeal.main_arg10 (Pipeline.mem_restRefs_of Cert.KernelIdeal.main_arg10 (by decide) (by decide))).trans (Cert.KernelIdeal.Hand.W_main_arg10 m (Cert.KernelIdeal.Hand.dats m) c),
      ((h c).2 Cert.KernelIdeal.main_arg11 (Pipeline.mem_restRefs_of Cert.KernelIdeal.main_arg11 (by decide) (by decide))).trans (Cert.KernelIdeal.Hand.W_main_arg11 m (Cert.KernelIdeal.Hand.dats m) c)⟩)
      (Cert.KernelIdeal.Hand.run_main m ρ)
  · refine (θ_run Cert.ReferenceIdeal.defs _ _).mono (fun r h c => ⟨(h c).1.trans ?_, (h c).2.1.trans ?_, (h c).2.2.1.trans ?_, (h c).2.2.2⟩)
      (Cert.ReferenceIdeal.Value.run (F := Ideal) m' ρ')
    · rw [(hagree c).1, (hagree c).2.1, (hagree c).2.2.1, (hagree c).2.2.2.1, (hagree c).2.2.2.2.1, (hagree c).2.2.2.2.2.1, (hagree c).2.2.2.2.2.2.1, (hagree c).2.2.2.2.2.2.2.1]
      exact (Cert.ReferenceIdeal.Read.val_main_v61_eq _ _ _ _ _ _ _ _).trans (Cert.Bridge.mean_col m c hpre)
    · rw [Cert.ReferenceIdeal.Read.val_main_v55_eq, (hagree c).1, (hagree c).2.1, (hagree c).2.2.2.1, (hagree c).2.2.2.2.1, (hagree c).2.2.2.2.2.1, (hagree c).2.2.2.2.2.2.2.2.1, (hagree c).2.2.2.2.2.2.2.2.2.1]
      exact Cert.Bridge.disp_col m c hpre
    · rw [(hagree c).1, (hagree c).2.1, (hagree c).2.2.2.2.1, (hagree c).2.2.2.2.2.1, (hagree c).2.2.2.2.2.2.2.2.2.2.1, (hagree c).2.2.2.2.2.2.2.2.2.2.2]
      exact (Cert.ReferenceIdeal.Read.val_main_v52_eq _ _ _ _ _ _).trans (Cert.Bridge.drop_col m c hpre)

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
